-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S50000x512 : Shape := ⟨2, ![50000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x512 .f32) (main_arg1 : IVec S1024 32) (main_arg2 : FVec F S50000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S50000x512 .f32 := Host.absf main_arg2
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 50000#32
  let main_v13 : IVec S1024 32 := broadcastInDim S1024 ![] bcast_S_S1024 main_c_4
  let main_v14 : IVec S1024 1 := cmpi .slt main_arg1 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x512 : Shape := ⟨2, ![1024, 512]⟩
abbrev S1024 : Shape := ⟨1, ![1024]⟩
abbrev S50000x512 : Shape := ⟨2, ![50000, 512]⟩
abbrev S1024x1 : Shape := ⟨2, ![1024, 1]⟩
abbrev S2x1024x1 : Shape := ⟨3, ![2, 1024, 1]⟩
abbrev S1000x512 : Shape := ⟨2, ![1000, 512]⟩
abbrev S1x1024x1 : Shape := ⟨3, ![1, 1024, 1]⟩
abbrev S1000 : Shape := ⟨1, ![1000]⟩
abbrev S1000x1 : Shape := ⟨2, ![1000, 1]⟩
abbrev S512x1000 : Shape := ⟨2, ![512, 1000]⟩
abbrev S1024x1000 : Shape := ⟨2, ![1024, 1000]⟩
abbrev S1x1000 : Shape := ⟨2, ![1, 1000]⟩
abbrev S_ : Shape := ⟨0, ![]⟩

abbrev nBuf : Space → Nat
  | .hbm => 36
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S50000x512, .f32⟩
  | .hbm, ⟨3, _⟩ => ⟨S1024x1, .i32⟩
  | .hbm, ⟨4, _⟩ => ⟨S2x1024x1, .f32⟩
  | .hbm, ⟨5, _⟩ => ⟨S2x1024x1, .f32⟩
  | .hbm, ⟨6, _⟩ => ⟨S2x1024x1, .f32⟩
  | .hbm, ⟨7, _⟩ => ⟨S1x1024x1, .f32⟩
  | .hbm, ⟨8, _⟩ => ⟨S1024x1, .f32⟩
  | .hbm, ⟨9, _⟩ => ⟨S1x1024x1, .f32⟩
  | .hbm, ⟨10, _⟩ => ⟨S1024x1, .f32⟩
  | .hbm, ⟨11, _⟩ => ⟨S1x1024x1, .f32⟩
  | .hbm, ⟨12, _⟩ => ⟨S1024x1, .f32⟩
  | .hbm, ⟨13, _⟩ => ⟨S1x1024x1, .f32⟩
  | .hbm, ⟨14, _⟩ => ⟨S1024x1, .f32⟩
  | .hbm, ⟨15, _⟩ => ⟨S1x1024x1, .f32⟩
  | .hbm, ⟨16, _⟩ => ⟨S1024x1, .f32⟩
  | .hbm, ⟨17, _⟩ => ⟨S1x1024x1, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x512, .f32⟩
  | .local _ .vmem, ⟨1, _⟩ => ⟨S1024x1, .i32⟩
  | .local _ .vmem, ⟨2, _⟩ => ⟨S1000x512, .f32⟩
  | .local _ .vmem, ⟨3, _⟩ => ⟨S1000x512, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v77 : BitVec 1 := Scalar.cmpi .eq arg1 c24_i32
  let v78 : BitVec 32 := Scalar.extui v77
  let c0_i32_32 : BitVec 32 := 0#32
  let v79 : BitVec 1 := Scalar.cmpi .ne v78 c0_i32_32
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  broadcasts_S1024x1_S1024x512 : S1024x1.Broadcasts S1024x512
  bitsLt_bf16_f32 : FTy.bits .bf16 < FTy.bits .f32
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  transposes_S1000x512_p1_0_S512x1000 : S1000x512.Transposes [1, 0] S512x1000
  iota_S1x1000_d1_w32 : S1x1000.Iotas .tc 32 [1]
  broadcasts_S1024x1_S1024x1000 : S1024x1.Broadcasts S1024x1000
  broadcasts_S1x1000_S1024x1000 : S1x1000.Broadcasts S1024x1000
  reduces_S1024x1000_S1024 : S1024x1000.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  reducesTo_S1024x1_S_d0_1 : S1024x1.ReducesTo [0, 1] S_
  h_S_ : 0 < S_.numel
  dot_S1024x512_S512x1000_S1024x1000_1_0_0_1_n_n_wf : DotDims.WF S1024x512 S512x1000 S1024x1000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .i32 = 32 ∨ (Rect.block (s := S1024x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)

variable [Facts₀]

def dot_S1024x512_S512x1000_S1024x1000_1_0_0_1_n_n : DotDims S1024x512 S512x1000 S1024x1000 where
  lhsContracting := [1]
  rhsContracting := [0]
  lhsNonContracting := [0]
  rhsNonContracting := [1]
  lhsBatch := []
  rhsBatch := []
  wf := dot_S1024x512_S512x1000_S1024x1000_1_0_0_1_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S50000x512 : Shape := ⟨2, ![50000, 512]⟩
abbrev S_ : Shape := ⟨0, ![]⟩
abbrev S1024x1 : Shape := ⟨2, ![1024, 1]⟩
abbrev S50000 : Shape := ⟨1, ![50000]⟩
abbrev S50000x1 : Shape := ⟨2, ![50000, 1]⟩
abbrev S1024x50000 : Shape := ⟨2, ![1024, 50000]⟩
abbrev S1x50000 : Shape := ⟨2, ![1, 50000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S50000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S50000x512, .f32⟩
  | .hbm, ⟨14, _⟩ => ⟨S_, .f32⟩
  | .hbm, ⟨15, _⟩ => ⟨S50000, .f32⟩
  | .hbm, ⟨16, _⟩ => ⟨S50000x1, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S50000x512, .f32⟩
  | .hbm, ⟨22, _⟩ => ⟨S50000x512, .f32⟩
  | .hbm, ⟨23, _⟩ => ⟨S1024x50000, .f32⟩
  | .hbm, ⟨24, _⟩ => ⟨S1024x50000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x50000, .f32⟩
  | .hbm, ⟨29, _⟩ => ⟨S1024x50000, .f32⟩
  | .hbm, ⟨30, _⟩ => ⟨S_, .f32⟩
  | .hbm, ⟨31, _⟩ => ⟨S1024x50000, .f32⟩
  | .hbm, ⟨32, _⟩ => ⟨S1024x50000, .f32⟩
  | .hbm, ⟨33, _⟩ => ⟨S_, .f32⟩
  | .hbm, ⟨34, _⟩ => ⟨S1024x50000, .f32⟩
  | .hbm, ⟨35, _⟩ => ⟨S1024x50000, .f32⟩
  | .hbm, ⟨36, _⟩ => ⟨S1024x50000, .f32⟩
  | .hbm, ⟨37, _⟩ => ⟨S_, .f32⟩
  | .hbm, ⟨38, _⟩ => ⟨S1024x50000, .f32⟩
  | .hbm, ⟨39, _⟩ => ⟨S1024x50000, .f32⟩
  | .hbm, ⟨40, _⟩ => ⟨S_, .f32⟩
  | .hbm, ⟨41, _⟩ => ⟨S1024x50000, .f32⟩
  | .hbm, ⟨42, _⟩ => ⟨S1024x50000, .f32⟩
  | .hbm, ⟨43, _⟩ => ⟨S1024x50000, .f32⟩
  | .hbm, ⟨44, _⟩ => ⟨S_, .f32⟩
  | .hbm, ⟨45, _⟩ => ⟨S1024x50000, .f32⟩
  | .hbm, ⟨46, _⟩ => ⟨S1024x50000, .i1⟩
  | .hbm, ⟨47, _⟩ => ⟨S_, .f32⟩
  | .hbm, ⟨48, _⟩ => ⟨S1024x50000, .f32⟩
  | .hbm, ⟨49, _⟩ => ⟨S1024x50000, .f32⟩
  | .hbm, ⟨50, _⟩ => ⟨S1024x50000, .f32⟩
  | .hbm, ⟨51, _⟩ => ⟨S1024x1, .i32⟩
  | .hbm, ⟨52, _⟩ => ⟨S1x50000, .i32⟩
  | .hbm, ⟨53, _⟩ => ⟨S1024x50000, .i32⟩
  | .hbm, ⟨54, _⟩ => ⟨S1024x50000, .i32⟩
  | .hbm, ⟨55, _⟩ => ⟨S1024x50000, .i1⟩
  | .hbm, ⟨56, _⟩ => ⟨S1024x50000, .f32⟩
  | .hbm, ⟨57, _⟩ => ⟨S1024x50000, .f32⟩
  | .hbm, ⟨58, _⟩ => ⟨S_, .f32⟩
  | .hbm, ⟨59, _⟩ => ⟨S1024x50000, .f32⟩
  | .hbm, ⟨60, _⟩ => ⟨S1024x50000, .f32⟩
  | .hbm, ⟨61, _⟩ => ⟨S1024x50000, .f32⟩
  | .hbm, ⟨62, _⟩ => ⟨S1024x50000, .f32⟩
  | .hbm, ⟨63, _⟩ => ⟨S_, .f32⟩
  | .hbm, ⟨64, _⟩ => ⟨S1024x50000, .f32⟩
  | .hbm, ⟨65, _⟩ => ⟨S1024x50000, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024x1, .f32⟩
  | .hbm, ⟨72, _⟩ => ⟨S1024x50000, .f32⟩
  | .hbm, ⟨73, _⟩ => ⟨S1024x50000, .f32⟩
  | .hbm, ⟨74, _⟩ => ⟨S1024x50000, .f32⟩
  | .hbm, ⟨75, _⟩ => ⟨S_, .f32⟩
  | .hbm, ⟨76, _⟩ => ⟨S1024, .f32⟩
  | .hbm, ⟨77, _⟩ => ⟨S1024x1, .f32⟩
  | .hbm, ⟨78, _⟩ => ⟨S1024x1, .f32⟩
  | .hbm, ⟨79, _⟩ => ⟨S1024x50000, .f32⟩
  | .hbm, ⟨80, _⟩ => ⟨S1024x50000, .f32⟩
  | .hbm, ⟨81, _⟩ => ⟨S1024x1, .i32⟩
  | .hbm, ⟨82, _⟩ => ⟨S_, .i32⟩
  | .hbm, ⟨83, _⟩ => ⟨S1024x1, .i32⟩
  | .hbm, ⟨84, _⟩ => ⟨S1024x1, .i1⟩
  | .hbm, ⟨85, _⟩ => ⟨S_, .i32⟩
  | .hbm, ⟨86, _⟩ => ⟨S1024x1, .i32⟩
  | .hbm, ⟨87, _⟩ => ⟨S1024x1, .i32⟩
  | .hbm, ⟨88, _⟩ => ⟨S1024x1, .i32⟩
  | .hbm, ⟨89, _⟩ => ⟨S1024x1x1, .i32⟩
  | .hbm, ⟨90, _⟩ => ⟨S1, .i32⟩
  | .hbm, ⟨91, _⟩ => ⟨S_, .i32⟩
  | .hbm, ⟨92, _⟩ => ⟨S1024x1x1, .i32⟩
  | .hbm, ⟨93, _⟩ => ⟨S1024x1x1, .i1⟩
  | .hbm, ⟨94, _⟩ => ⟨S1x1x1, .i32⟩
  | .hbm, ⟨95, _⟩ => ⟨S1024x1x1, .i32⟩
  | .hbm, ⟨96, _⟩ => ⟨S1024x1x1, .i1⟩
  | .hbm, ⟨97, _⟩ => ⟨S1024x1x1, .i1⟩
  | .hbm, ⟨98, _⟩ => ⟨S_, .i1⟩
  | .hbm, ⟨99, _⟩ => ⟨S1024x1, .i1⟩
  | .hbm, ⟨100, _⟩ => ⟨S1024x1, .f32⟩
  | .hbm, ⟨101, _⟩ => ⟨S_, .f32⟩
  | .hbm, ⟨102, _⟩ => ⟨S1024x1, .f32⟩
  | .hbm, ⟨103, _⟩ => ⟨S1024x1, .f32⟩
  | .hbm, ⟨104, _⟩ => ⟨S1024, .f32⟩
  | .hbm, ⟨105, _⟩ => ⟨S1024, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_call3_cst : Ref sig .tc := ⟨.hbm, 66, rfl⟩
abbrev main_call3_v0 : Ref sig .tc := ⟨.hbm, 67, rfl⟩
abbrev main_call3_cst_0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_cst_1 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_v40 : Ref sig .tc := ⟨.hbm, 80, rfl⟩
abbrev main_v41 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_cst : Ref sig .tc := ⟨.hbm, 101, rfl⟩
abbrev main_call4_v14 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_12 : Ref sig .tc := ⟨.hbm, 106, rfl⟩
abbrev main_v45 : Ref sig .tc := ⟨.hbm, 107, rfl⟩
abbrev main_cst_13 : Ref sig .tc := ⟨.hbm, 108, rfl⟩
abbrev main_v46 : Ref sig .tc := ⟨.hbm, 109, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  bcast_S_S1024x50000 : S_.BroadcastsInDim S1024x50000 (![] : Fin 0 → Fin S1024x50000.rank)
  bcast_S1024x1_S1024x50000_0_1 : S1024x1.BroadcastsInDim S1024x50000 (![0, 1] : Fin 2 → Fin S1024x50000.rank)
  bcast_S1x50000_S1024x50000_0_1 : S1x50000.BroadcastsInDim S1024x50000 (![0, 1] : Fin 2 → Fin S1024x50000.rank)
  reducesTo_S1024x50000_S1024_d1 : S1024x50000.ReducesTo [1] S1024
  bcast_S_S1024 : S_.BroadcastsInDim S1024 (![] : Fin 0 → Fin S1024.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  dot_S1024x512_S50000x512_S1024x50000_1_1_0_0_n_n_wf : DotDims.WF S1024x512 S50000x512 S1024x50000 [1] [1] [0] [0] [] []
  gather_S1024x50000_S1024x1x1_S1024x1_n_1_0_0_1_2_11_wf : GatherDims.WF S1024x50000 S1024x1x1 S1024x1 [] [1] [0] [1] [0] 2 ![1, 1]

variable [Facts₀]

def dot_S1024x512_S50000x512_S1024x50000_1_1_0_0_n_n : DotDims S1024x512 S50000x512 S1024x50000 where
  lhsContracting := [1]
  rhsContracting := [1]
  lhsNonContracting := [0]
  rhsNonContracting := [0]
  lhsBatch := []
  rhsBatch := []
  wf := dot_S1024x512_S50000x512_S1024x50000_1_1_0_0_n_n_wf
def gather_S1024x50000_S1024x1x1_S1024x1_n_1_0_0_1_2_11 : GatherDims S1024x50000 S1024x1x1 S1024x1 where
  offsetDims := []
  collapsedSliceDims := [1]
  operandBatchingDims := [0]
  startIndicesBatchingDims := [0]
  startIndexMap := [1]
  indexVectorDim := 2
  sliceSizes := ![1, 1]
  wf := gather_S1024x50000_S1024x1x1_S1024x1_n_1_0_0_1_2_11_wf

class Facts : Prop extends Facts₀ where

variable [Facts]
-- ==== Proof.RefRunSteps.lean ====
/- Each typed-reference operation's result, without transports.
   A called function's operations are stated over typed references, and the result of one holds its function's value
   transported along the references' type equations, each of which is `rfl` at a literal reference. The 51 lemmas below (50
   typed-reference operations, 1 other reshape) state each such result at an arbitrary valuation `W` with the transports removed, and
   each reshape's result as the `shapeCast` itself: composed along the program they give the composed term of a result
   operation by operation, and no comparison of two terms has to look inside a reduction over the indices of a large array. -/
import proofs.«414580_j28183575396662_1_alg».proof.Proof.RefRunDefs

noncomputable section

namespace Cert.ReferenceIdeal.RunSteps

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- `main_call0_v0` after its operation (a called function's operation over typed references): the function's value at the operands' contents, the transports along the references' type equations removed. -/
theorem r_main_call0_v0 (W : Valuation τ sig (Elt F)) :
    (TRef.unary (TRef.of (T := ⟨S_, .f32⟩) main_cst_3) (TRef.of (T := ⟨S_, .f32⟩) main_call0_v0) id : HloOp τ sig (Elt F)).result W (no_index (Proc.devRef .tc main_call0_v0)) = id (W (Proc.devRef .tc main_cst_3)) := by
  refine (unary_result _ _ _ _ _ W).trans ?_
  simp only [cast_eq]

/-- `main_call0_v1` after its operation (a called function's operation over typed references): the function's value at the operands' contents, the transports along the references' type equations removed. -/
theorem r_main_call0_v1 (W : Valuation τ sig (Elt F)) :
    (TRef.unary (TRef.of (T := ⟨S_, .f32⟩) main_call0_v0) (TRef.of (T := ⟨S1024x50000, .f32⟩) main_call0_v1) (broadcastInDim S1024x50000 ![] bcast_S_S1024x50000) : HloOp τ sig (Elt F)).result W (no_index (Proc.devRef .tc main_call0_v1)) = broadcastInDim S1024x50000 ![] bcast_S_S1024x50000 (W (Proc.devRef .tc main_call0_v0)) := by
  refine (unary_result _ _ _ _ _ W).trans ?_
  simp only [cast_eq]

/-- `main_call0_v2` after its operation (a called function's operation over typed references): the function's value at the operands' contents, the transports along the references' type equations removed. -/
theorem r_main_call0_v2 (W : Valuation τ sig (Elt F)) :
    (TRef.binary (TRef.of (T := ⟨S1024x50000, .f32⟩) main_call0_v1) (TRef.of (T := ⟨S1024x50000, .f32⟩) main_v17) (TRef.of (T := ⟨S1024x50000, .f32⟩) main_call0_v2) maximumf : HloOp τ sig (Elt F)).result W (no_index (Proc.devRef .tc main_call0_v2)) = maximumf (W (Proc.devRef .tc main_call0_v1)) (W (Proc.devRef .tc main_v17)) := by
  refine (binary_result _ _ _ _ _ _ _ W).trans ?_
  simp only [cast_eq]

/-- `main_call0_v3` after its operation (a called function's operation over typed references): the function's value at the operands' contents, the transports along the references' type equations removed. -/
theorem r_main_call0_v3 (W : Valuation τ sig (Elt F)) :
    (TRef.unary (TRef.of (T := ⟨S_, .f32⟩) main_cst_4) (TRef.of (T := ⟨S_, .f32⟩) main_call0_v3) id : HloOp τ sig (Elt F)).result W (no_index (Proc.devRef .tc main_call0_v3)) = id (W (Proc.devRef .tc main_cst_4)) := by
  refine (unary_result _ _ _ _ _ W).trans ?_
  simp only [cast_eq]

/-- `main_call0_v4` after its operation (a called function's operation over typed references): the function's value at the operands' contents, the transports along the references' type equations removed. -/
theorem r_main_call0_v4 (W : Valuation τ sig (Elt F)) :
    (TRef.unary (TRef.of (T := ⟨S_, .f32⟩) main_call0_v3) (TRef.of (T := ⟨S1024x50000, .f32⟩) main_call0_v4) (broadcastInDim S1024x50000 ![] bcast_S_S1024x50000) : HloOp τ sig (Elt F)).result W (no_index (Proc.devRef .tc main_call0_v4)) = broadcastInDim S1024x50000 ![] bcast_S_S1024x50000 (W (Proc.devRef .tc main_call0_v3)) := by
  refine (unary_result _ _ _ _ _ W).trans ?_
  simp only [cast_eq]

/-- `main_v18` after its operation (a called function's operation over typed references): the function's value at the operands' contents, the transports along the references' type equations removed. -/
theorem r_main_v18 (W : Valuation τ sig (Elt F)) :
    (TRef.binary (TRef.of (T := ⟨S1024x50000, .f32⟩) main_call0_v4) (TRef.of (T := ⟨S1024x50000, .f32⟩) main_call0_v2) (TRef.of (T := ⟨S1024x50000, .f32⟩) main_v18) minimumf : HloOp τ sig (Elt F)).result W (no_index (Proc.devRef .tc main_v18)) = minimumf (W (Proc.devRef .tc main_call0_v4)) (W (Proc.devRef .tc main_call0_v2)) := by
  refine (binary_result _ _ _ _ _ _ _ W).trans ?_
  simp only [cast_eq]

/-- `main_v31` after its operation (a called function's operation over typed references): the function's value at the operands' contents, the transports along the references' type equations removed. -/
theorem r_main_v31 (W : Valuation τ sig (Elt F)) :
    (TRef.ternary (TRef.of (T := ⟨S1024x50000, .i1⟩) main_v28) (TRef.of (T := ⟨S1024x50000, .f32⟩) main_v26) (TRef.of (T := ⟨S1024x50000, .f32⟩) main_v30) (TRef.of (T := ⟨S1024x50000, .f32⟩) main_v31) select : HloOp τ sig (Elt F)).result W (no_index (Proc.devRef .tc main_v31)) = select (W (Proc.devRef .tc main_v28)) (W (Proc.devRef .tc main_v26)) (W (Proc.devRef .tc main_v30)) := by
  refine (ternary_result _ _ _ _ _ _ _ _ _ W).trans ?_
  simp only [cast_eq]

/-- `main_call2_v0` after its operation (a called function's operation over typed references): the function's value at the operands' contents, the transports along the references' type equations removed. -/
theorem r_main_call2_v0 (W : Valuation τ sig (Elt F)) :
    (TRef.unary (TRef.of (T := ⟨S1024, .i32⟩) main_arg1) (TRef.of (T := ⟨S1024x1, .i32⟩) main_call2_v0) (broadcastInDim S1024x1 ![0] bcast_S1024_S1024x1_0) : HloOp τ sig (Elt F)).result W (no_index (Proc.devRef .tc main_call2_v0)) = broadcastInDim S1024x1 ![0] bcast_S1024_S1024x1_0 (W (Proc.devRef .tc main_arg1)) := by
  refine (unary_result _ _ _ _ _ W).trans ?_
  simp only [cast_eq]

/-- `main_call2_v1` after its operation (a called function's operation over typed references): the function's value at the operands' contents, the transports along the references' type equations removed. -/
theorem r_main_call2_v1 (W : Valuation τ sig (Elt F)) :
    (TRef.nullary (TRef.of (T := ⟨S1x50000, .i32⟩) main_call2_v1) (iotaInDim S1x50000 32 1) : HloOp τ sig (Elt F)).result W (no_index (Proc.devRef .tc main_call2_v1)) = iotaInDim S1x50000 32 1 := by
  refine (nullary_result _ _ _ W).trans ?_
  simp only [cast_eq]

/-- `main_call2_v2` after its operation (a called function's operation over typed references): the function's value at the operands' contents, the transports along the references' type equations removed. -/
theorem r_main_call2_v2 (W : Valuation τ sig (Elt F)) :
    (TRef.unary (TRef.of (T := ⟨S1024x1, .i32⟩) main_call2_v0) (TRef.of (T := ⟨S1024x50000, .i32⟩) main_call2_v2) (broadcastInDim S1024x50000 ![0, 1] bcast_S1024x1_S1024x50000_0_1) : HloOp τ sig (Elt F)).result W (no_index (Proc.devRef .tc main_call2_v2)) = broadcastInDim S1024x50000 ![0, 1] bcast_S1024x1_S1024x50000_0_1 (W (Proc.devRef .tc main_call2_v0)) := by
  refine (unary_result _ _ _ _ _ W).trans ?_
  simp only [cast_eq]

/-- `main_call2_v3` after its operation (a called function's operation over typed references): the function's value at the operands' contents, the transports along the references' type equations removed. -/
theorem r_main_call2_v3 (W : Valuation τ sig (Elt F)) :
    (TRef.unary (TRef.of (T := ⟨S1x50000, .i32⟩) main_call2_v1) (TRef.of (T := ⟨S1024x50000, .i32⟩) main_call2_v3) (broadcastInDim S1024x50000 ![0, 1] bcast_S1x50000_S1024x50000_0_1) : HloOp τ sig (Elt F)).result W (no_index (Proc.devRef .tc main_call2_v3)) = broadcastInDim S1024x50000 ![0, 1] bcast_S1x50000_S1024x50000_0_1 (W (Proc.devRef .tc main_call2_v1)) := by
  refine (unary_result _ _ _ _ _ W).trans ?_
  simp only [cast_eq]

/-- `main_call2_v4` after its operation (a called function's operation over typed references): the function's value at the operands' contents, the transports along the references' type equations removed. -/
theorem r_main_call2_v4 (W : Valuation τ sig (Elt F)) :
    (TRef.binary (TRef.of (T := ⟨S1024x50000, .i32⟩) main_call2_v2) (TRef.of (T := ⟨S1024x50000, .i32⟩) main_call2_v3) (TRef.of (T := ⟨S1024x50000, .i1⟩) main_call2_v4) (cmpi .eq) : HloOp τ sig (Elt F)).result W (no_index (Proc.devRef .tc main_call2_v4)) = cmpi .eq (W (Proc.devRef .tc main_call2_v2)) (W (Proc.devRef .tc main_call2_v3)) := by
  refine (binary_result _ _ _ _ _ _ _ W).trans ?_
  simp only [cast_eq]

/-- `main_v32` after its operation (a called function's operation over typed references): the function's value at the operands' contents, the transports along the references' type equations removed. -/
theorem r_main_v32 (W : Valuation τ sig (Elt F)) :
    (TRef.unary (TRef.of (T := ⟨S1024x50000, .i1⟩) main_call2_v4) (TRef.of (T := ⟨S1024x50000, .f32⟩) main_v32) (uitofp .f32) : HloOp τ sig (Elt F)).result W (no_index (Proc.devRef .tc main_v32)) = uitofp .f32 (W (Proc.devRef .tc main_call2_v4)) := by
  refine (unary_result _ _ _ _ _ W).trans ?_
  simp only [cast_eq]

/-- `main_call3_cst` after its operation (a called function's operation over typed references): the function's value at the operands' contents, the transports along the references' type equations removed. -/
theorem r_main_call3_cst (W : Valuation τ sig (Elt F)) :
    (TRef.nullary (TRef.of (T := ⟨S_, .f32⟩) main_call3_cst) (constant S_ .f32 0xFF800000#32) : HloOp τ sig (Elt F)).result W (no_index (Proc.devRef .tc main_call3_cst)) = constant S_ .f32 0xFF800000#32 := by
  refine (nullary_result _ _ _ W).trans ?_
  simp only [cast_eq]

/-- `main_call3_v0` after its operation (a called function's operation over typed references): the function's value at the operands' contents, the transports along the references' type equations removed. -/
theorem r_main_call3_v0 (W : Valuation τ sig (Elt F)) :
    (TRef.binary (TRef.of (T := ⟨S1024x50000, .f32⟩) main_v39) (TRef.of (T := ⟨S_, .f32⟩) main_call3_cst) (TRef.of (T := ⟨S1024, .f32⟩) main_call3_v0) (fun x v => Host.reduce FloatOps.maximumf x v reducesTo_S1024x50000_S1024_d1 h_S_) : HloOp τ sig (Elt F)).result W (no_index (Proc.devRef .tc main_call3_v0)) = Host.reduce FloatOps.maximumf (W (Proc.devRef .tc main_v39)) (W (Proc.devRef .tc main_call3_cst)) reducesTo_S1024x50000_S1024_d1 h_S_ := by
  refine (binary_result _ _ _ _ _ _ _ W).trans ?_
  simp only [cast_eq]

/-- `main_call3_cst_0` after its operation (a called function's operation over typed references): the function's value at the operands' contents, the transports along the references' type equations removed. -/
theorem r_main_call3_cst_0 (W : Valuation τ sig (Elt F)) :
    (TRef.nullary (TRef.of (T := ⟨S_, .f32⟩) main_call3_cst_0) (constant S_ .f32 0xFF800000#32) : HloOp τ sig (Elt F)).result W (no_index (Proc.devRef .tc main_call3_cst_0)) = constant S_ .f32 0xFF800000#32 := by
  refine (nullary_result _ _ _ W).trans ?_
  simp only [cast_eq]

/-- `main_call3_v1` after its operation (a called function's operation over typed references): the function's value at the operands' contents, the transports along the references' type equations removed. -/
theorem r_main_call3_v1 (W : Valuation τ sig (Elt F)) :
    (TRef.unary (TRef.of (T := ⟨S_, .f32⟩) main_call3_cst_0) (TRef.of (T := ⟨S1024, .f32⟩) main_call3_v1) (broadcastInDim S1024 ![] bcast_S_S1024) : HloOp τ sig (Elt F)).result W (no_index (Proc.devRef .tc main_call3_v1)) = broadcastInDim S1024 ![] bcast_S_S1024 (W (Proc.devRef .tc main_call3_cst_0)) := by
  refine (unary_result _ _ _ _ _ W).trans ?_
  simp only [cast_eq]

/-- `main_call3_v2` after its operation (a called function's operation over typed references): the function's value at the operands' contents, the transports along the references' type equations removed. -/
theorem r_main_call3_v2 (W : Valuation τ sig (Elt F)) :
    (TRef.binary (TRef.of (T := ⟨S1024, .f32⟩) main_call3_v1) (TRef.of (T := ⟨S1024, .f32⟩) main_call3_v0) (TRef.of (T := ⟨S1024, .f32⟩) main_call3_v2) maximumf : HloOp τ sig (Elt F)).result W (no_index (Proc.devRef .tc main_call3_v2)) = maximumf (W (Proc.devRef .tc main_call3_v1)) (W (Proc.devRef .tc main_call3_v0)) := by
  refine (binary_result _ _ _ _ _ _ _ W).trans ?_
  simp only [cast_eq]

/-- `main_call3_v3` after its operation (a called function's operation over typed references): the function's value at the operands' contents, the transports along the references' type equations removed. -/
theorem r_main_call3_v3 (W : Valuation τ sig (Elt F)) :
    (TRef.unary (TRef.of (T := ⟨S1024, .f32⟩) main_call3_v2) (TRef.of (T := ⟨S1024x1, .f32⟩) main_call3_v3) (broadcastInDim S1024x1 ![0] bcast_S1024_S1024x1_0) : HloOp τ sig (Elt F)).result W (no_index (Proc.devRef .tc main_call3_v3)) = broadcastInDim S1024x1 ![0] bcast_S1024_S1024x1_0 (W (Proc.devRef .tc main_call3_v2)) := by
  refine (unary_result _ _ _ _ _ W).trans ?_
  simp only [cast_eq]

/-- `main_call3_v4` after its operation (a called function's operation over typed references): the function's value at the operands' contents, the transports along the references' type equations removed. -/
theorem r_main_call3_v4 (W : Valuation τ sig (Elt F)) :
    (TRef.unary (TRef.of (T := ⟨S1024x1, .f32⟩) main_call3_v3) (TRef.of (T := ⟨S1024x50000, .f32⟩) main_call3_v4) (broadcastInDim S1024x50000 ![0, 1] bcast_S1024x1_S1024x50000_0_1) : HloOp τ sig (Elt F)).result W (no_index (Proc.devRef .tc main_call3_v4)) = broadcastInDim S1024x50000 ![0, 1] bcast_S1024x1_S1024x50000_0_1 (W (Proc.devRef .tc main_call3_v3)) := by
  refine (unary_result _ _ _ _ _ W).trans ?_
  simp only [cast_eq]

/-- `main_call3_v5` after its operation (a called function's operation over typed references): the function's value at the operands' contents, the transports along the references' type equations removed. -/
theorem r_main_call3_v5 (W : Valuation τ sig (Elt F)) :
    (TRef.binary (TRef.of (T := ⟨S1024x50000, .f32⟩) main_v39) (TRef.of (T := ⟨S1024x50000, .f32⟩) main_call3_v4) (TRef.of (T := ⟨S1024x50000, .f32⟩) main_call3_v5) subf : HloOp τ sig (Elt F)).result W (no_index (Proc.devRef .tc main_call3_v5)) = subf (W (Proc.devRef .tc main_v39)) (W (Proc.devRef .tc main_call3_v4)) := by
  refine (binary_result _ _ _ _ _ _ _ W).trans ?_
  simp only [cast_eq]

/-- `main_call3_v6` after its operation (a called function's operation over typed references): the function's value at the operands' contents, the transports along the references' type equations removed. -/
theorem r_main_call3_v6 (W : Valuation τ sig (Elt F)) :
    (TRef.unary (TRef.of (T := ⟨S1024x50000, .f32⟩) main_call3_v5) (TRef.of (T := ⟨S1024x50000, .f32⟩) main_call3_v6) Host.exp : HloOp τ sig (Elt F)).result W (no_index (Proc.devRef .tc main_call3_v6)) = Host.exp (W (Proc.devRef .tc main_call3_v5)) := by
  refine (unary_result _ _ _ _ _ W).trans ?_
  simp only [cast_eq]

/-- `main_call3_cst_1` after its operation (a called function's operation over typed references): the function's value at the operands' contents, the transports along the references' type equations removed. -/
theorem r_main_call3_cst_1 (W : Valuation τ sig (Elt F)) :
    (TRef.nullary (TRef.of (T := ⟨S_, .f32⟩) main_call3_cst_1) (constant S_ .f32 0x00000000#32) : HloOp τ sig (Elt F)).result W (no_index (Proc.devRef .tc main_call3_cst_1)) = constant S_ .f32 0x00000000#32 := by
  refine (nullary_result _ _ _ W).trans ?_
  simp only [cast_eq]

/-- `main_call3_v7` after its operation (a called function's operation over typed references): the function's value at the operands' contents, the transports along the references' type equations removed. -/
theorem r_main_call3_v7 (W : Valuation τ sig (Elt F)) :
    (TRef.binary (TRef.of (T := ⟨S1024x50000, .f32⟩) main_call3_v6) (TRef.of (T := ⟨S_, .f32⟩) main_call3_cst_1) (TRef.of (T := ⟨S1024, .f32⟩) main_call3_v7) (fun x v => Host.reduceAdd x v reducesTo_S1024x50000_S1024_d1 h_S_) : HloOp τ sig (Elt F)).result W (no_index (Proc.devRef .tc main_call3_v7)) = Host.reduceAdd (W (Proc.devRef .tc main_call3_v6)) (W (Proc.devRef .tc main_call3_cst_1)) reducesTo_S1024x50000_S1024_d1 h_S_ := by
  refine (binary_result _ _ _ _ _ _ _ W).trans ?_
  simp only [cast_eq]

/-- `main_call3_v8` after its operation (a called function's operation over typed references): the function's value at the operands' contents, the transports along the references' type equations removed. -/
theorem r_main_call3_v8 (W : Valuation τ sig (Elt F)) :
    (TRef.unary (TRef.of (T := ⟨S1024, .f32⟩) main_call3_v7) (TRef.of (T := ⟨S1024x1, .f32⟩) main_call3_v8) (broadcastInDim S1024x1 ![0] bcast_S1024_S1024x1_0) : HloOp τ sig (Elt F)).result W (no_index (Proc.devRef .tc main_call3_v8)) = broadcastInDim S1024x1 ![0] bcast_S1024_S1024x1_0 (W (Proc.devRef .tc main_call3_v7)) := by
  refine (unary_result _ _ _ _ _ W).trans ?_
  simp only [cast_eq]

/-- `main_call3_v9` after its operation (a called function's operation over typed references): the function's value at the operands' contents, the transports along the references' type equations removed. -/
theorem r_main_call3_v9 (W : Valuation τ sig (Elt F)) :
    (TRef.unary (TRef.of (T := ⟨S1024x1, .f32⟩) main_call3_v8) (TRef.of (T := ⟨S1024x1, .f32⟩) main_call3_v9) Host.log : HloOp τ sig (Elt F)).result W (no_index (Proc.devRef .tc main_call3_v9)) = Host.log (W (Proc.devRef .tc main_call3_v8)) := by
  refine (unary_result _ _ _ _ _ W).trans ?_
  simp only [cast_eq]

/-- `main_call3_v10` after its operation (a called function's operation over typed references): the function's value at the operands' contents, the transports along the references' type equations removed. -/
theorem r_main_call3_v10 (W : Valuation τ sig (Elt F)) :
    (TRef.unary (TRef.of (T := ⟨S1024x1, .f32⟩) main_call3_v9) (TRef.of (T := ⟨S1024x50000, .f32⟩) main_call3_v10) (broadcastInDim S1024x50000 ![0, 1] bcast_S1024x1_S1024x50000_0_1) : HloOp τ sig (Elt F)).result W (no_index (Proc.devRef .tc main_call3_v10)) = broadcastInDim S1024x50000 ![0, 1] bcast_S1024x1_S1024x50000_0_1 (W (Proc.devRef .tc main_call3_v9)) := by
  refine (unary_result _ _ _ _ _ W).trans ?_
  simp only [cast_eq]

/-- `main_v40` after its operation (a called function's operation over typed references): the function's value at the operands' contents, the transports along the references' type equations removed. -/
theorem r_main_v40 (W : Valuation τ sig (Elt F)) :
    (TRef.binary (TRef.of (T := ⟨S1024x50000, .f32⟩) main_call3_v5) (TRef.of (T := ⟨S1024x50000, .f32⟩) main_call3_v10) (TRef.of (T := ⟨S1024x50000, .f32⟩) main_v40) subf : HloOp τ sig (Elt F)).result W (no_index (Proc.devRef .tc main_v40)) = subf (W (Proc.devRef .tc main_call3_v5)) (W (Proc.devRef .tc main_call3_v10)) := by
  refine (binary_result _ _ _ _ _ _ _ W).trans ?_
  simp only [cast_eq]

/-- `main_call4_c` after its operation (a called function's operation over typed references): the function's value at the operands' contents, the transports along the references' type equations removed. -/
theorem r_main_call4_c (W : Valuation τ sig (Elt F)) :
    (TRef.nullary (TRef.of (T := ⟨S_, .i32⟩) main_call4_c) (constantI S_ 32 0#32) : HloOp τ sig (Elt F)).result W (no_index (Proc.devRef .tc main_call4_c)) = constantI S_ 32 0#32 := by
  refine (nullary_result _ _ _ W).trans ?_
  simp only [cast_eq]

/-- `main_call4_v0` after its operation (a called function's operation over typed references): the function's value at the operands' contents, the transports along the references' type equations removed. -/
theorem r_main_call4_v0 (W : Valuation τ sig (Elt F)) :
    (TRef.unary (TRef.of (T := ⟨S_, .i32⟩) main_call4_c) (TRef.of (T := ⟨S1024x1, .i32⟩) main_call4_v0) (broadcastInDim S1024x1 ![] bcast_S_S1024x1) : HloOp τ sig (Elt F)).result W (no_index (Proc.devRef .tc main_call4_v0)) = broadcastInDim S1024x1 ![] bcast_S_S1024x1 (W (Proc.devRef .tc main_call4_c)) := by
  refine (unary_result _ _ _ _ _ W).trans ?_
  simp only [cast_eq]

/-- `main_call4_v1` after its operation (a called function's operation over typed references): the function's value at the operands' contents, the transports along the references' type equations removed. -/
theorem r_main_call4_v1 (W : Valuation τ sig (Elt F)) :
    (TRef.binary (TRef.of (T := ⟨S1024x1, .i32⟩) main_v41) (TRef.of (T := ⟨S1024x1, .i32⟩) main_call4_v0) (TRef.of (T := ⟨S1024x1, .i1⟩) main_call4_v1) (cmpi .slt) : HloOp τ sig (Elt F)).result W (no_index (Proc.devRef .tc main_call4_v1)) = cmpi .slt (W (Proc.devRef .tc main_v41)) (W (Proc.devRef .tc main_call4_v0)) := by
  refine (binary_result _ _ _ _ _ _ _ W).trans ?_
  simp only [cast_eq]

/-- `main_call4_c_0` after its operation (a called function's operation over typed references): the function's value at the operands' contents, the transports along the references' type equations removed. -/
theorem r_main_call4_c_0 (W : Valuation τ sig (Elt F)) :
    (TRef.nullary (TRef.of (T := ⟨S_, .i32⟩) main_call4_c_0) (constantI S_ 32 50000#32) : HloOp τ sig (Elt F)).result W (no_index (Proc.devRef .tc main_call4_c_0)) = constantI S_ 32 50000#32 := by
  refine (nullary_result _ _ _ W).trans ?_
  simp only [cast_eq]

/-- `main_call4_v2` after its operation (a called function's operation over typed references): the function's value at the operands' contents, the transports along the references' type equations removed. -/
theorem r_main_call4_v2 (W : Valuation τ sig (Elt F)) :
    (TRef.unary (TRef.of (T := ⟨S_, .i32⟩) main_call4_c_0) (TRef.of (T := ⟨S1024x1, .i32⟩) main_call4_v2) (broadcastInDim S1024x1 ![] bcast_S_S1024x1) : HloOp τ sig (Elt F)).result W (no_index (Proc.devRef .tc main_call4_v2)) = broadcastInDim S1024x1 ![] bcast_S_S1024x1 (W (Proc.devRef .tc main_call4_c_0)) := by
  refine (unary_result _ _ _ _ _ W).trans ?_
  simp only [cast_eq]

/-- `main_call4_v3` after its operation (a called function's operation over typed references): the function's value at the operands' contents, the transports along the references' type equations removed. -/
theorem r_main_call4_v3 (W : Valuation τ sig (Elt F)) :
    (TRef.binary (TRef.of (T := ⟨S1024x1, .i32⟩) main_v41) (TRef.of (T := ⟨S1024x1, .i32⟩) main_call4_v2) (TRef.of (T := ⟨S1024x1, .i32⟩) main_call4_v3) addi : HloOp τ sig (Elt F)).result W (no_index (Proc.devRef .tc main_call4_v3)) = addi (W (Proc.devRef .tc main_v41)) (W (Proc.devRef .tc main_call4_v2)) := by
  refine (binary_result _ _ _ _ _ _ _ W).trans ?_
  simp only [cast_eq]

/-- `main_call4_v4` after its operation (a called function's operation over typed references): the function's value at the operands' contents, the transports along the references' type equations removed. -/
theorem r_main_call4_v4 (W : Valuation τ sig (Elt F)) :
    (TRef.ternary (TRef.of (T := ⟨S1024x1, .i1⟩) main_call4_v1) (TRef.of (T := ⟨S1024x1, .i32⟩) main_call4_v3) (TRef.of (T := ⟨S1024x1, .i32⟩) main_v41) (TRef.of (T := ⟨S1024x1, .i32⟩) main_call4_v4) select : HloOp τ sig (Elt F)).result W (no_index (Proc.devRef .tc main_call4_v4)) = select (W (Proc.devRef .tc main_call4_v1)) (W (Proc.devRef .tc main_call4_v3)) (W (Proc.devRef .tc main_v41)) := by
  refine (ternary_result _ _ _ _ _ _ _ _ _ W).trans ?_
  simp only [cast_eq]

/-- `main_call4_v5` after its operation (a called function's reshape over typed references): the operand's contents at the result's shape, as the `shapeCast` itself. -/
theorem r_main_call4_v5 (W : Valuation τ sig (Elt F)) :
    (TRef.reshape (TRef.of (T := ⟨S1024x1, .i32⟩) main_call4_v4) (TRef.of (T := ⟨S1024x1x1, .i32⟩) main_call4_v5) rfl shapeCasts_S1024x1_S1024x1x1 : HloOp τ sig (Elt F)).result W (no_index (Proc.devRef .tc main_call4_v5)) = shapeCast _ (W (Proc.devRef .tc main_call4_v4)) shapeCasts_S1024x1_S1024x1x1 := by
  refine (reshape_result _ _ _ _ _ _ W).trans ?_
  rfl

/-- `main_call4_c_1` after its operation (a called function's operation over typed references): the function's value at the operands' contents, the transports along the references' type equations removed. -/
theorem r_main_call4_c_1 (W : Valuation τ sig (Elt F)) :
    (TRef.nullary (TRef.of (T := ⟨S1, .i32⟩) main_call4_c_1) (constantI S1 32 49999#32) : HloOp τ sig (Elt F)).result W (no_index (Proc.devRef .tc main_call4_c_1)) = constantI S1 32 49999#32 := by
  refine (nullary_result _ _ _ W).trans ?_
  simp only [cast_eq]

/-- `main_call4_c_2` after its operation (a called function's operation over typed references): the function's value at the operands' contents, the transports along the references' type equations removed. -/
theorem r_main_call4_c_2 (W : Valuation τ sig (Elt F)) :
    (TRef.nullary (TRef.of (T := ⟨S_, .i32⟩) main_call4_c_2) (constantI S_ 32 0#32) : HloOp τ sig (Elt F)).result W (no_index (Proc.devRef .tc main_call4_c_2)) = constantI S_ 32 0#32 := by
  refine (nullary_result _ _ _ W).trans ?_
  simp only [cast_eq]

/-- `main_call4_v6` after its operation (a called function's operation over typed references): the function's value at the operands' contents, the transports along the references' type equations removed. -/
theorem r_main_call4_v6 (W : Valuation τ sig (Elt F)) :
    (TRef.unary (TRef.of (T := ⟨S_, .i32⟩) main_call4_c_2) (TRef.of (T := ⟨S1024x1x1, .i32⟩) main_call4_v6) (broadcastInDim S1024x1x1 ![] bcast_S_S1024x1x1) : HloOp τ sig (Elt F)).result W (no_index (Proc.devRef .tc main_call4_v6)) = broadcastInDim S1024x1x1 ![] bcast_S_S1024x1x1 (W (Proc.devRef .tc main_call4_c_2)) := by
  refine (unary_result _ _ _ _ _ W).trans ?_
  simp only [cast_eq]

/-- `main_call4_v7` after its operation (a called function's operation over typed references): the function's value at the operands' contents, the transports along the references' type equations removed. -/
theorem r_main_call4_v7 (W : Valuation τ sig (Elt F)) :
    (TRef.binary (TRef.of (T := ⟨S1024x1x1, .i32⟩) main_call4_v5) (TRef.of (T := ⟨S1024x1x1, .i32⟩) main_call4_v6) (TRef.of (T := ⟨S1024x1x1, .i1⟩) main_call4_v7) (cmpi .sge) : HloOp τ sig (Elt F)).result W (no_index (Proc.devRef .tc main_call4_v7)) = cmpi .sge (W (Proc.devRef .tc main_call4_v5)) (W (Proc.devRef .tc main_call4_v6)) := by
  refine (binary_result _ _ _ _ _ _ _ W).trans ?_
  simp only [cast_eq]

/-- `main_call4_v8` after its operation (a called function's operation over typed references): the function's value at the operands' contents, the transports along the references' type equations removed. -/
theorem r_main_call4_v8 (W : Valuation τ sig (Elt F)) :
    (TRef.unary (TRef.of (T := ⟨S1, .i32⟩) main_call4_c_1) (TRef.of (T := ⟨S1x1x1, .i32⟩) main_call4_v8) (broadcastInDim S1x1x1 ![2] bcast_S1_S1x1x1_2) : HloOp τ sig (Elt F)).result W (no_index (Proc.devRef .tc main_call4_v8)) = broadcastInDim S1x1x1 ![2] bcast_S1_S1x1x1_2 (W (Proc.devRef .tc main_call4_c_1)) := by
  refine (unary_result _ _ _ _ _ W).trans ?_
  simp only [cast_eq]

/-- `main_call4_v9` after its operation (a called function's operation over typed references): the function's value at the operands' contents, the transports along the references' type equations removed. -/
theorem r_main_call4_v9 (W : Valuation τ sig (Elt F)) :
    (TRef.unary (TRef.of (T := ⟨S1x1x1, .i32⟩) main_call4_v8) (TRef.of (T := ⟨S1024x1x1, .i32⟩) main_call4_v9) (broadcastInDim S1024x1x1 ![0, 1, 2] bcast_S1x1x1_S1024x1x1_0_1_2) : HloOp τ sig (Elt F)).result W (no_index (Proc.devRef .tc main_call4_v9)) = broadcastInDim S1024x1x1 ![0, 1, 2] bcast_S1x1x1_S1024x1x1_0_1_2 (W (Proc.devRef .tc main_call4_v8)) := by
  refine (unary_result _ _ _ _ _ W).trans ?_
  simp only [cast_eq]

/-- `main_call4_v10` after its operation (a called function's operation over typed references): the function's value at the operands' contents, the transports along the references' type equations removed. -/
theorem r_main_call4_v10 (W : Valuation τ sig (Elt F)) :
    (TRef.binary (TRef.of (T := ⟨S1024x1x1, .i32⟩) main_call4_v5) (TRef.of (T := ⟨S1024x1x1, .i32⟩) main_call4_v9) (TRef.of (T := ⟨S1024x1x1, .i1⟩) main_call4_v10) (cmpi .sle) : HloOp τ sig (Elt F)).result W (no_index (Proc.devRef .tc main_call4_v10)) = cmpi .sle (W (Proc.devRef .tc main_call4_v5)) (W (Proc.devRef .tc main_call4_v9)) := by
  refine (binary_result _ _ _ _ _ _ _ W).trans ?_
  simp only [cast_eq]

/-- `main_call4_v11` after its operation (a called function's operation over typed references): the function's value at the operands' contents, the transports along the references' type equations removed. -/
theorem r_main_call4_v11 (W : Valuation τ sig (Elt F)) :
    (TRef.binary (TRef.of (T := ⟨S1024x1x1, .i1⟩) main_call4_v7) (TRef.of (T := ⟨S1024x1x1, .i1⟩) main_call4_v10) (TRef.of (T := ⟨S1024x1x1, .i1⟩) main_call4_v11) andi : HloOp τ sig (Elt F)).result W (no_index (Proc.devRef .tc main_call4_v11)) = andi (W (Proc.devRef .tc main_call4_v7)) (W (Proc.devRef .tc main_call4_v10)) := by
  refine (binary_result _ _ _ _ _ _ _ W).trans ?_
  simp only [cast_eq]

/-- `main_call4_c_3` after its operation (a called function's operation over typed references): the function's value at the operands' contents, the transports along the references' type equations removed. -/
theorem r_main_call4_c_3 (W : Valuation τ sig (Elt F)) :
    (TRef.nullary (TRef.of (T := ⟨S_, .i1⟩) main_call4_c_3) (constantI S_ 1 1#1) : HloOp τ sig (Elt F)).result W (no_index (Proc.devRef .tc main_call4_c_3)) = constantI S_ 1 1#1 := by
  refine (nullary_result _ _ _ W).trans ?_
  simp only [cast_eq]

/-- `main_call4_v12` after its operation (a called function's operation over typed references): the function's value at the operands' contents, the transports along the references' type equations removed. -/
theorem r_main_call4_v12 (W : Valuation τ sig (Elt F)) :
    (TRef.binary (TRef.of (T := ⟨S1024x1x1, .i1⟩) main_call4_v11) (TRef.of (T := ⟨S_, .i1⟩) main_call4_c_3) (TRef.of (T := ⟨S1024x1, .i1⟩) main_call4_v12) (fun x v => Host.reduce IntOp.andi x v reducesTo_S1024x1x1_S1024x1_d2 h_S_) : HloOp τ sig (Elt F)).result W (no_index (Proc.devRef .tc main_call4_v12)) = Host.reduce IntOp.andi (W (Proc.devRef .tc main_call4_v11)) (W (Proc.devRef .tc main_call4_c_3)) reducesTo_S1024x1x1_S1024x1_d2 h_S_ := by
  refine (binary_result _ _ _ _ _ _ _ W).trans ?_
  simp only [cast_eq]

/-- `main_call4_v13` after its operation (a called function's operation over typed references): the function's value at the operands' contents, the transports along the references' type equations removed. -/
theorem r_main_call4_v13 (W : Valuation τ sig (Elt F)) :
    (TRef.binary (TRef.of (T := ⟨S1024x50000, .f32⟩) main_v40) (TRef.of (T := ⟨S1024x1x1, .i32⟩) main_call4_v5) (TRef.of (T := ⟨S1024x1, .f32⟩) main_call4_v13) (fun x i => Host.gather gather_S1024x50000_S1024x1x1_S1024x1_n_1_0_0_1_2_11 x i) : HloOp τ sig (Elt F)).result W (no_index (Proc.devRef .tc main_call4_v13)) = Host.gather gather_S1024x50000_S1024x1x1_S1024x1_n_1_0_0_1_2_11 (W (Proc.devRef .tc main_v40)) (W (Proc.devRef .tc main_call4_v5)) := by
  refine (binary_result _ _ _ _ _ _ _ W).trans ?_
  simp only [cast_eq]

/-- `main_call4_cst` after its operation (a called function's operation over typed references): the function's value at the operands' contents, the transports along the references' type equations removed. -/
theorem r_main_call4_cst (W : Valuation τ sig (Elt F)) :
    (TRef.nullary (TRef.of (T := ⟨S_, .f32⟩) main_call4_cst) (constant S_ .f32 0x7FC00000#32) : HloOp τ sig (Elt F)).result W (no_index (Proc.devRef .tc main_call4_cst)) = constant S_ .f32 0x7FC00000#32 := by
  refine (nullary_result _ _ _ W).trans ?_
  simp only [cast_eq]

/-- `main_call4_v14` after its operation (a called function's operation over typed references): the function's value at the operands' contents, the transports along the references' type equations removed. -/
theorem r_main_call4_v14 (W : Valuation τ sig (Elt F)) :
    (TRef.unary (TRef.of (T := ⟨S_, .f32⟩) main_call4_cst) (TRef.of (T := ⟨S1024x1, .f32⟩) main_call4_v14) (broadcastInDim S1024x1 ![] bcast_S_S1024x1) : HloOp τ sig (Elt F)).result W (no_index (Proc.devRef .tc main_call4_v14)) = broadcastInDim S1024x1 ![] bcast_S_S1024x1 (W (Proc.devRef .tc main_call4_cst)) := by
  refine (unary_result _ _ _ _ _ W).trans ?_
  simp only [cast_eq]

/-- `main_v42` after its operation (a called function's operation over typed references): the function's value at the operands' contents, the transports along the references' type equations removed. -/
theorem r_main_v42 (W : Valuation τ sig (Elt F)) :
    (TRef.ternary (TRef.of (T := ⟨S1024x1, .i1⟩) main_call4_v12) (TRef.of (T := ⟨S1024x1, .f32⟩) main_call4_v13) (TRef.of (T := ⟨S1024x1, .f32⟩) main_call4_v14) (TRef.of (T := ⟨S1024x1, .f32⟩) main_v42) select : HloOp τ sig (Elt F)).result W (no_index (Proc.devRef .tc main_v42)) = select (W (Proc.devRef .tc main_call4_v12)) (W (Proc.devRef .tc main_call4_v13)) (W (Proc.devRef .tc main_call4_v14)) := by
  refine (ternary_result _ _ _ _ _ _ _ _ _ W).trans ?_
  simp only [cast_eq]

/-- `main_v43` after its operation (a reshape): the operand's contents at the result's shape, as the `shapeCast` itself. -/
theorem r_main_v43 (W : Valuation τ sig (Elt F)) :
    (reshape main_v42 main_v43 rfl shapeCasts_S1024x1_S1024 : HloOp τ sig (Elt F)).result W (no_index (Proc.devRef .tc main_v43)) = shapeCast _ (W (Proc.devRef .tc main_v42)) shapeCasts_S1024x1_S1024 := by
  refine (reshape_result _ _ _ _ _ _ W).trans ?_
  rfl

end Cert.ReferenceIdeal.RunSteps

end
-- ==== Proof.PreFacts.lean ====
/-
  What the precondition says of the arguments: every embedding and class-row entry is a real number and every label is
  a class, 0 ≤ label < 50000.
-/
import proofs.«414580_j28183575396662_1_alg».proof.Pre_finite_inputs
import proofs.«414580_j28183575396662_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.ArcLoss.PreFacts

open Idealize.ShloMosaic Idealize.ShloMosaic.ValueIdx Cert.Pre_finite_inputs

/-- A rank-0 shape has one index. -/
private instance : Subsingleton S_.Idx := ⟨fun a b => funext fun d => d.elim0⟩

/-- The f32 pattern 0x7F800000 denotes +∞. -/
private theorem ofBits_inf : Ideal.ofBits .f32 0x7F800000#32 = (⊤ : EReal) := by
  simp [Ideal.ofBits, Ideal.ieee]

/-- An extended real whose absolute value is below +∞ is a real number. -/
private theorem real_of_abs_lt_top (x : EReal) (h : Ideal.cmp .olt (max x (-x)) (⊤ : EReal) = 1#1) :
    ∃ r : ℝ, x = ((r : ℝ) : EReal) := by
  induction x using EReal.rec with
  | bot => simp [Ideal.cmp] at h
  | coe r => exact ⟨r, rfl⟩
  | top => simp [Ideal.cmp] at h

/-- THE PRECONDITION READ: finite entries and labels in range. -/
theorem facts (x0 : FVec Ideal S1024x512 .f32) (x1 : IVec S1024 32) (x2 : FVec Ideal S50000x512 .f32)
    (h : Cert.Pre_finite_inputs.fn (F := Ideal) x0 x1 x2 = fun _ => 1#1) :
    (∀ i, ∃ r : ℝ, x0 i = ((r : ℝ) : EReal)) ∧ (∀ i, ∃ r : ℝ, x2 i = ((r : ℝ) : EReal))
      ∧ ∀ i, 0 ≤ (x1 i).toInt ∧ (x1 i).toInt < 50000 := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ⟨?_, ?_⟩⟩
  · -- |x0 i| < +∞
    have e : Ideal.cmp .olt (max (x0 i) (-(x0 i))) (Ideal.ofBits .f32 0x7F800000#32) = 1#1 :=
      Host.reduce_andi_all _ _ _ _ _ h1 i
    rw [ofBits_inf] at e
    exact real_of_abs_lt_top (x0 i) e
  · -- |x2 i| < +∞
    have e : Ideal.cmp .olt (max (x2 i) (-(x2 i))) (Ideal.ofBits .f32 0x7F800000#32) = 1#1 :=
      Host.reduce_andi_all _ _ _ _ _ h2 i
    rw [ofBits_inf] at e
    exact real_of_abs_lt_top (x2 i) e
  · -- 0 ≤ x1 i, read signed
    have e : IntOp.cmpi .sge (x1 i) 0#32 = 1#1 := Host.reduce_andi_all _ _ _ _ _ h3 i
    have := IntOp.cmpi_sge.1 e
    rwa [show (0#32 : BitVec 32).toInt = 0 from by decide] at this
  · -- x1 i < 50000, read signed
    have e : IntOp.cmpi .slt (x1 i) 50000#32 = 1#1 := Host.reduce_andi_all _ _ _ _ _ h4 i
    have := IntOp.cmpi_slt.1 e
    rwa [show (50000#32 : BitVec 32).toInt = 50000 from by decide] at this

end Cert.ArcLoss.PreFacts

end
-- ==== Proof.KStep.lean ====
/-
  One class tile of the running log-sum-exp, as the kernel computes it, named once.

  A grid point holds a tile of 1000 class rows. From the tile, the scaled embeddings and the labels the body forms the
  tile's cosines, applies the margin at the label's column and scales; from those logits and the running maximum, sum and
  label logit it forms the new maximum, the new sum and the new label logit. The three maps below are those three
  results as functions of what the body reads, for any reading of the floats.
-/
import proofs.«414580_j28183575396662_1_alg».proof.Proof.Gen.KernelIdeal.Skeleton

noncomputable section

namespace Cert.ArcLoss.KStep

open Idealize.ShloMosaic Cert.KernelIdeal Cert.KernelIdeal.Gen

variable {F : FTy → Type} [FloatOps F]

/-- The column numbers 0, …, 999 of a tile, as one row of words. -/
def colIota : IVec S1x1000 32 := iota .tc S1x1000 32 [1] Cert.KernelIdeal.Facts₀.iota_S1x1000_d1_w32

/-- The tile's logits. -/
def tileLogits (i : grid0.Coords) (x2 : Vec F S1000x512 .f32) (lbl : Vec F S1024x1 .i32) (en : Vec F S1024x512 .bf16) :
    FVec F S1024x1000 .f32 :=
  k0_pay12 (k0_pay8 x2 en) (k0_pay9 x2 en) colIota (k0_pay10 i) lbl

/-- The running maximum after the tile. -/
def stepM (i : grid0.Coords) (x2 : Vec F S1000x512 .f32) (lbl : Vec F S1024x1 .i32) (en : Vec F S1024x512 .bf16)
    (mOld : Vec F S1024x1 .f32) : FVec F S1024x1 .f32 :=
  k0_pay16 (k0_pay8 x2 en) (k0_pay9 x2 en) colIota (k0_pay10 i) lbl mOld

/-- The running sum after the tile. -/
def stepL (i : grid0.Coords) (x2 : Vec F S1000x512 .f32) (lbl : Vec F S1024x1 .i32) (en : Vec F S1024x512 .bf16)
    (mOld lOld : Vec F S1024x1 .f32) : FVec F S1024x1 .f32 :=
  k0_pay14 (k0_pay8 x2 en) (k0_pay9 x2 en) colIota (k0_pay10 i) lbl mOld lOld

/-- The running label logit after the tile. -/
def stepT (i : grid0.Coords) (x2 : Vec F S1000x512 .f32) (lbl : Vec F S1024x1 .i32) (en : Vec F S1024x512 .bf16)
    (tOld : Vec F S1024x1 .f32) : FVec F S1024x1 .f32 :=
  k0_pay15 (k0_pay8 x2 en) (k0_pay9 x2 en) colIota (k0_pay10 i) lbl tOld

end Cert.ArcLoss.KStep

end
-- ==== Proof.KPieces.lean ====
/-
  What each control case of the body leaves in the carried scratch and, at the last tile of a half, in the outputs, as
  the tile's step maps of what the body reads: for any reading of the floats.

  At the first tile of a half the scratch is reset (the maximum to the negative infinity, the sum and the label logit to
  zero, the scaled embeddings from the embedding block) and then stepped; at the other tiles it is stepped from what the
  tile before left; at the last tile the three stepped columns are also copied to the outputs.
-/
import proofs.«414580_j28183575396662_1_alg».proof.Proof.Gen.KernelIdeal.Frame
import proofs.«414580_j28183575396662_1_alg».proof.Proof.KStep
import Idealize.ShloMosaic.Lib.Pipeline.Value

set_option maxRecDepth 16384

noncomputable section

namespace Cert.ArcLoss.KPieces

open Idealize.ShloMosaic Idealize.ShloMosaic.TcCoe Idealize.ShloMosaic.Tactic
open Cert.KernelIdeal Cert.KernelIdeal.Gen Cert.ArcLoss.KStep

variable {F : FTy → Type} [FloatOps F]

/-- The zero offsets of a rank-two block, as the constant function. -/
private theorem hz : (![0, 0] : Fin 2 → Nat) = fun _ => 0 := funext fun a => by fin_cases a <;> rfl

/-- The zero offsets of a rank-three block, as the constant function. -/
private theorem hz3 : (![0, 0, 0] : Fin 3 → Nat) = fun _ => 0 := funext fun a => by fin_cases a <;> rfl

/-- First tile: the running maximum is stepped from the negative infinity. -/
theorem sA_m (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : cond0_0 i) (hc1 : ¬cond0_1 i)
    (x0 : Vec F S1024x512 .f32) (x1 : Vec F S1024x1 .i32) (x2 : Vec F S1000x512 .f32) :
    sout0_A_0 c i arg2 harg2 arg3 harg3 arg4 harg4 arg5 harg5 arg6 harg6 arg7 harg7 arg8 harg8 arg9 harg9 arg10 harg10 arg11 harg11 hc0 hc1 x0 x1 x2 = stepM i x2 x1 (k0_pay7 x0) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S1024x1) hz]
  unfold stepM colIota
  simp only [View.readAt_eq_ld, harg2.read_unread, harg3.read_unread, harg4.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- First tile: the running sum is stepped from zero. -/
theorem sA_l (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : cond0_0 i) (hc1 : ¬cond0_1 i)
    (x0 : Vec F S1024x512 .f32) (x1 : Vec F S1024x1 .i32) (x2 : Vec F S1000x512 .f32) :
    sout0_A_1 c i arg2 harg2 arg3 harg3 arg4 harg4 arg5 harg5 arg6 harg6 arg7 harg7 arg8 harg8 arg9 harg9 arg10 harg10 arg11 harg11 hc0 hc1 x0 x1 x2 = stepL i x2 x1 (k0_pay7 x0) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S1024x1) hz]
  unfold stepL colIota
  simp only [View.readAt_eq_ld, harg2.read_unread, harg3.read_unread, harg4.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- First tile: the running label logit is stepped from zero. -/
theorem sA_t (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : cond0_0 i) (hc1 : ¬cond0_1 i)
    (x0 : Vec F S1024x512 .f32) (x1 : Vec F S1024x1 .i32) (x2 : Vec F S1000x512 .f32) :
    sout0_A_2 c i arg2 harg2 arg3 harg3 arg4 harg4 arg5 harg5 arg6 harg6 arg7 harg7 arg8 harg8 arg9 harg9 arg10 harg10 arg11 harg11 hc0 hc1 x0 x1 x2 = stepT i x2 x1 (k0_pay7 x0) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_cons_unit_zero (S := S1024x1) hz]
  unfold stepT colIota
  simp only [View.readAt_eq_ld, harg2.read_unread, harg3.read_unread, harg4.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- First tile: the scaled embeddings are formed from the embedding block. -/
theorem sA_e (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : cond0_0 i) (hc1 : ¬cond0_1 i)
    (x0 : Vec F S1024x512 .f32) (x1 : Vec F S1024x1 .i32) (x2 : Vec F S1000x512 .f32) :
    sout0_A_3 c i arg2 harg2 arg3 harg3 arg4 harg4 arg5 harg5 arg6 harg6 arg7 harg7 arg8 harg8 arg9 harg9 arg10 harg10 arg11 harg11 hc0 hc1 x0 x1 x2 = k0_pay7 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  rw [View.canon_unit_zero (S := S1024x512) hz]
  simp only [View.readAt_eq_ld, harg2.read_unread, View.ld_unit_zero (S := S1024x512) hz]
/-- Case B: the running maximum is stepped from the tile before. -/
theorem sB_m (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : ¬cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    sout0_B_0 c i arg2 harg2 arg3 harg3 arg4 harg4 arg5 harg5 arg6 harg6 arg7 harg7 arg8 harg8 arg9 harg9 arg10 harg10 arg11 harg11 hc0 hc1 x0 x1 x2 xs0 xs1 xs2 xs3 = stepM i x2 x1 xs3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_B
  dsimp only
  sl_unfold_words
  rw [View.canon_unit_zero (S := S1024x1) hz]
  unfold stepM colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Case B: the running sum is stepped from the tile before. -/
theorem sB_l (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : ¬cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    sout0_B_1 c i arg2 harg2 arg3 harg3 arg4 harg4 arg5 harg5 arg6 harg6 arg7 harg7 arg8 harg8 arg9 harg9 arg10 harg10 arg11 harg11 hc0 hc1 x0 x1 x2 xs0 xs1 xs2 xs3 = stepL i x2 x1 xs3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_B
  dsimp only
  sl_unfold_words
  rw [View.canon_unit_zero (S := S1024x1) hz]
  unfold stepL colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Case B: the running label logit is stepped from the tile before. -/
theorem sB_t (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : ¬cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    sout0_B_2 c i arg2 harg2 arg3 harg3 arg4 harg4 arg5 harg5 arg6 harg6 arg7 harg7 arg8 harg8 arg9 harg9 arg10 harg10 arg11 harg11 hc0 hc1 x0 x1 x2 xs0 xs1 xs2 xs3 = stepT i x2 x1 xs3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_B
  dsimp only
  sl_unfold_words
  rw [View.canon_unit_zero (S := S1024x1) hz]
  unfold stepT colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Case C: the running maximum is stepped from the tile before. -/
theorem sC_m (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    sout0_C_0 c i arg2 harg2 arg3 harg3 arg4 harg4 arg5 harg5 arg6 harg6 arg7 harg7 arg8 harg8 arg9 harg9 arg10 harg10 arg11 harg11 hc0 hc1 x0 x1 x2 xs0 xs1 xs2 xs3 = stepM i x2 x1 xs3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero (S := S1024x1) hz]
  unfold stepM colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Case C: the running sum is stepped from the tile before. -/
theorem sC_l (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    sout0_C_1 c i arg2 harg2 arg3 harg3 arg4 harg4 arg5 harg5 arg6 harg6 arg7 harg7 arg8 harg8 arg9 harg9 arg10 harg10 arg11 harg11 hc0 hc1 x0 x1 x2 xs0 xs1 xs2 xs3 = stepL i x2 x1 xs3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero (S := S1024x1) hz]
  unfold stepL colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Case C: the running label logit is stepped from the tile before. -/
theorem sC_t (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    sout0_C_2 c i arg2 harg2 arg3 harg3 arg4 harg4 arg5 harg5 arg6 harg6 arg7 harg7 arg8 harg8 arg9 harg9 arg10 harg10 arg11 harg11 hc0 hc1 x0 x1 x2 xs0 xs1 xs2 xs3 = stepT i x2 x1 xs3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero (S := S1024x1) hz]
  unfold stepT colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Last tile: the maximum's output block is the stepped maximum with a unit axis in front. -/
theorem oC_m (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    out0_C_3 c i arg2 harg2 arg3 harg3 arg4 harg4 arg5 harg5 arg6 harg6 arg7 harg7 arg8 harg8 arg9 harg9 arg10 harg10 arg11 harg11 hc0 hc1 x0 x1 x2 xs0 xs1 xs2 xs3 = k0_pay1 (stepM i x2 x1 xs3 xs0) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero (S := S1x1024x1) hz3]
  unfold stepM colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Last tile: the sum's output block is the stepped sum with a unit axis in front. -/
theorem oC_l (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    out0_C_4 c i arg2 harg2 arg3 harg3 arg4 harg4 arg5 harg5 arg6 harg6 arg7 harg7 arg8 harg8 arg9 harg9 arg10 harg10 arg11 harg11 hc0 hc1 x0 x1 x2 xs0 xs1 xs2 xs3 = k0_pay2 (stepL i x2 x1 xs3 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero (S := S1x1024x1) hz3]
  unfold stepL colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]
/-- Last tile: the label logit's output block is the stepped label logit with a unit axis in front. -/
theorem oC_t (c : Dev nD) (i : grid0.Coords) (arg2 : Memref sig .tc .vmem S1024x512 .f32) (harg2 : arg2.IsWhole) (arg3 : Memref sig .tc .vmem S1024x1 .i32) (harg3 : arg3.IsWhole) (arg4 : Memref sig .tc .vmem S1000x512 .f32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .bf16) (harg11 : arg11.IsWhole) (hc0 : ¬cond0_0 i) (hc1 : cond0_1 i)
    (x0 : Vec F S1024x512 .f32) (x1 : Vec F S1024x1 .i32) (x2 : Vec F S1000x512 .f32) (xs0 : Vec F S1024x1 .f32) (xs1 : Vec F S1024x1 .f32) (xs2 : Vec F S1024x1 .f32) (xs3 : Vec F S1024x512 .bf16) :
    out0_C_5 c i arg2 harg2 arg3 harg3 arg4 harg4 arg5 harg5 arg6 harg6 arg7 harg7 arg8 harg8 arg9 harg9 arg10 harg10 arg11 harg11 hc0 hc1 x0 x1 x2 xs0 xs1 xs2 xs3 = k0_pay3 (stepT i x2 x1 xs3 xs2) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 xs0 xs1 xs2 xs3)]
  unfold kernelRun0_C
  dsimp only
  sl_unfold_words
  rw [View.canon_unit_zero (S := S1x1024x1) hz3]
  unfold stepT colIota
  simp only [View.readAt_eq_ld, harg2.read_unread, harg3.read_unread, harg4.read_unread, harg8.read_unread, harg9.read_unread, harg10.read_unread, harg11.read_unread, View.ld_unit_zero (S := S1024x512) hz, View.ld_unit_zero (S := S1000x512) hz, View.ld_unit_zero (S := S1024x1) hz, View.readCov_unit_zero (S := S1024x512) _ hz, View.readCov_unit_zero (S := S1024x1) _ hz]

end Cert.ArcLoss.KPieces

end
-- ==== Proof.Spec.lean ====
/-
  The additive-angular-margin loss of 1024 embeddings against 50000 class rows, as one real number.

  Rows are scaled to unit length, with the length floored at a small positive number. The cosine of an embedding and a
  class row is the inner product of the two scaled rows. The margin map replaces a cosine `x` above a threshold by
  `x cos m - sqrt (1 - x^2) sin m`, the cosine of the angle widened by `m`, with `1 - x^2` kept inside `[0, 1]`, and
  lowers it by a constant otherwise. A logit is the scale times the cosine, with the margin map applied at the
  embedding's own label. The loss of an embedding is the logarithm of the sum of the exponentials of its logits minus
  its logit at the label, and the result is the mean over the embeddings.

  The constants enter only as real numbers, of which only the floor's positivity is ever used.
-/
import Idealize.ShloMosaic.PureOps.Ideal
import Mathlib.Analysis.SpecialFunctions.Log.Basic
import Mathlib.Analysis.SpecialFunctions.Sqrt
import Mathlib.Algebra.BigOperators.Group.Finset.Basic
import Mathlib.Data.Fintype.BigOperators

noncomputable section

namespace Cert.ArcLoss

open scoped BigOperators

/-- The constants of the loss: the floor of a row's length, the cosine and sine of the margin angle, the threshold, the
    amount a cosine below the threshold is lowered by, and the scale. -/
structure Consts where
  eps : ℝ
  cosM : ℝ
  sinM : ℝ
  th : ℝ
  mm : ℝ
  scale : ℝ
  eps_pos : 0 < eps

variable (K : Consts)

/-- Entry `d` of row `r` scaled by the row's length floored at `eps`. -/
def nrm {R D : ℕ} (x : Fin R → Fin D → ℝ) (r : Fin R) (d : Fin D) : ℝ :=
  x r d / max (Real.sqrt (∑ d', x r d' * x r d')) K.eps

/-- The floored length of a row is positive. -/
theorem nrm_den_pos {R D : ℕ} (x : Fin R → Fin D → ℝ) (r : Fin R) :
    0 < max (Real.sqrt (∑ d', x r d' * x r d')) K.eps :=
  lt_of_lt_of_le K.eps_pos (le_max_right _ _)

/-- The cosine of embedding `b` and class row `c`. -/
def cosR {B C D : ℕ} (e : Fin B → Fin D → ℝ) (w : Fin C → Fin D → ℝ) (b : Fin B) (c : Fin C) : ℝ :=
  ∑ d, nrm K e b d * nrm K w c d

/-- The margin map. -/
def margR (x : ℝ) : ℝ :=
  if K.th < x then x * K.cosM - Real.sqrt (min 1 (max 0 (1 - x * x))) * K.sinM else x - K.mm

/-- Keeping `1 - x^2` inside `[0, 1]` and keeping `x^2` inside `[0, 1]` before subtracting it from one give the same
    number: both are the larger of `0` and `1 - x^2`. -/
theorem clip_one_sub_sq (x : ℝ) : min 1 (max 0 (1 - x * x)) = 1 - min 1 (max 0 (x * x)) := by
  have hx : 0 ≤ x * x := mul_self_nonneg x
  rw [max_eq_right hx]
  rcases le_total (x * x) 1 with h | h
  · rw [min_eq_right h, max_eq_right (by linarith), min_eq_right (by linarith)]
  · rw [min_eq_left h, max_eq_left (by linarith), min_eq_right (by norm_num)]
    norm_num

/-- The logit of embedding `b` at class `c`: the label is a 32-bit word and a class is named by its number as a word. -/
def lgR {B C D : ℕ} (e : Fin B → Fin D → ℝ) (w : Fin C → Fin D → ℝ) (lab : Fin B → BitVec 32) (b : Fin B) (c : Fin C) : ℝ :=
  K.scale * (if lab b = BitVec.ofNat 32 c.val then margR K (cosR K e w b c) else cosR K e w b c)

/-- The logit of embedding `b` at its label, as the sum over the classes of the logit where the class is the label and
    zero elsewhere. -/
def tgtR {B C D : ℕ} (e : Fin B → Fin D → ℝ) (w : Fin C → Fin D → ℝ) (lab : Fin B → BitVec 32) (b : Fin B) : ℝ :=
  ∑ c : Fin C, if lab b = BitVec.ofNat 32 c.val then lgR K e w lab b c else 0

/-- The loss of embedding `b`. -/
def nllR {B C D : ℕ} (e : Fin B → Fin D → ℝ) (w : Fin C → Fin D → ℝ) (lab : Fin B → BitVec 32) (b : Fin B) : ℝ :=
  -(tgtR K e w lab b - Real.log (∑ c : Fin C, Real.exp (lgR K e w lab b c)))

/-- The mean loss. -/
def lossR {B C D : ℕ} (e : Fin B → Fin D → ℝ) (w : Fin C → Fin D → ℝ) (lab : Fin B → BitVec 32) : ℝ :=
  (∑ b : Fin B, nllR K e w lab b) / (B : ℝ)

end Cert.ArcLoss

end
-- ==== Proof.Consts.lean ====
/-
  The float constants of the loss as real numbers.

  Each 32-bit word below is a finite float, so it reads as a real number on the extended reals; `0xFF800000` is the
  negative infinity. Of the values only these are used: the floor `0x2B8CBCCC` is positive, `0x3F800000` is one,
  `0x00000000` is zero and `0x44800000` is 1024.
-/
import Idealize.ShloMosaic.PureOps.Ideal
import proofs.«414580_j28183575396662_1_alg».proof.Proof.Spec

noncomputable section

namespace Cert.ArcLoss

open Idealize.ShloMosaic

/-- The real number a finite 32-bit float word denotes. -/
def litR (w : BitVec 32) : ℝ := (Ideal.ofBits .f32 w).toReal

theorem ofBits_eps : Ideal.ofBits .f32 0x2B8CBCCC#32 = ((litR 0x2B8CBCCC#32 : ℝ) : EReal) := by
  simp [litR, Ideal.ofBits, Ideal.ieee, -EReal.coe_mul]
theorem eps_pos : 0 < litR 0x2B8CBCCC#32 := by
  simp [litR, Ideal.ofBits, Ideal.ieee, -EReal.coe_mul]
theorem ofBits_cosM : Ideal.ofBits .f32 0x3F60A940#32 = ((litR 0x3F60A940#32 : ℝ) : EReal) := by
  simp [litR, Ideal.ofBits, Ideal.ieee, -EReal.coe_mul]
theorem ofBits_sinM : Ideal.ofBits .f32 0x3EF57744#32 = ((litR 0x3EF57744#32 : ℝ) : EReal) := by
  simp [litR, Ideal.ofBits, Ideal.ieee, -EReal.coe_mul]
theorem ofBits_th : Ideal.ofBits .f32 0xBF60A940#32 = ((litR 0xBF60A940#32 : ℝ) : EReal) := by
  simp [litR, Ideal.ofBits, Ideal.ieee, -EReal.coe_mul]
theorem ofBits_mm : Ideal.ofBits .f32 0x3E757744#32 = ((litR 0x3E757744#32 : ℝ) : EReal) := by
  simp [litR, Ideal.ofBits, Ideal.ieee, -EReal.coe_mul]
theorem ofBits_scale : Ideal.ofBits .f32 0x42800000#32 = ((litR 0x42800000#32 : ℝ) : EReal) := by
  simp [litR, Ideal.ofBits, Ideal.ieee, -EReal.coe_mul]
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_1024 : Ideal.ofBits .f32 0x44800000#32 = ((1024 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

/-- The constants of this loss. -/
def kK : Consts where
  eps := litR 0x2B8CBCCC#32
  cosM := litR 0x3F60A940#32
  sinM := litR 0x3EF57744#32
  th := litR 0xBF60A940#32
  mm := litR 0x3E757744#32
  scale := litR 0x42800000#32
  eps_pos := eps_pos

end Cert.ArcLoss

end
-- ==== Proof.LibOnlineSoftmax.lean ====
/-
  The logarithm of a sum of exponentials, computed two ways over the reals.

  A row of logits is cut into tiles. One way keeps a running maximum and a running sum: passing a tile replaces the
  maximum by the larger of itself and the tile's maximum, rescales the sum by the exponential of the difference of the
  old and the new maximum, and adds the exponentials of the tile's entries taken against the new maximum. The other way
  subtracts the maximum of the whole row once. Both give the logarithm of the sum of the exponentials of the row.

  The last part carries finite sums, a positive logarithm and the maximum of a tile to the extended reals.
-/
import Idealize.ShloMosaic.PureOps.Ideal
import Mathlib.Analysis.SpecialFunctions.Log.Basic
import Mathlib.Algebra.BigOperators.Group.Finset.Basic
import Mathlib.Algebra.BigOperators.Group.Finset.Piecewise
import Mathlib.Algebra.Order.BigOperators.Group.Finset
import Mathlib.Data.Fintype.BigOperators
import Mathlib.Data.Finset.Lattice.Fold
import Mathlib.Data.EReal.Basic

noncomputable section

namespace Cert.LibOnline

open scoped BigOperators

variable {w : ℕ} [NeZero w]

/-- The maximum of a nonempty tile. -/
def tileMax (g : Fin w → ℝ) : ℝ := Finset.univ.sup' Finset.univ_nonempty g

/-- The running maximum after `j` tiles, started from the finite number `m₀`. -/
def onlineM (f : ℕ → Fin w → ℝ) (m₀ : ℝ) : ℕ → ℝ
  | 0 => m₀
  | j + 1 => max (onlineM f m₀ j) (tileMax (f j))

/-- The running sum after `j` tiles: the old sum rescaled to the new maximum, plus the exponentials of the new
    tile's entries against the new maximum; it starts from zero. -/
def onlineS (f : ℕ → Fin w → ℝ) (m₀ : ℝ) : ℕ → ℝ
  | 0 => 0
  | j + 1 => onlineS f m₀ j * Real.exp (onlineM f m₀ j - onlineM f m₀ (j + 1))
      + ∑ k : Fin w, Real.exp (f j k - onlineM f m₀ (j + 1))

/-- Every entry of a tile is at most the tile's maximum. -/
theorem le_tileMax (g : Fin w → ℝ) (k : Fin w) : g k ≤ tileMax g :=
  Finset.le_sup' g (Finset.mem_univ k)

/-- The maximum of a tile is one of its entries. -/
theorem exists_eq_tileMax (g : Fin w → ℝ) : ∃ k : Fin w, tileMax g = g k := by
  obtain ⟨k, _, hk⟩ := Finset.exists_mem_eq_sup' Finset.univ_nonempty g
  exact ⟨k, hk⟩

/-- The running sum after `j` tiles is the sum of the exponentials of all entries of those tiles, each taken
    against the current running maximum: `s_j = ∑_{j' < j} ∑_k exp (f j' k - m_j)`. -/
theorem onlineS_eq (f : ℕ → Fin w → ℝ) (m₀ : ℝ) (j : ℕ) :
    onlineS f m₀ j = ∑ j' ∈ Finset.range j, ∑ k : Fin w, Real.exp (f j' k - onlineM f m₀ j) := by
  induction j with
  | zero => simp [onlineS]
  | succ j ih =>
    rw [onlineS, ih, Finset.sum_range_succ, Finset.sum_mul]
    congr 1
    refine Finset.sum_congr rfl fun j' _ => ?_
    rw [Finset.sum_mul]
    refine Finset.sum_congr rfl fun k _ => ?_
    rw [← Real.exp_add]
    congr 1
    ring

/-- After at least one tile the running sum is positive. -/
theorem onlineS_pos (f : ℕ → Fin w → ℝ) (m₀ : ℝ) {j : ℕ} (hj : 0 < j) : 0 < onlineS f m₀ j := by
  rw [onlineS_eq]
  refine Finset.sum_pos (fun j' _ => ?_) ⟨0, Finset.mem_range.2 hj⟩
  exact Finset.sum_pos (fun k _ => Real.exp_pos _) Finset.univ_nonempty

/-- The running maximum plus the logarithm of the running sum is the logarithm of the sum of the exponentials:
    `m_n + log s_n = log (∑_{j < n} ∑_k exp (f j k))`, whatever finite number the maximum started from. -/
theorem online_lse (f : ℕ → Fin w → ℝ) (m₀ : ℝ) {n : ℕ} (hn : 0 < n) :
    onlineM f m₀ n + Real.log (onlineS f m₀ n)
      = Real.log (∑ j ∈ Finset.range n, ∑ k : Fin w, Real.exp (f j k)) := by
  have hS : 0 < onlineS f m₀ n := onlineS_pos f m₀ hn
  have hprod : (∑ j ∈ Finset.range n, ∑ k : Fin w, Real.exp (f j k))
      = Real.exp (onlineM f m₀ n) * onlineS f m₀ n := by
    rw [onlineS_eq, Finset.mul_sum]
    refine Finset.sum_congr rfl fun j _ => ?_
    rw [Finset.mul_sum]
    refine Finset.sum_congr rfl fun k _ => ?_
    rw [← Real.exp_add]
    congr 1
    ring
  rw [hprod, Real.log_mul (Real.exp_ne_zero _) hS.ne', Real.log_exp]

/-- Subtracting the maximum once: `max g + log (∑_v exp (g v - max g)) = log (∑_v exp (g v))`. -/
theorem shifted_lse {N : ℕ} [NeZero N] (g : Fin N → ℝ) :
    tileMax g + Real.log (∑ v : Fin N, Real.exp (g v - tileMax g)) = Real.log (∑ v : Fin N, Real.exp (g v)) := by
  have hS : 0 < ∑ v : Fin N, Real.exp (g v - tileMax g) :=
    Finset.sum_pos (fun v _ => Real.exp_pos _) Finset.univ_nonempty
  have hprod : (∑ v : Fin N, Real.exp (g v)) = Real.exp (tileMax g) * ∑ v : Fin N, Real.exp (g v - tileMax g) := by
    rw [Finset.mul_sum]
    refine Finset.sum_congr rfl fun v _ => ?_
    rw [← Real.exp_add]
    congr 1
    ring
  rw [hprod, Real.log_mul (Real.exp_ne_zero _) hS.ne', Real.log_exp]

/-- `n` tiles of `c` entries are the first `c * n` entries. -/
theorem sum_tiles_range (c : ℕ) (G : ℕ → ℝ) (n : ℕ) :
    ∑ j ∈ Finset.range n, ∑ k : Fin c, G (c * j + k.val) = ∑ v ∈ Finset.range (c * n), G v := by
  induction n with
  | zero => simp
  | succ n ih =>
    rw [Finset.sum_range_succ, ih, Nat.mul_succ, Finset.sum_range_add, Fin.sum_univ_eq_sum_range (fun k => G (c * n + k)) c]

/-- 25 tiles of 1280 are the 32000 entries. -/
theorem sum_tiles (G : ℕ → ℝ) :
    ∑ j ∈ Finset.range 25, ∑ k : Fin 1280, G (1280 * j + k.val) = ∑ v : Fin 32000, G v.val := by
  rw [sum_tiles_range 1280 G 25, Fin.sum_univ_eq_sum_range G 32000]

/-- A one-hot sum picks its entry: for `id < 32000` the sum over all entries of the entry at `id` and zero elsewhere is
    the entry at `id`. -/
theorem sum_onehot (G : ℕ → ℝ) {id : ℕ} (hid : id < 32000) :
    ∑ j ∈ Finset.range 25, ∑ k : Fin 1280, (if 1280 * j + k.val = id then G (1280 * j + k.val) else 0) = G id := by
  rw [sum_tiles_range 1280 (fun v => if v = id then G v else 0) 25, Finset.sum_ite_eq']
  simp [hid]

/-! ### To the extended reals -/

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended logarithm of a positive real is the real logarithm. -/
theorem ideal_log_coe_pos {r : ℝ} (h : 0 < r) : Idealize.ShloMosaic.Ideal.log (r : EReal) = (Real.log r : EReal) := by
  rw [Idealize.ShloMosaic.Ideal.log_coe, if_neg (not_le.mpr h)]

/-- The supremum, from `⊥`, of a tile of reals read as extended reals is the tile's maximum. -/
theorem coe_tileMax (g : Fin w → ℝ) : (Finset.univ.sup fun k => ((g k : ℝ) : EReal)) = ((tileMax g : ℝ) : EReal) := by
  apply le_antisymm
  · exact Finset.sup_le fun k _ => EReal.coe_le_coe_iff.2 (le_tileMax g k)
  · obtain ⟨k, hk⟩ := exists_eq_tileMax g
    rw [hk]
    exact Finset.le_sup (f := fun k => ((g k : ℝ) : EReal)) (Finset.mem_univ k)

/-- Folding the maximum over a tile, started from `⊥`, gives the tile's maximum. -/
theorem fold_max_coe (g : Fin w → ℝ) :
    Finset.univ.fold max (⊥ : EReal) (fun k => ((g k : ℝ) : EReal)) = ((tileMax g : ℝ) : EReal) := by
  rw [← coe_tileMax g]
  rfl

end Cert.LibOnline

end
-- ==== Proof.Iface.lean ====
/-
  A row of 50000 logits cut into two halves of 25 tiles of 1000: the running maximum, the running sum and the running
  label logit of a half, and the laws that join the two halves to the whole row.
-/
import proofs.«414580_j28183575396662_1_alg».proof.Proof.Consts
import proofs.«414580_j28183575396662_1_alg».proof.Proof.LibOnlineSoftmax

noncomputable section

namespace Cert.ArcLoss

open scoped BigOperators
open Cert.LibOnline

instance : NeZero 1000 := ⟨by norm_num⟩

variable (e : Fin 1024 → Fin 512 → ℝ) (w : Fin 50000 → Fin 512 → ℝ) (lab : Fin 1024 → BitVec 32)

/-- The logits of row `b` along the naturals, zero past the last class. -/
def lgN (b : Fin 1024) (v : ℕ) : ℝ := if h : v < 50000 then lgR kK e w lab b ⟨v, h⟩ else 0

/-- Entry `k` of tile `j` of half `p` of row `b`. -/
def tileF (p : ℕ) (b : Fin 1024) (j : ℕ) (k : Fin 1000) : ℝ := lgN e w lab b (25000 * p + 1000 * j + k.val)

/-- The running maximum of half `p` of row `b` after `n` tiles, started from the first tile's maximum. -/
def runM (p : ℕ) (b : Fin 1024) (n : ℕ) : ℝ := onlineM (tileF e w lab p b) (tileMax (tileF e w lab p b 0)) n

/-- The running sum of half `p` of row `b` after `n` tiles. -/
def runS (p : ℕ) (b : Fin 1024) (n : ℕ) : ℝ := onlineS (tileF e w lab p b) (tileMax (tileF e w lab p b 0)) n

/-- The running label logit of half `p` of row `b` after `n` tiles. -/
def runT (p : ℕ) (b : Fin 1024) (n : ℕ) : ℝ :=
  ∑ j ∈ Finset.range n, ∑ k : Fin 1000,
    if lab b = BitVec.ofNat 32 (25000 * p + 1000 * j + k.val) then tileF e w lab p b j k else 0

/-- After at least one tile the running sum is positive. -/
theorem runS_pos (p : ℕ) (b : Fin 1024) {n : ℕ} (hn : 0 < n) : 0 < runS e w lab p b n :=
  onlineS_pos _ _ hn

/-- After one tile the running maximum is the tile's maximum and the running sum the tile's sum against it. -/
theorem runM_one (p : ℕ) (b : Fin 1024) : runM e w lab p b 1 = tileMax (tileF e w lab p b 0) :=
  max_self _
theorem runS_one (p : ℕ) (b : Fin 1024) :
    runS e w lab p b 1 = ∑ k : Fin 1000, Real.exp (tileF e w lab p b 0 k - tileMax (tileF e w lab p b 0)) := by
  have h : runS e w lab p b 1
      = 0 * Real.exp (tileMax (tileF e w lab p b 0) - runM e w lab p b 1)
        + ∑ k : Fin 1000, Real.exp (tileF e w lab p b 0 k - runM e w lab p b 1) := rfl
  rw [h, runM_one, zero_mul, zero_add]
theorem runT_one (p : ℕ) (b : Fin 1024) :
    runT e w lab p b 1 = ∑ k : Fin 1000, if lab b = BitVec.ofNat 32 (25000 * p + 1000 * 0 + k.val) then tileF e w lab p b 0 k else 0 := by
  unfold runT; rw [Finset.sum_range_one]

/-- Passing tile `n`. -/
theorem runM_succ (p : ℕ) (b : Fin 1024) (n : ℕ) :
    runM e w lab p b (n + 1) = max (runM e w lab p b n) (tileMax (tileF e w lab p b n)) := rfl
theorem runS_succ (p : ℕ) (b : Fin 1024) (n : ℕ) :
    runS e w lab p b (n + 1) = runS e w lab p b n * Real.exp (runM e w lab p b n - runM e w lab p b (n + 1))
      + ∑ k : Fin 1000, Real.exp (tileF e w lab p b n k - runM e w lab p b (n + 1)) := rfl
theorem runT_succ (p : ℕ) (b : Fin 1024) (n : ℕ) :
    runT e w lab p b (n + 1) = runT e w lab p b n
      + ∑ k : Fin 1000, if lab b = BitVec.ofNat 32 (25000 * p + 1000 * n + k.val) then tileF e w lab p b n k else 0 := by
  unfold runT; rw [Finset.sum_range_succ]

/-- Two halves of 25 tiles of 1000 entries are the 50000 entries of the row. -/
private theorem sum_two_halves (G : ℕ → ℝ) :
    (∑ j ∈ Finset.range 25, ∑ k : Fin 1000, G (25000 * 0 + 1000 * j + k.val))
      + (∑ j ∈ Finset.range 25, ∑ k : Fin 1000, G (25000 * 1 + 1000 * j + k.val))
      = ∑ c : Fin 50000, G c.val := by
  have h0 : ∀ p : ℕ, (∑ j ∈ Finset.range 25, ∑ k : Fin 1000, G (25000 * p + 1000 * j + k.val))
      = ∑ v ∈ Finset.range 25000, G (25000 * p + v) := by
    intro p
    have h := sum_tiles_range 1000 (fun v => G (25000 * p + v)) 25
    simp only [← Nat.add_assoc] at h
    exact h
  rw [h0 0, h0 1, Fin.sum_univ_eq_sum_range G 50000, show (50000 : ℕ) = 25000 + 25000 from rfl,
    Finset.sum_range_add]
  simp only [Nat.mul_zero, Nat.zero_add, Nat.mul_one]

/-- Below 50000 the logits along the naturals are the logits. -/
private theorem lgN_val (b : Fin 1024) (c : Fin 50000) : lgN e w lab b c.val = lgR kK e w lab b c := by
  unfold lgN; rw [dif_pos c.isLt]

/-- The exponential of a half's running maximum times its running sum is the half's sum of exponentials. -/
private theorem half_exp (p : ℕ) (b : Fin 1024) :
    Real.exp (runM e w lab p b 25) * runS e w lab p b 25
      = ∑ j ∈ Finset.range 25, ∑ k : Fin 1000, Real.exp (lgN e w lab b (25000 * p + 1000 * j + k.val)) := by
  have hS : 0 < runS e w lab p b 25 := runS_pos e w lab p b (by norm_num)
  have hpos : 0 < ∑ j ∈ Finset.range 25, ∑ k : Fin 1000, Real.exp (tileF e w lab p b j k) :=
    Finset.sum_pos (fun j _ => Finset.sum_pos (fun k _ => Real.exp_pos _) Finset.univ_nonempty)
      ⟨0, Finset.mem_range.2 (by norm_num)⟩
  have h : runM e w lab p b 25 + Real.log (runS e w lab p b 25)
      = Real.log (∑ j ∈ Finset.range 25, ∑ k : Fin 1000, Real.exp (tileF e w lab p b j k)) :=
    online_lse (tileF e w lab p b) (tileMax (tileF e w lab p b 0)) (by norm_num)
  have h2 := congrArg Real.exp h
  rw [Real.exp_add, Real.exp_log hS, Real.exp_log hpos] at h2
  exact h2

/-- THE TWO HALVES JOINED: the larger of the two maxima plus the logarithm of the two sums rescaled to it is the
    logarithm of the sum of the exponentials of the whole row. -/
theorem halves_lse (b : Fin 1024) :
    max (runM e w lab 0 b 25) (runM e w lab 1 b 25)
      + Real.log (Real.exp (runM e w lab 0 b 25 - max (runM e w lab 0 b 25) (runM e w lab 1 b 25)) * runS e w lab 0 b 25
          + Real.exp (runM e w lab 1 b 25 - max (runM e w lab 0 b 25) (runM e w lab 1 b 25)) * runS e w lab 1 b 25)
      = Real.log (∑ c : Fin 50000, Real.exp (lgR kK e w lab b c)) := by
  have e0 := half_exp e w lab 0 b
  have e1 := half_exp e w lab 1 b
  have hsum := sum_two_halves (fun v => Real.exp (lgN e w lab b v))
  have hfin : (∑ c : Fin 50000, Real.exp (lgN e w lab b c.val)) = ∑ c : Fin 50000, Real.exp (lgR kK e w lab b c) :=
    Finset.sum_congr rfl fun c _ => by rw [lgN_val]
  have hpos : 0 < ∑ c : Fin 50000, Real.exp (lgR kK e w lab b c) :=
    Finset.sum_pos (fun c _ => Real.exp_pos _) ⟨⟨0, by norm_num⟩, Finset.mem_univ _⟩
  generalize runM e w lab 0 b 25 = M0 at *
  generalize runM e w lab 1 b 25 = M1 at *
  generalize runS e w lab 0 b 25 = S0 at *
  generalize runS e w lab 1 b 25 = S1 at *
  have key : Real.exp (M0 - max M0 M1) * S0 + Real.exp (M1 - max M0 M1) * S1
      = Real.exp (-max M0 M1) * ∑ c : Fin 50000, Real.exp (lgR kK e w lab b c) := by
    rw [← hfin, ← hsum, ← e0, ← e1, sub_eq_add_neg, sub_eq_add_neg, Real.exp_add, Real.exp_add]
    ring
  rw [key, Real.log_mul (Real.exp_ne_zero _) hpos.ne', Real.log_exp]
  ring

/-- The two halves' label logits add up to the row's. -/
theorem halves_tgt (b : Fin 1024) : runT e w lab 0 b 25 + runT e w lab 1 b 25 = tgtR kK e w lab b := by
  have hsum := sum_two_halves (fun v => if lab b = BitVec.ofNat 32 v then lgN e w lab b v else 0)
  have hfin : (∑ c : Fin 50000, if lab b = BitVec.ofNat 32 c.val then lgN e w lab b c.val else 0)
      = tgtR kK e w lab b :=
    Finset.sum_congr rfl fun c _ => by rw [lgN_val]
  rw [← hfin, ← hsum]
  rfl

/-- For a label in range the row's label logit is the logit at the label. -/
theorem tgtR_of_range (b : Fin 1024) (c : Fin 50000) (hc : lab b = BitVec.ofNat 32 c.val) :
    tgtR kK e w lab b = lgR kK e w lab b c := by
  have hinj : ∀ c' : Fin 50000, lab b = BitVec.ofNat 32 c'.val ↔ c = c' := by
    intro c'
    constructor
    · intro h
      have h2 := congrArg BitVec.toNat (hc.symm.trans h)
      rw [BitVec.toNat_ofNat, BitVec.toNat_ofNat] at h2
      have h1 := c.isLt
      have h3 := c'.isLt
      exact Fin.ext (by omega)
    · rintro rfl
      exact hc
  unfold tgtR
  simp only [hinj, Finset.sum_ite_eq, Finset.mem_univ, if_true]

end Cert.ArcLoss

end
-- ==== Proof.KTileCos.lean ====
/-
  The tile's cosines and margins at an index, on the extended reals.

  With the tile's class rows and the scaled embeddings holding real numbers, entry (b, j) of the tile's matrix product is
  the cosine of embedding `b` and the tile's class row `j`, and the margin map's entry is the margin map of that cosine.
  The scaled embeddings the first tile forms from the embedding block are the rows scaled by their floored lengths.
-/
import proofs.«414580_j28183575396662_1_alg».proof.Proof.KStep
import proofs.«414580_j28183575396662_1_alg».proof.Proof.Iface
import Idealize.ShloMosaic.Lib.ValueIdx
import Idealize.ShloMosaic.Lib.Pipeline.Value
import Idealize.ShloMosaic.Lib.ValueLayout
import Idealize.ShloMosaic.PureOps.Ideal.Laws

noncomputable section

namespace Cert.ArcLoss.KTile

open Idealize.ShloMosaic Idealize.ShloMosaic.ValueIdx
open Cert.KernelIdeal Cert.KernelIdeal.Gen Cert.ArcLoss Cert.ArcLoss.KStep

/-- The first class of the tile at grid point `i`: half `i 0`, tile `i 1`. -/
def off (i : grid0.Coords) : ℕ := 25000 * (i 0).val + 1000 * (i 1).val

theorem off_lt (i : grid0.Coords) (j : Fin 1000) : off i + j.val < 50000 := by
  have h0 : (i 0).val < 2 := (i 0).isLt
  have h1 : (i 1).val < 25 := (i 1).isLt
  have hj : j.val < 1000 := j.isLt
  unfold off
  omega

/-! ## The order and the lattice operations on real numbers read as extended reals -/

private theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

private theorem coe_min (x y : ℝ) : ((min x y : ℝ) : EReal) = min (x : EReal) (y : EReal) := by
  rcases le_total x y with h | h
  · rw [min_eq_left h, min_eq_left (EReal.coe_le_coe_iff.2 h)]
  · rw [min_eq_right h, min_eq_right (EReal.coe_le_coe_iff.2 h)]

/-! ## A column of row sums: the layout operations at an index -/

section Layout
variable {α : Type}

/-- A length-`a` vector cast to an `[a, 1]` column reads, at `(r, u)`, the vector at `r`. -/
private theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- An `[a, 1]` column broadcast to `[a, b]` reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the rows of an `[a, b]` array reads, at `r`, the sum over the row's entries. -/
private theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext c
  match c with
  | ⟨0, _⟩ => exact Fin.ext rfl
  | ⟨1, _⟩ => exact Fin.ext rfl

/-! ## Rows scaled by their floored lengths -/

/-- The floored length of a row whose sum of squares is the nonnegative real number `S`. -/
private theorem lenFloor_apply {a : ℕ} (v : FVec Ideal ⟨1, ![a]⟩ .f32)
    (hcast : (⟨1, ![a]⟩ : Shape).ShapeCasts ⟨2, ![a, 1]⟩) (r : Fin a) (u : Fin 1) (S : ℝ) (hS : 0 ≤ S)
    (hv : v (ix1 r) = ((S : ℝ) : EReal)) :
    maximumf (sqrt (shapeCast ⟨2, ![a, 1]⟩ v hcast))
        (broadcast ⟨2, ![a, 1]⟩ (Scalar.ofBits (F := Ideal) .f32 0x2B8CBCCC#32)) (ix2 r u)
      = ((max (Real.sqrt S) kK.eps : ℝ) : EReal) := by
  show max (Ideal.sqrt (shapeCast ⟨2, ![a, 1]⟩ v hcast (ix2 r u))) (Ideal.ofBits .f32 0x2B8CBCCC#32) = _
  rw [shapeCast_a_a1_apply v hcast r u, hv, Ideal.sqrt_coe, if_neg (not_lt.mpr hS), ofBits_eps, coe_max]
  rfl

/-- An entry divided by its row's nonzero real denominator, the denominators standing in a column. -/
private theorem scaled_apply {a b : ℕ} (x : FVec Ideal ⟨2, ![a, b]⟩ .f32) (den : FVec Ideal ⟨2, ![a, 1]⟩ .f32)
    (hbc : (⟨2, ![a, 1]⟩ : Shape).Broadcasts ⟨2, ![a, b]⟩) (r : Fin a) (d : Fin b) (X D : ℝ) (hD : D ≠ 0)
    (hx : x (ix2 r d) = ((X : ℝ) : EReal)) (hden : den (ix2 r (0 : Fin 1)) = ((D : ℝ) : EReal)) :
    divf x (broadcastTo ⟨2, ![a, b]⟩ den hbc) (ix2 r d) = ((X / D : ℝ) : EReal) := by
  show Ideal.div (x (ix2 r d)) (broadcastTo ⟨2, ![a, b]⟩ den hbc (ix2 r d)) = _
  rw [broadcastTo_a1_ab_apply den hbc r d, hx, hden, Ideal.div_coe hD, ← EReal.coe_mul, mul_one_div]

/-- The rows of an array of real numbers scaled by their floored lengths, at an entry. -/
private theorem nrm_apply {a b : ℕ} (x : FVec Ideal ⟨2, ![a, b]⟩ .f32) (xr : Fin a → Fin b → ℝ)
    (hx : ∀ r d, x (ix2 r d) = ((xr r d : ℝ) : EReal))
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (r : Fin a) (d : Fin b) :
    divf x (broadcastTo ⟨2, ![a, b]⟩
        (maximumf (sqrt (shapeCast ⟨2, ![a, 1]⟩
            (multiReduction .add [1] ⟨1, ![a]⟩ (mulf x x) 0x00000000#32 hred hφ hacc) hcast))
          (broadcast ⟨2, ![a, 1]⟩ (Scalar.ofBits (F := Ideal) .f32 0x2B8CBCCC#32))) hbc) (ix2 r d)
      = ((nrm kK xr r d : ℝ) : EReal) := by
  have hs : multiReduction .add [1] ⟨1, ![a]⟩ (mulf x x) 0x00000000#32 hred hφ hacc (ix1 r)
      = ((∑ k, xr r k * xr r k : ℝ) : EReal) := by
    refine (rowSum_apply (mulf x x) hred hφ hacc r).trans ?_
    rw [Cert.LibOnline.coe_sum]
    refine Finset.sum_congr rfl fun k _ => ?_
    rw [mulf_apply, hx, EReal.coe_mul]
  show _ = ((xr r d / max (Real.sqrt (∑ d', xr r d' * xr r d')) kK.eps : ℝ) : EReal)
  exact scaled_apply x _ hbc r d _ _ (ne_of_gt (nrm_den_pos kK xr r)) (hx r d)
    (lenFloor_apply _ hcast r 0 _ (Finset.sum_nonneg fun k _ => mul_self_nonneg _) hs)

variable (e : Fin 1024 → Fin 512 → ℝ) (w : Fin 50000 → Fin 512 → ℝ)

/-- The scaled embeddings formed from the embedding block. -/
theorem pay7_apply (x0 : Vec Ideal S1024x512 .f32) (hx0 : ∀ b d, x0 (ix2 b d) = ((e b d : ℝ) : EReal))
    (b : Fin 1024) (d : Fin 512) :
    k0_pay7 (F := Ideal) x0 (ix2 b d) = ((nrm kK e b d : ℝ) : EReal) := by
  unfold k0_pay7
  refine (congrFun (shapeCast_self _ _) _).trans ?_
  exact nrm_apply x0 e hx0 _ _ _ _ _ b d

/-! ## The tile's matrix product -/

private theorem lhs_axis0 (i : S1024x1000.Idx) (q : dot_S1024x512_S512x1000_S1024x1000_1_0_0_1_n_n.contr.Idx) :
    (dot_S1024x512_S512x1000_S1024x1000_1_0_0_1_n_n.lhsIdx i q 0).val = (i 0).val := by
  unfold DotDims.lhsIdx
  rw [dif_neg (show ¬(0 : Fin S1024x512.rank) ∈ dot_S1024x512_S512x1000_S1024x1000_1_0_0_1_n_n.lhsBatch by decide), dif_pos (show (0 : Fin S1024x512.rank) ∈ dot_S1024x512_S512x1000_S1024x1000_1_0_0_1_n_n.lhsNonContracting by decide)]
  rfl
private theorem lhs_axis1 (i : S1024x1000.Idx) (q : dot_S1024x512_S512x1000_S1024x1000_1_0_0_1_n_n.contr.Idx) :
    (dot_S1024x512_S512x1000_S1024x1000_1_0_0_1_n_n.lhsIdx i q 1).val = (q ⟨0, by decide⟩).val :=
  dot_S1024x512_S512x1000_S1024x1000_1_0_0_1_n_n.lhsIdx_val_of_single rfl i q
private theorem rhs_axis0 (i : S1024x1000.Idx) (q : dot_S1024x512_S512x1000_S1024x1000_1_0_0_1_n_n.contr.Idx) :
    (dot_S1024x512_S512x1000_S1024x1000_1_0_0_1_n_n.rhsIdx i q 0).val = (q ⟨0, by decide⟩).val :=
  dot_S1024x512_S512x1000_S1024x1000_1_0_0_1_n_n.rhsIdx_val_of_single rfl i q
private theorem rhs_axis1 (i : S1024x1000.Idx) (q : dot_S1024x512_S512x1000_S1024x1000_1_0_0_1_n_n.contr.Idx) :
    (dot_S1024x512_S512x1000_S1024x1000_1_0_0_1_n_n.rhsIdx i q 1).val = (i 1).val := by
  unfold DotDims.rhsIdx
  rw [dif_neg (show ¬(1 : Fin S512x1000.rank) ∈ dot_S1024x512_S512x1000_S1024x1000_1_0_0_1_n_n.rhsBatch by decide), dif_pos (show (1 : Fin S512x1000.rank) ∈ dot_S1024x512_S512x1000_S1024x1000_1_0_0_1_n_n.rhsNonContracting by decide)]
  rfl

/-- The product of a `[1024, 512]` and a `[512, 1000]` array accumulated into zero: at `(b, j)`, the sum over `k` of the
    products of the entries `(b, k)` and `(k, j)`. -/
private theorem matmul_entry (y0 : FVec Ideal S1024x512 .bf16) (y1 : FVec Ideal S512x1000 .bf16) (b : Fin 1024) (j : Fin 1000) :
    matmul dot_S1024x512_S512x1000_S1024x1000_1_0_0_1_n_n none y0 y1 (constant (F := Ideal) S1024x1000 .f32 0x00000000#32) (ix2 b j)
      = ∑ k : Fin 512, y0 (ix2 b k) * y1 (ix2 k j) := by
  refine (Ideal.matmul_constant_zero_apply dot_S1024x512_S512x1000_S1024x1000_1_0_0_1_n_n none y0 y1 (ix2 b j)).trans ?_
  rw [← Equiv.sum_comp (ValueIdx.contrEquiv1 dot_S1024x512_S512x1000_S1024x1000_1_0_0_1_n_n 512 rfl rfl).symm]
  refine Finset.sum_congr rfl fun k _ => ?_
  have hk := ValueIdx.contrEquiv1_symm_val dot_S1024x512_S512x1000_S1024x1000_1_0_0_1_n_n 512 rfl rfl k
  have el : dot_S1024x512_S512x1000_S1024x1000_1_0_0_1_n_n.lhsIdx (ix2 b j) ((ValueIdx.contrEquiv1 dot_S1024x512_S512x1000_S1024x1000_1_0_0_1_n_n 512 rfl rfl).symm k) = ix2 b k := funext fun a => Fin.ext (by
    match a with
    | ⟨0, _⟩ => exact lhs_axis0 _ _
    | ⟨1, _⟩ => exact (lhs_axis1 _ _).trans hk)
  have er : dot_S1024x512_S512x1000_S1024x1000_1_0_0_1_n_n.rhsIdx (ix2 b j) ((ValueIdx.contrEquiv1 dot_S1024x512_S512x1000_S1024x1000_1_0_0_1_n_n 512 rfl rfl).symm k) = ix2 k j := funext fun a => Fin.ext (by
    match a with
    | ⟨0, _⟩ => exact (rhs_axis0 _ _).trans hk
    | ⟨1, _⟩ => exact rhs_axis1 _ _)
  rw [el, er]

/-- The tile's cosines. -/
theorem pay8_apply (i : grid0.Coords) (x2 : Vec Ideal S1000x512 .f32) (en : Vec Ideal S1024x512 .bf16)
    (hx2 : ∀ (j : Fin 1000) (d : Fin 512), x2 (ix2 j d) = ((w ⟨off i + j.val, off_lt i j⟩ d : ℝ) : EReal))
    (hen : ∀ (b : Fin 1024) (d : Fin 512), en (ix2 b d) = ((nrm kK e b d : ℝ) : EReal))
    (b : Fin 1024) (j : Fin 1000) :
    k0_pay8 (F := Ideal) x2 en (ix2 b j) = ((cosR kK e w b ⟨off i + j.val, off_lt i j⟩ : ℝ) : EReal) := by
  unfold k0_pay8
  refine (matmul_entry _ _ b j).trans ?_
  show _ = ((∑ k, nrm kK e b k * nrm kK w ⟨off i + j.val, off_lt i j⟩ k : ℝ) : EReal)
  rw [Cert.LibOnline.coe_sum]
  refine Finset.sum_congr rfl fun k _ => ?_
  rw [EReal.coe_mul, hen b k]
  refine congrArg (((nrm kK e b k : ℝ) : EReal) * ·) ?_
  refine (transpose_ix2_apply _ _ k j).trans ?_
  exact nrm_apply x2 (fun j d => w ⟨off i + j.val, off_lt i j⟩ d) hx2 _ _ _ _ _ j k

/-! ## The margin map -/

/-- The margin map of an array at an entry holding the real number `c`. -/
private theorem marg_apply {s : Shape} (P : FVec Ideal s .f32) (i : s.Idx) (c : ℝ) (hc : P i = ((c : ℝ) : EReal)) :
    select (cmpf .ogt P (broadcast s (Scalar.ofBits (F := Ideal) .f32 0xBF60A940#32)))
      (subf (mulf P (broadcast s (Scalar.ofBits (F := Ideal) .f32 0x3F60A940#32)))
        (mulf (sqrt (minimumf (broadcast s (Scalar.ofBits (F := Ideal) .f32 0x3F800000#32))
            (maximumf (broadcast s (Scalar.ofBits (F := Ideal) .f32 0x00000000#32))
              (subf (broadcast s (Scalar.ofBits (F := Ideal) .f32 0x3F800000#32)) (mulf P P)))))
          (broadcast s (Scalar.ofBits (F := Ideal) .f32 0x3EF57744#32))))
      (subf P (broadcast s (Scalar.ofBits (F := Ideal) .f32 0x3E757744#32))) i
      = ((margR kK c : ℝ) : EReal) := by
  show Scalar.select (Ideal.cmp .ogt (P i) (Ideal.ofBits .f32 0xBF60A940#32))
      (P i * Ideal.ofBits .f32 0x3F60A940#32
        - Ideal.sqrt (min (Ideal.ofBits .f32 0x3F800000#32)
            (max (Ideal.ofBits .f32 0x00000000#32) (Ideal.ofBits .f32 0x3F800000#32 - P i * P i)))
          * Ideal.ofBits .f32 0x3EF57744#32)
      (P i - Ideal.ofBits .f32 0x3E757744#32) = _
  have hth : Ideal.ofBits .f32 0xBF60A940#32 = ((kK.th : ℝ) : EReal) := ofBits_th
  have hcm : Ideal.ofBits .f32 0x3F60A940#32 = ((kK.cosM : ℝ) : EReal) := ofBits_cosM
  have hsm : Ideal.ofBits .f32 0x3EF57744#32 = ((kK.sinM : ℝ) : EReal) := ofBits_sinM
  have hmm : Ideal.ofBits .f32 0x3E757744#32 = ((kK.mm : ℝ) : EReal) := ofBits_mm
  have hq : Ideal.sqrt (min (Ideal.ofBits .f32 0x3F800000#32)
        (max (Ideal.ofBits .f32 0x00000000#32) (Ideal.ofBits .f32 0x3F800000#32 - ((c : ℝ) : EReal) * ((c : ℝ) : EReal))))
      = ((Real.sqrt (min 1 (max 0 (1 - c * c))) : ℝ) : EReal) := by
    rw [ofBits_one, ofBits_zero, ← EReal.coe_mul, ← EReal.coe_sub, ← coe_max, ← coe_min, Ideal.sqrt_coe,
      if_neg (not_lt.mpr (le_min zero_le_one (le_max_left _ _)))]
  rw [hc, hth, hcm, hsm, hmm, hq, ← EReal.coe_mul, ← EReal.coe_mul, ← EReal.coe_sub, ← EReal.coe_sub]
  unfold margR
  by_cases h : kK.th < c
  · have hd : Ideal.cmp .ogt ((c : ℝ) : EReal) ((kK.th : ℝ) : EReal) = 1#1 := by
      show BitVec.ofBool (decide (((kK.th : ℝ) : EReal) < ((c : ℝ) : EReal))) = 1#1
      rw [decide_eq_true (EReal.coe_lt_coe_iff.2 h)]
      rfl
    rw [if_pos h, hd]
    exact select_one _ _
  · have hd : Ideal.cmp .ogt ((c : ℝ) : EReal) ((kK.th : ℝ) : EReal) = 0#1 := by
      show BitVec.ofBool (decide (((kK.th : ℝ) : EReal) < ((c : ℝ) : EReal))) = 0#1
      rw [decide_eq_false (fun hlt => h (EReal.coe_lt_coe_iff.1 hlt))]
      rfl
    rw [if_neg h, hd]
    exact select_zero _ _

/-- The margin map of the tile's cosines. -/
theorem pay9_apply (i : grid0.Coords) (x2 : Vec Ideal S1000x512 .f32) (en : Vec Ideal S1024x512 .bf16)
    (hx2 : ∀ (j : Fin 1000) (d : Fin 512), x2 (ix2 j d) = ((w ⟨off i + j.val, off_lt i j⟩ d : ℝ) : EReal))
    (hen : ∀ (b : Fin 1024) (d : Fin 512), en (ix2 b d) = ((nrm kK e b d : ℝ) : EReal))
    (b : Fin 1024) (j : Fin 1000) :
    k0_pay9 (F := Ideal) x2 en (ix2 b j) = ((margR kK (cosR kK e w b ⟨off i + j.val, off_lt i j⟩) : ℝ) : EReal) := by
  unfold k0_pay9
  exact marg_apply _ _ _ (pay8_apply e w i x2 en hx2 hen b j)

end Cert.ArcLoss.KTile

end
-- ==== Proof.KTileStep.lean ====
/-
  The tile's logits and the three step maps at a row, on the extended reals.

  The tile's logit at (b, j) is the scale times the margin entry where the label of `b` is the tile's class `j` and times
  the cosine elsewhere. With the tile's logits real, the stepped maximum at row `b` is the larger of the old maximum and
  the tile's maximum; the stepped sum is the old sum rescaled to the new maximum plus the exponentials of the tile's
  logits against it; the stepped label logit is the old one plus the tile's logit at the label's column, if it has one.
  From the negative infinity and zeros the first tile gives the tile's own maximum, sum and label logit.
-/
import proofs.«414580_j28183575396662_1_alg».proof.Proof.KStep
import proofs.«414580_j28183575396662_1_alg».proof.Proof.Iface
import Idealize.ShloMosaic.Lib.ValueIdx
import Idealize.ShloMosaic.Lib.Pipeline.Value
import Idealize.ShloMosaic.Lib.ValueLayout
import Idealize.ShloMosaic.PureOps.Ideal.Laws

noncomputable section

namespace Cert.ArcLoss.KTileStep

open Idealize.ShloMosaic Idealize.ShloMosaic.ValueIdx
open Cert.KernelIdeal Cert.KernelIdeal.Gen Cert.ArcLoss Cert.ArcLoss.KStep Cert.LibOnline

/-- The first class of the tile at grid point `i` (the same number as `KTile.off`). -/
def off (i : grid0.Coords) : ℕ := 25000 * (i 0).val + 1000 * (i 1).val

/-! ### Reading the layout operations at a row and a class -/

/-- A column of reals read at every class of its row. -/
private theorem bcol_f (v : FVec Ideal S1024x1 .f32) (b : Fin 1024) (j : Fin 1000) :
    broadcastTo S1024x1000 v broadcasts_S1024x1_S1024x1000 (ix2 b j) = v (ix2 b (0 : Fin 1)) := by
  refine broadcastTo_apply v _ (ix2 b j) (ix2 b (0 : Fin 1)) fun ax => ?_
  match ax with
  | ⟨0, _⟩ => rfl
  | ⟨1, _⟩ => rfl

/-- A column of words read at every class of its row. -/
private theorem bcol_i (v : IVec S1024x1 32) (b : Fin 1024) (j : Fin 1000) :
    broadcastTo S1024x1000 v broadcasts_S1024x1_S1024x1000 (ix2 b j) = v (ix2 b (0 : Fin 1)) := by
  refine broadcastTo_apply v _ (ix2 b j) (ix2 b (0 : Fin 1)) fun ax => ?_
  match ax with
  | ⟨0, _⟩ => rfl
  | ⟨1, _⟩ => rfl

/-- A vector over the rows read as a column. -/
private theorem col_of_vec (v : FVec Ideal S1024 .f32) (b : Fin 1024) :
    shapeCast S1024x1 v shapeCasts_S1024_S1024x1 (ix2 b (0 : Fin 1)) = v (ix1 b) :=
  shapeCast_apply v _ _ _ (by
    rw [Shape.rowMajor_val_two, Shape.rowMajor_val_one]
    show b.val = b.val * 1 + 0
    omega)

/-- The exponential of a vector read at an index. -/
private theorem exp_apply {s : Shape} {φ : FTy} (a : FVec Ideal s φ) (i : s.Idx) : exp a i = Ideal.exp (a i) := rfl

/-- A row index with a class put back at the reduced axis is the pair of the row and the class. -/
private theorem lift_eq (b : Fin 1024) (k : Fin 1000) :
    reduces_S1024x1000_S1024.lift (ix1 b) k = ix2 b k :=
  Shape.idx_ext₂ rfl rfl

/-- The maximum of a row of real logits is the tile's maximum. -/
private theorem rowMax_apply (T : FVec Ideal S1024x1000 .f32) (lg : Fin 1024 → Fin 1000 → ℝ)
    (hT : ∀ b j, T (ix2 b j) = ((lg b j : ℝ) : EReal)) (b : Fin 1024) :
    multiReduction (F := Ideal) .maximumf [1] S1024 T 0xFF800000#32 reduces_S1024x1000_S1024 (.inl rfl) rfl (ix1 b)
      = ((tileMax (lg b) : ℝ) : EReal) := by
  refine (Ideal.multiReduction_maximumf_single T 0xFF800000#32 reduces_S1024x1000_S1024 (.inl rfl) rfl (ix1 b)).trans ?_
  have hf : (T ∘ reduces_S1024x1000_S1024.lift (ix1 b)) = fun k : Fin 1000 => ((lg b k : ℝ) : EReal) :=
    funext fun k => (congrArg T (lift_eq b k)).trans (hT b k)
  show (Finset.univ : Finset (Fin 1000)).fold max (Ideal.ofBits .f32 0xFF800000#32) (T ∘ reduces_S1024x1000_S1024.lift (ix1 b)) = _
  rw [hf, ofBits_neg_inf]
  exact fold_max_coe (lg b)

/-- The sum of a row is the sum over its classes. -/
private theorem rowSum_apply (T : FVec Ideal S1024x1000 .f32) (b : Fin 1024) :
    multiReduction (F := Ideal) .add [1] S1024 T 0x00000000#32 reduces_S1024x1000_S1024 (.inl rfl) rfl (ix1 b)
      = ∑ k : Fin 1000, T (ix2 b k) := by
  refine (Ideal.multiReduction_add_single T 0x00000000#32 reduces_S1024x1000_S1024 (.inl rfl) rfl (ix1 b)).trans ?_
  show ∑ k : Fin 1000, T (reduces_S1024x1000_S1024.lift (ix1 b) k) = _
  exact Finset.sum_congr rfl fun k _ => congrArg T (lift_eq b k)

/-! ### The class word and the label test -/

/-- The class word at a column of a tile is the word of the tile's first class plus the column: the two products and the
    two sums are taken on words, and the word of a sum or product of naturals is the sum or product of their words. -/
private theorem colword (i : grid0.Coords) (j : Fin 1000) :
    addi (k0_pay10 i) colIota (ix2 (0 : Fin 1) j) = BitVec.ofNat 32 (off i + j.val) := by
  show BitVec.ofNat 32 (i 0).val * 25000#32 + BitVec.ofNat 32 (i 1).val * 1000#32
      + iota .tc S1x1000 32 [1] Cert.KernelIdeal.Facts₀.iota_S1x1000_d1_w32 (ix2 (0 : Fin 1) j) = _
  rw [iota_single_apply]
  show BitVec.ofNat 32 (i 0).val * BitVec.ofNat 32 25000 + BitVec.ofNat 32 (i 1).val * BitVec.ofNat 32 1000
      + BitVec.ofNat 32 j.val = _
  rw [← BitVec.ofNat_mul, ← BitVec.ofNat_mul, ← BitVec.ofNat_add, ← BitVec.ofNat_add, off,
    Nat.mul_comm (i 0).val, Nat.mul_comm (i 1).val]

/-- The label test at a class of a row: the row's label word against the class word. -/
private theorem pay11_apply (i : grid0.Coords) (lbl : Vec Ideal S1024x1 .i32) (b : Fin 1024) (j : Fin 1000) :
    k0_pay11 (F := Ideal) colIota (k0_pay10 i) lbl (ix2 b j)
      = BitVec.ofBool (lbl (ix2 b (0 : Fin 1)) == BitVec.ofNat 32 (off i + j.val)) := by
  unfold k0_pay11
  show BitVec.ofBool (broadcastTo S1024x1000 (shapeCast S1024x1 lbl shapeCasts_S1024x1_S1024x1) broadcasts_S1024x1_S1024x1000 (ix2 b j)
      == broadcastTo S1024x1000 (addi (k0_pay10 i) colIota) broadcasts_S1x1000_S1024x1000 (ix2 b j)) = _
  rw [shapeCast_self, bcol_i, broadcastTo_1b_ab_apply, colword]

/-- A choice by the bit of a truth value is the choice by the truth value. -/
private theorem select_ofBool {α : Type} (p : Bool) (x y : α) :
    Scalar.select (BitVec.ofBool p) x y = if p = true then x else y := by
  cases p <;> simp [Scalar.select]

/-! ### The payloads at a row -/

/-- The scaled choice at a class of a row. -/
private theorem pay12_apply (i : grid0.Coords) (v15 v33 : FVec Ideal S1024x1000 .f32) (lbl : Vec Ideal S1024x1 .i32)
    (b : Fin 1024) (j : Fin 1000) :
    k0_pay12 (F := Ideal) v15 v33 colIota (k0_pay10 i) lbl (ix2 b j)
      = Ideal.ofBits .f32 0x42800000#32
        * (if lbl (ix2 b (0 : Fin 1)) = BitVec.ofNat 32 (off i + j.val) then v33 (ix2 b j) else v15 (ix2 b j)) := by
  unfold k0_pay12
  rw [mulf_apply, select_apply, pay11_apply, select_ofBool, broadcast_apply]
  simp only [beq_iff_eq]
  rfl

/-- The stepped maximum at a row: the larger of the old maximum and the tile's. -/
private theorem pay13_apply (i : grid0.Coords) (v15 v33 : FVec Ideal S1024x1000 .f32) (lbl : Vec Ideal S1024x1 .i32)
    (v50 : Vec Ideal S1024x1 .f32) (lg : Fin 1024 → Fin 1000 → ℝ)
    (hlg : ∀ b j, k0_pay12 (F := Ideal) v15 v33 colIota (k0_pay10 i) lbl (ix2 b j) = ((lg b j : ℝ) : EReal))
    (b : Fin 1024) :
    k0_pay13 (F := Ideal) v15 v33 colIota (k0_pay10 i) lbl v50 (ix2 b (0 : Fin 1))
      = max (v50 (ix2 b (0 : Fin 1))) ((tileMax (lg b) : ℝ) : EReal) := by
  unfold k0_pay13
  dsimp only
  rw [maximumf_apply, col_of_vec]
  exact congrArg (max (v50 (ix2 b (0 : Fin 1)))) (rowMax_apply _ lg hlg b)

/-- The stepped sum at a row: the old sum times the exponential of the old maximum against the new one, plus the
    exponentials of the tile's logits against the new maximum. -/
private theorem pay14_apply (i : grid0.Coords) (v15 v33 : FVec Ideal S1024x1000 .f32) (lbl : Vec Ideal S1024x1 .i32)
    (v50 v57 : Vec Ideal S1024x1 .f32) (b : Fin 1024) :
    k0_pay14 (F := Ideal) v15 v33 colIota (k0_pay10 i) lbl v50 v57 (ix2 b (0 : Fin 1))
      = Ideal.exp (v50 (ix2 b (0 : Fin 1)) - k0_pay13 (F := Ideal) v15 v33 colIota (k0_pay10 i) lbl v50 (ix2 b (0 : Fin 1)))
          * v57 (ix2 b (0 : Fin 1))
        + ∑ k : Fin 1000, Ideal.exp (k0_pay12 (F := Ideal) v15 v33 colIota (k0_pay10 i) lbl (ix2 b k)
            - k0_pay13 (F := Ideal) v15 v33 colIota (k0_pay10 i) lbl v50 (ix2 b (0 : Fin 1))) := by
  unfold k0_pay14
  dsimp only
  rw [shapeCast_self, addf_apply, mulf_apply, exp_apply, subf_apply, col_of_vec]
  refine congrArg (_ + ·) ((rowSum_apply _ b).trans (Finset.sum_congr rfl fun k _ => ?_))
  rw [exp_apply, subf_apply, bcol_f]

/-- The stepped label logit at a row: the old one plus the tile's logit where the label test holds. -/
private theorem pay15_apply (i : grid0.Coords) (v15 v33 : FVec Ideal S1024x1000 .f32) (lbl : Vec Ideal S1024x1 .i32)
    (v69 : Vec Ideal S1024x1 .f32) (b : Fin 1024) :
    k0_pay15 (F := Ideal) v15 v33 colIota (k0_pay10 i) lbl v69 (ix2 b (0 : Fin 1))
      = v69 (ix2 b (0 : Fin 1))
        + ∑ k : Fin 1000, (if lbl (ix2 b (0 : Fin 1)) = BitVec.ofNat 32 (off i + k.val)
            then k0_pay12 (F := Ideal) v15 v33 colIota (k0_pay10 i) lbl (ix2 b k) else Ideal.ofBits .f32 0x00000000#32) := by
  unfold k0_pay15
  dsimp only
  rw [shapeCast_self, addf_apply, col_of_vec]
  refine congrArg (_ + ·) ((rowSum_apply _ b).trans (Finset.sum_congr rfl fun k _ => ?_))
  rw [select_apply, pay11_apply, select_ofBool, broadcast_apply]
  simp only [beq_iff_eq]
  rfl

/-! ### On the extended reals -/

/-- The extended real of the larger of two reals is the larger of their extended reals. -/
private theorem coe_max (x y : ℝ) : ((max x y : ℝ) : EReal) = max (x : EReal) (y : EReal) :=
  EReal.coe_strictMono.monotone.map_max

/-- The exponential of a difference of reals. -/
private theorem exp_coe_sub (x y : ℝ) : Ideal.exp ((x : EReal) - (y : EReal)) = ((Real.exp (x - y) : ℝ) : EReal) := by
  rw [← EReal.coe_sub, Ideal.exp_coe]

/-- The sum of the exponentials of real entries against a real maximum. -/
private theorem sum_exp_coe (g : Fin 1000 → EReal) (f : Fin 1000 → ℝ) (hg : ∀ k, g k = ((f k : ℝ) : EReal)) (M : ℝ) :
    ∑ k : Fin 1000, Ideal.exp (g k - (M : EReal)) = ((∑ k : Fin 1000, Real.exp (f k - M) : ℝ) : EReal) := by
  rw [coe_sum]
  exact Finset.sum_congr rfl fun k _ => by rw [hg k, exp_coe_sub]

/-! ### The tile's logits and the three steps -/

variable (lab : Fin 1024 → BitVec 32)

/-- The tile's logits from its cosines and margins. -/
theorem tileLogits_apply (i : grid0.Coords) (x2 : Vec Ideal S1000x512 .f32) (lbl : Vec Ideal S1024x1 .i32)
    (en : Vec Ideal S1024x512 .bf16) (cs mg : Fin 1024 → Fin 1000 → ℝ)
    (hcs : ∀ b j, k0_pay8 (F := Ideal) x2 en (ix2 b j) = ((cs b j : ℝ) : EReal))
    (hmg : ∀ b j, k0_pay9 (F := Ideal) x2 en (ix2 b j) = ((mg b j : ℝ) : EReal))
    (hlbl : ∀ b : Fin 1024, lbl (ix2 b (0 : Fin 1)) = lab b) (b : Fin 1024) (j : Fin 1000) :
    tileLogits (F := Ideal) i x2 lbl en (ix2 b j)
      = ((kK.scale * (if lab b = BitVec.ofNat 32 (off i + j.val) then mg b j else cs b j) : ℝ) : EReal) := by
  unfold tileLogits
  rw [pay12_apply, hcs, hmg, hlbl, ofBits_scale]
  by_cases h : lab b = BitVec.ofNat 32 (off i + j.val)
  · rw [if_pos h, if_pos h]
    exact (EReal.coe_mul _ _).symm
  · rw [if_neg h, if_neg h]
    exact (EReal.coe_mul _ _).symm

variable (i : grid0.Coords) (x2 : Vec Ideal S1000x512 .f32) (lbl : Vec Ideal S1024x1 .i32) (en : Vec Ideal S1024x512 .bf16)
  (lg : Fin 1024 → Fin 1000 → ℝ)

/-- The stepped maximum from the negative infinity. -/
theorem stepM_first (hlg : ∀ b j, tileLogits (F := Ideal) i x2 lbl en (ix2 b j) = ((lg b j : ℝ) : EReal))
    (mOld : Vec Ideal S1024x1 .f32) (b : Fin 1024) (hm : mOld (ix2 b (0 : Fin 1)) = (⊥ : EReal)) :
    stepM (F := Ideal) i x2 lbl en mOld (ix2 b (0 : Fin 1)) = ((tileMax (lg b) : ℝ) : EReal) := by
  unfold stepM k0_pay16
  rw [shapeCast_self, pay13_apply i _ _ lbl mOld lg hlg b, hm]
  exact max_eq_right bot_le

/-- The stepped maximum from a real maximum. -/
theorem stepM_next (hlg : ∀ b j, tileLogits (F := Ideal) i x2 lbl en (ix2 b j) = ((lg b j : ℝ) : EReal))
    (mOld : Vec Ideal S1024x1 .f32) (b : Fin 1024) (r : ℝ) (hm : mOld (ix2 b (0 : Fin 1)) = ((r : ℝ) : EReal)) :
    stepM (F := Ideal) i x2 lbl en mOld (ix2 b (0 : Fin 1)) = ((max r (tileMax (lg b)) : ℝ) : EReal) := by
  unfold stepM k0_pay16
  rw [shapeCast_self, pay13_apply i _ _ lbl mOld lg hlg b, hm]
  exact (coe_max r _).symm

/-- The stepped sum from the negative infinity and zero. -/
theorem stepL_first (hlg : ∀ b j, tileLogits (F := Ideal) i x2 lbl en (ix2 b j) = ((lg b j : ℝ) : EReal))
    (mOld lOld : Vec Ideal S1024x1 .f32) (b : Fin 1024) (hm : mOld (ix2 b (0 : Fin 1)) = (⊥ : EReal))
    (hl : lOld (ix2 b (0 : Fin 1)) = ((0 : ℝ) : EReal)) :
    stepL (F := Ideal) i x2 lbl en mOld lOld (ix2 b (0 : Fin 1))
      = ((∑ k : Fin 1000, Real.exp (lg b k - tileMax (lg b)) : ℝ) : EReal) := by
  have hM : max (⊥ : EReal) ((tileMax (lg b) : ℝ) : EReal) = ((tileMax (lg b) : ℝ) : EReal) := max_eq_right bot_le
  unfold stepL
  rw [pay14_apply, pay13_apply i _ _ lbl mOld lg hlg b, hm, hl, hM, EReal.bot_sub, Ideal.exp_bot, zero_mul, zero_add]
  exact sum_exp_coe _ (lg b) (hlg b) _

/-- The stepped sum from a real maximum and sum. -/
theorem stepL_next (hlg : ∀ b j, tileLogits (F := Ideal) i x2 lbl en (ix2 b j) = ((lg b j : ℝ) : EReal))
    (mOld lOld : Vec Ideal S1024x1 .f32) (b : Fin 1024) (r s : ℝ) (hm : mOld (ix2 b (0 : Fin 1)) = ((r : ℝ) : EReal))
    (hl : lOld (ix2 b (0 : Fin 1)) = ((s : ℝ) : EReal)) :
    stepL (F := Ideal) i x2 lbl en mOld lOld (ix2 b (0 : Fin 1))
      = ((s * Real.exp (r - max r (tileMax (lg b))) + ∑ k : Fin 1000, Real.exp (lg b k - max r (tileMax (lg b))) : ℝ) : EReal) := by
  have hlg' : ∀ b j, k0_pay12 (F := Ideal) (k0_pay8 x2 en) (k0_pay9 x2 en) colIota (k0_pay10 i) lbl (ix2 b j)
      = ((lg b j : ℝ) : EReal) := hlg
  unfold stepL
  rw [pay14_apply, pay13_apply i _ _ lbl mOld lg hlg b, hm, hl, ← coe_max, exp_coe_sub,
    sum_exp_coe _ (lg b) (hlg' b), ← EReal.coe_mul, ← EReal.coe_add, mul_comm (Real.exp _) s]

/-- The stepped label logit. -/
theorem stepT_apply (hlg : ∀ b j, tileLogits (F := Ideal) i x2 lbl en (ix2 b j) = ((lg b j : ℝ) : EReal))
    (hlbl : ∀ b : Fin 1024, lbl (ix2 b (0 : Fin 1)) = lab b)
    (tOld : Vec Ideal S1024x1 .f32) (b : Fin 1024) (t0 : ℝ) (ht : tOld (ix2 b (0 : Fin 1)) = ((t0 : ℝ) : EReal)) :
    stepT (F := Ideal) i x2 lbl en tOld (ix2 b (0 : Fin 1))
      = ((t0 + ∑ k : Fin 1000, (if lab b = BitVec.ofNat 32 (off i + k.val) then lg b k else 0) : ℝ) : EReal) := by
  unfold stepT
  rw [pay15_apply, ht, hlbl, EReal.coe_add, coe_sum]
  refine congrArg (_ + ·) (Finset.sum_congr rfl fun k _ => ?_)
  by_cases h : lab b = BitVec.ofNat 32 (off i + k.val)
  · rw [if_pos h, if_pos h]
    exact hlg b k
  · rw [if_neg h, if_neg h]
    exact ofBits_zero

end Cert.ArcLoss.KTileStep

end
-- ==== Proof.KInv.lean ====
/-
  What the carried scratch holds after every grid point, and what the outputs' blocks hold at the last tile of a half.

  Point `n` of the 50 is tile `n % 25` of half `n / 25`. After it the maximum, sum and label-logit columns hold, at row
  `b`, the running maximum, sum and label logit of that half of the row after `n % 25 + 1` tiles, and the scaled
  embeddings hold the rows scaled by their floored lengths: by induction on the point, a first tile stepping from the
  reset values and every other tile from what the tile before left.
-/
import proofs.«414580_j28183575396662_1_alg».proof.Proof.Gen.KernelIdeal.Frame
import proofs.«414580_j28183575396662_1_alg».proof.Proof.KPieces
import proofs.«414580_j28183575396662_1_alg».proof.Proof.KTileCos
import proofs.«414580_j28183575396662_1_alg».proof.Proof.KTileStep

set_option maxRecDepth 16384

noncomputable section

namespace Cert.ArcLoss.KInv

open Idealize.ShloMosaic Idealize.ShloMosaic.ValueIdx Idealize.ShloMosaic.TcCoe
open Cert.KernelIdeal Cert.KernelIdeal.Gen Cert.ArcLoss Cert.ArcLoss.KStep

variable (m : (ℓ : Loc nD τ sig) → Buf (Elt Ideal) ℓ)
variable (e : Fin 1024 → Fin 512 → ℝ) (w : Fin 50000 → Fin 512 → ℝ) (lab : Fin 1024 → BitVec 32)

/-- The arrays the region finds hold the real embeddings, the real class rows and the labels. -/
structure Inputs (c : Dev nD) : Prop where
  emb : ∀ (b : Fin 1024) (d : Fin 512), V m c main_arg0 (ix2 b d) = ((e b d : ℝ) : EReal)
  cls : ∀ (r : Fin 50000) (d : Fin 512), V m c main_arg2 (ix2 r d) = ((w r d : ℝ) : EReal)
  lbl : ∀ b : Fin 1024, V m c main_v0 (ix2 b (0 : Fin 1)) = lab b

/-! ## The blocks the body finds at a point -/

/-- The embedding block, the label block and the block of class rows at point `t`. -/
abbrev eblk (c : Dev nD) (t : Fin cfg0.N) : Vec Ideal S1024x512 .f32 := iblk m c 0 t
abbrev lblk (c : Dev nD) (t : Fin cfg0.N) : Vec Ideal S1024x1 .i32 := iblk m c 1 t
abbrev wblk (c : Dev nD) (t : Fin cfg0.N) : Vec Ideal S1000x512 .f32 := iblk m c 2 t

/-- Point `t` is tile `t % 25` of half `t / 25`. -/
theorem coords_eq : ∀ t : Fin cfg0.N, (grid0.coords t 0).val = t.val / 25 ∧ (grid0.coords t 1).val = t.val % 25 :=
  (by decide +kernel : ∀ t : Fin grid0.N, (grid0.coords t 0).val = t.val / 25 ∧ (grid0.coords t 1).val = t.val % 25)

/-- The embeddings' and the labels' windows never move; the class rows' window is at block `t` of 50. -/
theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The embedding block is the whole array of embeddings. -/
theorem eblk_apply (c : Dev nD) (t : Fin cfg0.N) (b : Fin 1024) (d : Fin 512) :
    eblk m c t (ix2 b d) = V m c main_arg0 (ix2 b d) := by
  show iblk m c 0 t (ix2 b d) = _
  unfold iblk
  rw [View.read_apply]
  show V m c main_arg0 _ = V m c main_arg0 _
  congr 1
  funext a
  apply Fin.ext
  match a with
  | ⟨0, _⟩ => show win0_0.index t 0 * 1024 + 1 * b.val = b.val; rw [(index0 t).1]; omega
  | ⟨1, _⟩ => show win0_0.index t 1 * 512 + 1 * d.val = d.val; rw [(index0 t).2]; omega

/-- The label block is the whole column of labels. -/
theorem lblk_apply (c : Dev nD) (t : Fin cfg0.N) (b : Fin 1024) :
    lblk m c t (ix2 b (0 : Fin 1)) = V m c main_v0 (ix2 b (0 : Fin 1)) := by
  show iblk m c 1 t (ix2 b (0 : Fin 1)) = _
  unfold iblk
  rw [View.read_apply]
  show V m c main_v0 _ = V m c main_v0 _
  congr 1
  funext a
  apply Fin.ext
  match a with
  | ⟨0, _⟩ => show win0_1.index t 0 * 1024 + 1 * b.val = b.val; rw [(index1 t).1]; omega
  | ⟨1, _⟩ => show win0_1.index t 1 * 1 + 1 * 0 = 0; rw [(index1 t).2]

/-- The block of class rows at point `t` is rows `1000 t, …, 1000 t + 999` of the class rows. -/
theorem wblk_apply (c : Dev nD) (t : Fin cfg0.N) (j : Fin 1000) (d : Fin 512) (h : 1000 * t.val + j.val < 50000) :
    wblk m c t (ix2 j d) = V m c main_arg2 (ix2 ⟨1000 * t.val + j.val, h⟩ d) := by
  show iblk m c 2 t (ix2 j d) = _
  unfold iblk
  rw [View.read_apply]
  show V m c main_arg2 _ = V m c main_arg2 _
  congr 1
  funext a
  apply Fin.ext
  match a with
  | ⟨0, _⟩ => show win0_2.index t 0 * 1000 + 1 * j.val = 1000 * t.val + j.val; rw [(index2 t).1]; omega
  | ⟨1, _⟩ => show win0_2.index t 1 * 512 + 1 * d.val = d.val; rw [(index2 t).2]; omega

/-! ## The inputs at a point -/

theorem off_eq (t : Fin cfg0.N) : KTile.off (grid0.coords t) = 1000 * t.val := by
  unfold KTile.off; rw [(coords_eq t).1, (coords_eq t).2]; omega

theorem off_eq' (t : Fin cfg0.N) (p j : ℕ) (hp : t.val / 25 = p) (hj : t.val % 25 = j) :
    KTileStep.off (grid0.coords t) = 25000 * p + 1000 * j := by
  unfold KTileStep.off; rw [(coords_eq t).1, (coords_eq t).2, hp, hj]

section
variable {m e w lab}
variable {c : Dev nD} (hin : Inputs m e w lab c)
include hin

theorem eblk_real (t : Fin cfg0.N) (b : Fin 1024) (d : Fin 512) : eblk m c t (ix2 b d) = ((e b d : ℝ) : EReal) :=
  (eblk_apply m c t b d).trans (hin.emb b d)

theorem lblk_lab (t : Fin cfg0.N) (b : Fin 1024) : lblk m c t (ix2 b (0 : Fin 1)) = lab b :=
  (lblk_apply m c t b).trans (hin.lbl b)

theorem wblk_real (t : Fin cfg0.N) (j : Fin 1000) (d : Fin 512) :
    wblk m c t (ix2 j d) = ((w ⟨KTile.off (grid0.coords t) + j.val, KTile.off_lt (grid0.coords t) j⟩ d : ℝ) : EReal) := by
  have h : 1000 * t.val + j.val < 50000 := by have := KTile.off_lt (grid0.coords t) j; rw [off_eq t] at this; exact this
  refine (wblk_apply m c t j d h).trans ((hin.cls _ d).trans ?_)
  congr 2
  exact Fin.ext (by show 1000 * t.val + j.val = KTile.off (grid0.coords t) + j.val; rw [off_eq t])

/-- The tile's logits at point `t`, tile `j` of half `p`, are that tile of the row's logits. -/
theorem tile_logits (t : Fin cfg0.N) (p j : ℕ) (hp : t.val / 25 = p) (hj : t.val % 25 = j)
    (en : Vec Ideal S1024x512 .bf16) (hen : ∀ (b : Fin 1024) (d : Fin 512), en (ix2 b d) = ((nrm kK e b d : ℝ) : EReal))
    (b : Fin 1024) (k : Fin 1000) :
    tileLogits (F := Ideal) (grid0.coords t) (wblk m c t) (lblk m c t) en (ix2 b k)
      = ((tileF e w lab p b j k : ℝ) : EReal) := by
  refine (KTileStep.tileLogits_apply lab (grid0.coords t) (wblk m c t) (lblk m c t) en
    (fun b k => cosR kK e w b ⟨KTile.off (grid0.coords t) + k.val, KTile.off_lt (grid0.coords t) k⟩)
    (fun b k => margR kK (cosR kK e w b ⟨KTile.off (grid0.coords t) + k.val, KTile.off_lt (grid0.coords t) k⟩))
    (fun b k => KTile.pay8_apply e w (grid0.coords t) (wblk m c t) en (wblk_real hin t) hen b k)
    (fun b k => KTile.pay9_apply e w (grid0.coords t) (wblk m c t) en (wblk_real hin t) hen b k)
    (lblk_lab hin t) b k).trans ?_
  have h50 : t.val < 50 := lt_of_lt_of_eq t.isLt (show cfg0.N = 50 from N_0)
  have hlt : 25000 * p + 1000 * j + k.val < 50000 := by have := k.isLt; omega
  have hc : (⟨KTile.off (grid0.coords t) + k.val, KTile.off_lt (grid0.coords t) k⟩ : Fin 50000)
      = ⟨25000 * p + 1000 * j + k.val, hlt⟩ := Fin.ext (by show KTile.off (grid0.coords t) + k.val = 25000 * p + 1000 * j + k.val; rw [off_eq t]; omega)
  congr 1
  unfold tileF lgN
  rw [dif_pos hlt]
  unfold lgR
  dsimp only
  rw [hc, off_eq' t p j hp hj]
end

/-! ## One tile's step at a point -/

/-- The reset values: the negative infinity for the maximum, zero for the sum and the label logit. -/
theorem pay4_apply (b : Fin 1024) : k0_pay4 (F := Ideal) (ix2 b (0 : Fin 1)) = (⊥ : EReal) := by
  unfold k0_pay4
  refine (congrFun (shapeCast_self _ _) _).trans ?_
  exact ofBits_neg_inf
theorem pay5_apply (b : Fin 1024) : k0_pay5 (F := Ideal) (ix2 b (0 : Fin 1)) = ((0 : ℝ) : EReal) := by
  unfold k0_pay5
  refine (congrFun (shapeCast_self _ _) _).trans ?_
  exact ofBits_zero
theorem pay6_apply (b : Fin 1024) : k0_pay6 (F := Ideal) (ix2 b (0 : Fin 1)) = ((0 : ℝ) : EReal) := by
  unfold k0_pay6
  refine (congrFun (shapeCast_self _ _) _).trans ?_
  exact ofBits_zero

section
variable {m e w lab}
variable {c : Dev nD} (hin : Inputs m e w lab c)
include hin

/-- The first tile of half `p`, stepped from the reset values, leaves the half's running values after one tile. -/
theorem step_first (t : Fin cfg0.N) (p : ℕ) (hp : t.val / 25 = p) (h0 : t.val % 25 = 0)
    (en : Vec Ideal S1024x512 .bf16) (hen : ∀ (b : Fin 1024) (d : Fin 512), en (ix2 b d) = ((nrm kK e b d : ℝ) : EReal))
    (mOld lOld tOld : Vec Ideal S1024x1 .f32) (b : Fin 1024)
    (hm : mOld (ix2 b (0 : Fin 1)) = (⊥ : EReal)) (hl : lOld (ix2 b (0 : Fin 1)) = ((0 : ℝ) : EReal))
    (ht : tOld (ix2 b (0 : Fin 1)) = ((0 : ℝ) : EReal)) :
    stepM (F := Ideal) (grid0.coords t) (wblk m c t) (lblk m c t) en mOld (ix2 b (0 : Fin 1)) = ((runM e w lab p b 1 : ℝ) : EReal)
    ∧ stepL (F := Ideal) (grid0.coords t) (wblk m c t) (lblk m c t) en mOld lOld (ix2 b (0 : Fin 1)) = ((runS e w lab p b 1 : ℝ) : EReal)
    ∧ stepT (F := Ideal) (grid0.coords t) (wblk m c t) (lblk m c t) en tOld (ix2 b (0 : Fin 1)) = ((runT e w lab p b 1 : ℝ) : EReal) := by
  have hlg := tile_logits hin t p 0 hp h0 en hen
  refine ⟨?_, ?_, ?_⟩
  · rw [runM_one]
    exact KTileStep.stepM_first (grid0.coords t) (wblk m c t) (lblk m c t) en (fun b => tileF e w lab p b 0) hlg mOld b hm
  · rw [runS_one]
    exact KTileStep.stepL_first (grid0.coords t) (wblk m c t) (lblk m c t) en (fun b => tileF e w lab p b 0) hlg mOld lOld b hm hl
  · rw [runT_one]
    refine (KTileStep.stepT_apply lab (grid0.coords t) (wblk m c t) (lblk m c t) en (fun b => tileF e w lab p b 0) hlg (lblk_lab hin t) tOld b 0 ht).trans ?_
    rw [off_eq' t p 0 hp h0, zero_add]

/-- Tile `j` of half `p`, stepped from the half's running values after `j` tiles, leaves those after `j + 1`. -/
theorem step_next (t : Fin cfg0.N) (p j : ℕ) (hp : t.val / 25 = p) (hj : t.val % 25 = j)
    (en : Vec Ideal S1024x512 .bf16) (hen : ∀ (b : Fin 1024) (d : Fin 512), en (ix2 b d) = ((nrm kK e b d : ℝ) : EReal))
    (mOld lOld tOld : Vec Ideal S1024x1 .f32) (b : Fin 1024)
    (hm : mOld (ix2 b (0 : Fin 1)) = ((runM e w lab p b j : ℝ) : EReal))
    (hl : lOld (ix2 b (0 : Fin 1)) = ((runS e w lab p b j : ℝ) : EReal))
    (ht : tOld (ix2 b (0 : Fin 1)) = ((runT e w lab p b j : ℝ) : EReal)) :
    stepM (F := Ideal) (grid0.coords t) (wblk m c t) (lblk m c t) en mOld (ix2 b (0 : Fin 1)) = ((runM e w lab p b (j + 1) : ℝ) : EReal)
    ∧ stepL (F := Ideal) (grid0.coords t) (wblk m c t) (lblk m c t) en mOld lOld (ix2 b (0 : Fin 1)) = ((runS e w lab p b (j + 1) : ℝ) : EReal)
    ∧ stepT (F := Ideal) (grid0.coords t) (wblk m c t) (lblk m c t) en tOld (ix2 b (0 : Fin 1)) = ((runT e w lab p b (j + 1) : ℝ) : EReal) := by
  have hlg := tile_logits hin t p j hp hj en hen
  refine ⟨?_, ?_, ?_⟩
  · rw [runM_succ]
    exact KTileStep.stepM_next (grid0.coords t) (wblk m c t) (lblk m c t) en (fun b => tileF e w lab p b j) hlg mOld b _ hm
  · rw [runS_succ, runM_succ]
    exact KTileStep.stepL_next (grid0.coords t) (wblk m c t) (lblk m c t) en (fun b => tileF e w lab p b j) hlg mOld lOld b _ _ hm hl
  · rw [runT_succ]
    refine (KTileStep.stepT_apply lab (grid0.coords t) (wblk m c t) (lblk m c t) en (fun b => tileF e w lab p b j) hlg (lblk_lab hin t) tOld b _ ht).trans ?_
    rw [off_eq' t p j hp hj]
end

/-! ## What each kind of point leaves, as the tile's step maps of the blocks and of what the point before left -/

/-- What the point before `t` left. -/
abbrev prev (c : Dev nD) (t : Fin cfg0.N) :=
  outsAt0 m c (t.val - 1) (Nat.lt_of_le_of_lt (Nat.sub_le _ _) t.isLt)

/-- A first tile: the scratch is reset, the scaled embeddings formed, and the tile stepped. -/
theorem at_first (c : Dev nD) (t : Fin cfg0.N) (h0 : t.val % 25 = 0) (h1 : ¬t.val % 25 = 24) :
    (outsAt0 m c t.val t.isLt).2.2.2.1 = stepM (F := Ideal) (grid0.coords t) (wblk m c t) (lblk m c t) (k0_pay7 (F := Ideal) (eblk m c t)) (k0_pay4 (F := Ideal))
    ∧ (outsAt0 m c t.val t.isLt).2.2.2.2.1 = stepL (F := Ideal) (grid0.coords t) (wblk m c t) (lblk m c t) (k0_pay7 (F := Ideal) (eblk m c t)) (k0_pay4 (F := Ideal)) (k0_pay5 (F := Ideal))
    ∧ (outsAt0 m c t.val t.isLt).2.2.2.2.2.1 = stepT (F := Ideal) (grid0.coords t) (wblk m c t) (lblk m c t) (k0_pay7 (F := Ideal) (eblk m c t)) (k0_pay6 (F := Ideal))
    ∧ (outsAt0 m c t.val t.isLt).2.2.2.2.2.2 = k0_pay7 (F := Ideal) (eblk m c t) := by
  rw [outsAt0_A m c t h0 h1]
  dsimp only
  exact ⟨KPieces.sA_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (eblk m c t) (lblk m c t) (wblk m c t),
    KPieces.sA_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (eblk m c t) (lblk m c t) (wblk m c t),
    KPieces.sA_t (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (eblk m c t) (lblk m c t) (wblk m c t),
    KPieces.sA_e (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (eblk m c t) (lblk m c t) (wblk m c t)⟩

/-- A middle tile: the tile is stepped from what the point before left; the scaled embeddings stay. -/
theorem at_middle (c : Dev nD) (t : Fin cfg0.N) (h0 : ¬t.val % 25 = 0) (h1 : ¬t.val % 25 = 24) :
    (outsAt0 m c t.val t.isLt).2.2.2.1 = stepM (F := Ideal) (grid0.coords t) (wblk m c t) (lblk m c t) (prev m c t).2.2.2.2.2.2 (prev m c t).2.2.2.1
    ∧ (outsAt0 m c t.val t.isLt).2.2.2.2.1 = stepL (F := Ideal) (grid0.coords t) (wblk m c t) (lblk m c t) (prev m c t).2.2.2.2.2.2 (prev m c t).2.2.2.1 (prev m c t).2.2.2.2.1
    ∧ (outsAt0 m c t.val t.isLt).2.2.2.2.2.1 = stepT (F := Ideal) (grid0.coords t) (wblk m c t) (lblk m c t) (prev m c t).2.2.2.2.2.2 (prev m c t).2.2.2.2.2.1
    ∧ (outsAt0 m c t.val t.isLt).2.2.2.2.2.2 = (prev m c t).2.2.2.2.2.2 := by
  rw [outsAt0_B m c t h0 h1]
  dsimp only
  exact ⟨KPieces.sB_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (eblk m c t) (lblk m c t) (wblk m c t) (prev m c t).2.2.2.1 (prev m c t).2.2.2.2.1 (prev m c t).2.2.2.2.2.1 (prev m c t).2.2.2.2.2.2,
    KPieces.sB_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (eblk m c t) (lblk m c t) (wblk m c t) (prev m c t).2.2.2.1 (prev m c t).2.2.2.2.1 (prev m c t).2.2.2.2.2.1 (prev m c t).2.2.2.2.2.2,
    KPieces.sB_t (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (eblk m c t) (lblk m c t) (wblk m c t) (prev m c t).2.2.2.1 (prev m c t).2.2.2.2.1 (prev m c t).2.2.2.2.2.1 (prev m c t).2.2.2.2.2.2,
    rfl⟩

/-- A last tile: stepped as a middle tile, and the three stepped columns are also the outputs' blocks, with a unit
    axis in front. -/
theorem at_last (c : Dev nD) (t : Fin cfg0.N) (h0 : ¬t.val % 25 = 0) (h1 : t.val % 25 = 24) :
    ((outsAt0 m c t.val t.isLt).2.2.2.1 = stepM (F := Ideal) (grid0.coords t) (wblk m c t) (lblk m c t) (prev m c t).2.2.2.2.2.2 (prev m c t).2.2.2.1
    ∧ (outsAt0 m c t.val t.isLt).2.2.2.2.1 = stepL (F := Ideal) (grid0.coords t) (wblk m c t) (lblk m c t) (prev m c t).2.2.2.2.2.2 (prev m c t).2.2.2.1 (prev m c t).2.2.2.2.1
    ∧ (outsAt0 m c t.val t.isLt).2.2.2.2.2.1 = stepT (F := Ideal) (grid0.coords t) (wblk m c t) (lblk m c t) (prev m c t).2.2.2.2.2.2 (prev m c t).2.2.2.2.2.1
    ∧ (outsAt0 m c t.val t.isLt).2.2.2.2.2.2 = (prev m c t).2.2.2.2.2.2)
    ∧ (outsAt0 m c t.val t.isLt).1 = k0_pay1 (F := Ideal) (stepM (F := Ideal) (grid0.coords t) (wblk m c t) (lblk m c t) (prev m c t).2.2.2.2.2.2 (prev m c t).2.2.2.1)
    ∧ (outsAt0 m c t.val t.isLt).2.1 = k0_pay2 (F := Ideal) (stepL (F := Ideal) (grid0.coords t) (wblk m c t) (lblk m c t) (prev m c t).2.2.2.2.2.2 (prev m c t).2.2.2.1 (prev m c t).2.2.2.2.1)
    ∧ (outsAt0 m c t.val t.isLt).2.2.1 = k0_pay3 (F := Ideal) (stepT (F := Ideal) (grid0.coords t) (wblk m c t) (lblk m c t) (prev m c t).2.2.2.2.2.2 (prev m c t).2.2.2.2.2.1) := by
  rw [outsAt0_C m c t h0 h1]
  dsimp only
  exact ⟨⟨KPieces.sC_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (eblk m c t) (lblk m c t) (wblk m c t) (prev m c t).2.2.2.1 (prev m c t).2.2.2.2.1 (prev m c t).2.2.2.2.2.1 (prev m c t).2.2.2.2.2.2,
    KPieces.sC_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (eblk m c t) (lblk m c t) (wblk m c t) (prev m c t).2.2.2.1 (prev m c t).2.2.2.2.1 (prev m c t).2.2.2.2.2.1 (prev m c t).2.2.2.2.2.2,
    KPieces.sC_t (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (eblk m c t) (lblk m c t) (wblk m c t) (prev m c t).2.2.2.1 (prev m c t).2.2.2.2.1 (prev m c t).2.2.2.2.2.1 (prev m c t).2.2.2.2.2.2,
    rfl⟩,
    KPieces.oC_m (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (eblk m c t) (lblk m c t) (wblk m c t) (prev m c t).2.2.2.1 (prev m c t).2.2.2.2.1 (prev m c t).2.2.2.2.2.1 (prev m c t).2.2.2.2.2.2,
    KPieces.oC_l (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (eblk m c t) (lblk m c t) (wblk m c t) (prev m c t).2.2.2.1 (prev m c t).2.2.2.2.1 (prev m c t).2.2.2.2.2.1 (prev m c t).2.2.2.2.2.2,
    KPieces.oC_t (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (eblk m c t) (lblk m c t) (wblk m c t) (prev m c t).2.2.2.1 (prev m c t).2.2.2.2.1 (prev m c t).2.2.2.2.2.1 (prev m c t).2.2.2.2.2.2⟩

/-! ## The invariant -/

/-- What the invariant says of the carried scratch at row `b`, for half `p` after `j` tiles. -/
def Inv (p j : ℕ)
    (o : Vec Ideal S1x1024x1 .f32 × Vec Ideal S1x1024x1 .f32 × Vec Ideal S1x1024x1 .f32 × Vec Ideal S1024x1 .f32
      × Vec Ideal S1024x1 .f32 × Vec Ideal S1024x1 .f32 × Vec Ideal S1024x512 .bf16) (b : Fin 1024) : Prop :=
  o.2.2.2.1 (ix2 b (0 : Fin 1)) = ((runM e w lab p b j : ℝ) : EReal)
  ∧ o.2.2.2.2.1 (ix2 b (0 : Fin 1)) = ((runS e w lab p b j : ℝ) : EReal)
  ∧ o.2.2.2.2.2.1 (ix2 b (0 : Fin 1)) = ((runT e w lab p b j : ℝ) : EReal)
  ∧ ∀ d : Fin 512, o.2.2.2.2.2.2 (ix2 b d) = ((nrm kK e b d : ℝ) : EReal)

section
variable {m e w lab}
variable {c : Dev nD} (hin : Inputs m e w lab c)
include hin

/-- After a first tile. -/
theorem inv_first (t : Fin cfg0.N) (h0 : t.val % 25 = 0) (b : Fin 1024) :
    Inv e w lab (t.val / 25) (t.val % 25 + 1) (outsAt0 m c t.val t.isLt) b := by
  have h1 : ¬t.val % 25 = 24 := by omega
  have hj : t.val % 25 + 1 = 1 := by omega
  obtain ⟨e1, e2, e3, e4⟩ := at_first m c t h0 h1
  have hen : ∀ (b : Fin 1024) (d : Fin 512), k0_pay7 (F := Ideal) (eblk m c t) (ix2 b d) = ((nrm kK e b d : ℝ) : EReal) :=
    fun b d => KTile.pay7_apply e (eblk m c t) (eblk_real hin t) b d
  obtain ⟨s1, s2, s3⟩ := step_first hin t (t.val / 25) rfl h0 (k0_pay7 (F := Ideal) (eblk m c t)) hen
    (k0_pay4 (F := Ideal)) (k0_pay5 (F := Ideal)) (k0_pay6 (F := Ideal)) b (pay4_apply b) (pay5_apply b) (pay6_apply b)
  rw [hj]
  exact ⟨(congrFun e1 _).trans s1, (congrFun e2 _).trans s2, (congrFun e3 _).trans s3,
    fun d => (congrFun e4 _).trans (hen b d)⟩

/-- After any other tile, from the invariant after the tile before. -/
theorem inv_next (t : Fin cfg0.N) (h0 : ¬t.val % 25 = 0)
    (ih : ∀ b : Fin 1024, Inv e w lab ((t.val - 1) / 25) ((t.val - 1) % 25 + 1) (prev m c t) b) (b : Fin 1024) :
    Inv e w lab (t.val / 25) (t.val % 25 + 1) (outsAt0 m c t.val t.isLt) b := by
  have hp : (t.val - 1) / 25 = t.val / 25 := by omega
  have hj : (t.val - 1) % 25 + 1 = t.val % 25 := by omega
  rw [hp, hj] at ih
  have hen : ∀ (b : Fin 1024) (d : Fin 512), (prev m c t).2.2.2.2.2.2 (ix2 b d) = ((nrm kK e b d : ℝ) : EReal) :=
    fun b d => (ih b).2.2.2 d
  obtain ⟨s1, s2, s3⟩ := step_next hin t (t.val / 25) (t.val % 25) rfl rfl (prev m c t).2.2.2.2.2.2 hen
    (prev m c t).2.2.2.1 (prev m c t).2.2.2.2.1 (prev m c t).2.2.2.2.2.1 b (ih b).1 (ih b).2.1 (ih b).2.2.1
  by_cases h1 : t.val % 25 = 24
  · obtain ⟨⟨e1, e2, e3, e4⟩, _⟩ := at_last m c t h0 h1
    exact ⟨(congrFun e1 _).trans s1, (congrFun e2 _).trans s2, (congrFun e3 _).trans s3,
      fun d => (congrFun e4 _).trans (hen b d)⟩
  · obtain ⟨e1, e2, e3, e4⟩ := at_middle m c t h0 h1
    exact ⟨(congrFun e1 _).trans s1, (congrFun e2 _).trans s2, (congrFun e3 _).trans s3,
      fun d => (congrFun e4 _).trans (hen b d)⟩

/-- The invariant after every point, at every row: by induction on the point. -/
theorem inv_all : ∀ (n : ℕ) (hn : n < cfg0.N) (b : Fin 1024), Inv e w lab (n / 25) (n % 25 + 1) (outsAt0 m c n hn) b := by
  intro n
  induction n with
  | zero => intro hn b; exact inv_first hin ⟨0, hn⟩ (Nat.zero_mod 25) b
  | succ n ih =>
    intro hn b
    by_cases h0 : (n + 1) % 25 = 0
    · exact inv_first hin ⟨n + 1, hn⟩ h0 b
    · exact inv_next hin ⟨n + 1, hn⟩ h0 (fun b => ih (Nat.lt_of_succ_lt hn) b) b
end

/-- The outputs' shape casts put a unit axis in front. -/
theorem pay1_apply (v : Vec Ideal S1024x1 .f32) (b : Fin 1024) :
    k0_pay1 (F := Ideal) v (ix3 (0 : Fin 1) b (0 : Fin 1)) = v (ix2 b (0 : Fin 1)) := by
  unfold k0_pay1
  exact shapeCast_ab_1ab_apply _ _ 0 b 0
theorem pay2_apply (v : Vec Ideal S1024x1 .f32) (b : Fin 1024) :
    k0_pay2 (F := Ideal) v (ix3 (0 : Fin 1) b (0 : Fin 1)) = v (ix2 b (0 : Fin 1)) := by
  unfold k0_pay2
  exact shapeCast_ab_1ab_apply _ _ 0 b 0
theorem pay3_apply (v : Vec Ideal S1024x1 .f32) (b : Fin 1024) :
    k0_pay3 (F := Ideal) v (ix3 (0 : Fin 1) b (0 : Fin 1)) = v (ix2 b (0 : Fin 1)) := by
  unfold k0_pay3
  exact shapeCast_ab_1ab_apply _ _ 0 b 0

/-- THE INVARIANT: the carried scratch after point `n`. -/
theorem scratch_after (c : Dev nD) (hin : Inputs m e w lab c) (n : ℕ) (hn : n < cfg0.N) (b : Fin 1024) :
    (outsAt0 m c n hn).2.2.2.1 (ix2 b (0 : Fin 1)) = ((runM e w lab (n / 25) b (n % 25 + 1) : ℝ) : EReal)
    ∧ (outsAt0 m c n hn).2.2.2.2.1 (ix2 b (0 : Fin 1)) = ((runS e w lab (n / 25) b (n % 25 + 1) : ℝ) : EReal)
    ∧ (outsAt0 m c n hn).2.2.2.2.2.1 (ix2 b (0 : Fin 1)) = ((runT e w lab (n / 25) b (n % 25 + 1) : ℝ) : EReal)
    ∧ ∀ d : Fin 512, (outsAt0 m c n hn).2.2.2.2.2.2 (ix2 b d) = ((nrm kK e b d : ℝ) : EReal) :=
  inv_all hin n hn b

/-- The outputs' blocks at the last tile of a half. -/
theorem outputs_last (c : Dev nD) (hin : Inputs m e w lab c) (n : ℕ) (hn : n < cfg0.N) (h24 : n % 25 = 24) (b : Fin 1024) :
    (outsAt0 m c n hn).1 (ix3 (0 : Fin 1) b (0 : Fin 1)) = ((runM e w lab (n / 25) b 25 : ℝ) : EReal)
    ∧ (outsAt0 m c n hn).2.1 (ix3 (0 : Fin 1) b (0 : Fin 1)) = ((runS e w lab (n / 25) b 25 : ℝ) : EReal)
    ∧ (outsAt0 m c n hn).2.2.1 (ix3 (0 : Fin 1) b (0 : Fin 1)) = ((runT e w lab (n / 25) b 25 : ℝ) : EReal) := by
  have h0 : ¬n % 25 = 0 := by omega
  have hj : n % 25 + 1 = 25 := by omega
  obtain ⟨⟨e1, e2, e3, _⟩, o1, o2, o3⟩ := at_last m c ⟨n, hn⟩ h0 h24
  obtain ⟨s1, s2, s3, _⟩ := inv_all hin n hn b
  rw [hj] at s1 s2 s3
  exact ⟨(congrFun o1 _).trans ((pay1_apply _ b).trans ((congrFun e1 _).symm.trans s1)),
    (congrFun o2 _).trans ((pay2_apply _ b).trans ((congrFun e2 _).symm.trans s2)),
    (congrFun o3 _).trans ((pay3_apply _ b).trans ((congrFun e3 _).symm.trans s3))⟩

end Cert.ArcLoss.KInv

end
-- ==== Proof.KTail.lean ====
/-
  The kernel's result: the three output arrays after the run, and the mean loss the host lines after the region compute
  from them.

  Each output array of shape [2, 1024, 1] is written once per half, at the half's last tile, with that half's running
  maximum, sum and label logit; so at (p, b, 0) it holds the value of half `p` of row `b` after all 25 tiles. The host
  lines take the larger of the two maxima, rescale and add the two sums, add the two label logits, and average the
  rows' losses: by the law that joins the halves this is the mean loss.
-/
import proofs.«414580_j28183575396662_1_alg».proof.Proof.KInv
import Idealize.ShloMosaic.Lib.StableHlo.Run

set_option maxRecDepth 16384

noncomputable section

namespace Cert.ArcLoss.KTail

open Idealize.ShloMosaic Idealize.ShloMosaic.ValueIdx Idealize.ShloMosaic.TcCoe Idealize.SL.Sem
open Cert.KernelIdeal Cert.KernelIdeal.Gen Cert.ArcLoss

variable (m : (ℓ : Loc nD τ sig) → Buf (Elt Ideal) ℓ)
variable (e : Fin 1024 → Fin 512 → ℝ) (w : Fin 50000 → Fin 512 → ℝ) (lab : Fin 1024 → BitVec 32)

/-- The memory's argument arrays hold the real embeddings, the real class rows and the labels. -/
structure Args (c : Dev nD) : Prop where
  emb : ∀ (b : Fin 1024) (d : Fin 512), m ((c.tc : Thread nD τ).loc main_arg0) (ix2 b d) = ((e b d : ℝ) : EReal)
  cls : ∀ (r : Fin 50000) (d : Fin 512), m ((c.tc : Thread nD τ).loc main_arg2) (ix2 r d) = ((w r d : ℝ) : EReal)
  lbl : ∀ b : Fin 1024, m ((c.tc : Thread nD τ).loc main_arg1) (ix1 b) = lab b

/-- The region finds the arrays the memory's arguments give. -/
theorem inputs_of_args (c : Dev nD) (h : Args m e w lab c) : KInv.Inputs m e w lab c := by
  refine ⟨fun b d => ?_, fun r d => ?_, fun b => ?_⟩
  · rw [V_main_arg0]; exact h.emb b d
  · rw [V_main_arg2]; exact h.cls r d
  · have e : (V m c main_v0 : S1024x1.Idx → BitVec 32)
        = shapeCast S1024x1 (m ((c.tc : Thread nD τ).loc main_arg1)) Gen.shapeCasts_S1024_S1024x1 := by
      show StableHlo.after hostOps0 (fun b => m (c, b)) (Proc.devRef .tc main_v0) = _
      after_results; rfl
    rw [e]
    refine (shapeCast_apply (s := S1024) (t := S1024x1) _ _ (ix2 b (0 : Fin 1)) (ix1 b) ?_).trans (h.lbl b)
    rw [Shape.rowMajor_val_one, Shape.rowMajor_val_two]
    show b.val = b.val * 1 + 0
    omega

/-- Where the blocks of the array of maxima sit: point `t`'s block is row `t / 25` of the leading axis, whole on the
    other two. -/
private theorem idx3 : ∀ t : Fin cfg0.N, win0_3.index t (0 : Fin 3) = t.val / 25
    ∧ win0_3.index t (1 : Fin 3) = 0 ∧ win0_3.index t (2 : Fin 3) = 0 :=
  (by decide +kernel : ∀ t : Fin grid0.N, _)

/-- A block of maxima whose column holds `g` of the point's half is that half's block of the array of `g`. -/
private theorem blk3 (t : Fin cfg0.N) (X : S1x1024x1.Idx → EReal) (g : ℕ → Fin 1024 → ℝ)
    (hX : ∀ b : Fin 1024, X (ix3 (0 : Fin 1) b (0 : Fin 1)) = ((g (t.val / 25) b : ℝ) : EReal)) :
    (cfg0.win 3).cut (grid0.coords t) X
      = ((cfg0.win 3).blk t).view.read (Elt Ideal) (fun i : S2x1024x1.Idx => ((g (i 0).val (i 1) : ℝ) : EReal)) := by
  obtain ⟨e0, e1, e2⟩ := idx3 t
  have hN : t.val < 50 := lt_of_lt_of_eq t.isLt (show cfg0.N = 50 from N_0)
  have key : ∀ j : S1x1024x1.Idx, (cfg0.win 3).cut (grid0.coords t) X j
      = ((cfg0.win 3).blk t).view.read (Elt Ideal) (fun i : S2x1024x1.Idx => ((g (i 0).val (i 1) : ℝ) : EReal)) j := by
    intro j
    obtain ⟨a, b, d, rfl⟩ : ∃ (a : Fin 1) (b : Fin 1024) (d : Fin 1), j = ix3 a b d := ⟨j 0, j 1, j 2, eq_ix3 j⟩
    obtain rfl : a = 0 := Subsingleton.elim _ _
    obtain rfl : d = 0 := Subsingleton.elim _ _
    have hl : (cfg0.win 3).xinj (grid0.coords t) (ix3 (0 : Fin 1) b (0 : Fin 1)) = ix3 (0 : Fin 1) b (0 : Fin 1) :=
      funext fun a => by match a with | ⟨0, _⟩ => rfl | ⟨1, _⟩ => rfl | ⟨2, _⟩ => rfl
    have hr : ((cfg0.win 3).blk t).view.emb (ix3 (0 : Fin 1) b (0 : Fin 1))
        = ix3 (⟨t.val / 25, by omega⟩ : Fin 2) b (0 : Fin 1) := by
      funext a; apply Fin.ext
      match a with
      | ⟨0, _⟩ => show win0_3.index t (0 : Fin 3) * 1 + 1 * 0 = t.val / 25; omega
      | ⟨1, _⟩ => show win0_3.index t (1 : Fin 3) * 1024 + 1 * b.val = b.val; omega
      | ⟨2, _⟩ => show win0_3.index t (2 : Fin 3) * 1 + 1 * 0 = 0; omega
    show X ((cfg0.win 3).xinj (grid0.coords t) (ix3 (0 : Fin 1) b (0 : Fin 1))) = _
    rw [hl, View.read_apply, hr, cast_eq]
    exact hX b
  exact funext key

/-- Every index of the array of maxima lies in the block written back at the last tile of its half, point `25 p + 24`. -/
private theorem cover3 (i : S2x1024x1.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 1 := (i 2).isLt
  obtain ⟨t, ht⟩ : ∃ t : Fin cfg0.N, t.val = 25 * (i 0).val + 24 :=
    ⟨⟨25 * (i 0).val + 24, lt_of_lt_of_eq (by omega : 25 * (i 0).val + 24 < 50) (show cfg0.N = 50 from N_0).symm⟩, rfl⟩
  obtain ⟨e0, e1, e2⟩ := idx3 t
  refine ⟨t, (flush0_3 t).mpr (by omega), ?_⟩
  show i ∈ ((View.whole main_v1_0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 1 ≤ (i 2).val ∧ (i 2).val < win0_3.index t (2 : Fin 3) * 1 + 1
    omega

/-- Where the blocks of the array of sums sit: point `t`'s block is row `t / 25` of the leading axis, whole on the
    other two. -/
private theorem idx4 : ∀ t : Fin cfg0.N, win0_4.index t (0 : Fin 3) = t.val / 25
    ∧ win0_4.index t (1 : Fin 3) = 0 ∧ win0_4.index t (2 : Fin 3) = 0 :=
  (by decide +kernel : ∀ t : Fin grid0.N, _)

/-- A block of sums whose column holds `g` of the point's half is that half's block of the array of `g`. -/
private theorem blk4 (t : Fin cfg0.N) (X : S1x1024x1.Idx → EReal) (g : ℕ → Fin 1024 → ℝ)
    (hX : ∀ b : Fin 1024, X (ix3 (0 : Fin 1) b (0 : Fin 1)) = ((g (t.val / 25) b : ℝ) : EReal)) :
    (cfg0.win 4).cut (grid0.coords t) X
      = ((cfg0.win 4).blk t).view.read (Elt Ideal) (fun i : S2x1024x1.Idx => ((g (i 0).val (i 1) : ℝ) : EReal)) := by
  obtain ⟨e0, e1, e2⟩ := idx4 t
  have hN : t.val < 50 := lt_of_lt_of_eq t.isLt (show cfg0.N = 50 from N_0)
  have key : ∀ j : S1x1024x1.Idx, (cfg0.win 4).cut (grid0.coords t) X j
      = ((cfg0.win 4).blk t).view.read (Elt Ideal) (fun i : S2x1024x1.Idx => ((g (i 0).val (i 1) : ℝ) : EReal)) j := by
    intro j
    obtain ⟨a, b, d, rfl⟩ : ∃ (a : Fin 1) (b : Fin 1024) (d : Fin 1), j = ix3 a b d := ⟨j 0, j 1, j 2, eq_ix3 j⟩
    obtain rfl : a = 0 := Subsingleton.elim _ _
    obtain rfl : d = 0 := Subsingleton.elim _ _
    have hl : (cfg0.win 4).xinj (grid0.coords t) (ix3 (0 : Fin 1) b (0 : Fin 1)) = ix3 (0 : Fin 1) b (0 : Fin 1) :=
      funext fun a => by match a with | ⟨0, _⟩ => rfl | ⟨1, _⟩ => rfl | ⟨2, _⟩ => rfl
    have hr : ((cfg0.win 4).blk t).view.emb (ix3 (0 : Fin 1) b (0 : Fin 1))
        = ix3 (⟨t.val / 25, by omega⟩ : Fin 2) b (0 : Fin 1) := by
      funext a; apply Fin.ext
      match a with
      | ⟨0, _⟩ => show win0_4.index t (0 : Fin 3) * 1 + 1 * 0 = t.val / 25; omega
      | ⟨1, _⟩ => show win0_4.index t (1 : Fin 3) * 1024 + 1 * b.val = b.val; omega
      | ⟨2, _⟩ => show win0_4.index t (2 : Fin 3) * 1 + 1 * 0 = 0; omega
    show X ((cfg0.win 4).xinj (grid0.coords t) (ix3 (0 : Fin 1) b (0 : Fin 1))) = _
    rw [hl, View.read_apply, hr, cast_eq]
    exact hX b
  exact funext key

/-- Every index of the array of sums lies in the block written back at the last tile of its half, point `25 p + 24`. -/
private theorem cover4 (i : S2x1024x1.Idx) :
    ∃ t : Fin cfg0.N, (cfg0.win 4).flush t = true ∧ i ∈ ((cfg0.win 4).blk t).view.set := by
  have hi0 : (i 0).val < 2 := (i 0).isLt
  have hi1 : (i 1).val < 1024 := (i 1).isLt
  have hi2 : (i 2).val < 1 := (i 2).isLt
  obtain ⟨t, ht⟩ : ∃ t : Fin cfg0.N, t.val = 25 * (i 0).val + 24 :=
    ⟨⟨25 * (i 0).val + 24, lt_of_lt_of_eq (by omega : 25 * (i 0).val + 24 < 50) (show cfg0.N = 50 from N_0).symm⟩, rfl⟩
  obtain ⟨e0, e1, e2⟩ := idx4 t
  refine ⟨t, (flush0_4 t).mpr (by omega), ?_⟩
  show i ∈ ((View.whole main_v1_1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 1 ≤ (i 2).val ∧ (i 2).val < win0_4.index t (2 : Fin 3) * 1 + 1
    omega

/-- Where the blocks of the array of label logits sit: point `t`'s block is row `t / 25` of the leading axis, whole on the
    other two. -/
private theorem idx5 : ∀ t : Fin cfg0.N, win0_5.index t (0 : Fin 3) = t.val / 25
    ∧ win0_5.index t (1 : Fin 3) = 0 ∧ win0_5.index t (2 : Fin 3) = 0 :=
  (by decide +kernel : ∀ t : Fin grid0.N, _)

/-- A block of label logits whose column holds `g` of the point's half is that half's block of the array of `g`. -/
private theorem blk5 (t : Fin cfg0.N) (X : S1x1024x1.Idx → EReal) (g : ℕ → Fin 1024 → ℝ)
    (hX : ∀ b : Fin 1024, X (ix3 (0 : Fin 1) b (0 : Fin 1)) = ((g (t.val / 25) b : ℝ) : EReal)) :
    (cfg0.win 5).cut (grid0.coords t) X
      = ((cfg0.win 5).blk t).view.read (Elt Ideal) (fun i : S2x1024x1.Idx => ((g (i 0).val (i 1) : ℝ) : EReal)) := by
  obtain ⟨e0, e1, e2⟩ := idx5 t
  have hN : t.val < 50 := lt_of_lt_of_eq t.isLt (show cfg0.N = 50 from N_0)
  have key : ∀ j : S1x1024x1.Idx, (cfg0.win 5).cut (grid0.coords t) X j
      = ((cfg0.win 5).blk t).view.read (Elt Ideal) (fun i : S2x1024x1.Idx => ((g (i 0).val (i 1) : ℝ) : EReal)) j := by
    intro j
    obtain ⟨a, b, d, rfl⟩ : ∃ (a : Fin 1) (b : Fin 1024) (d : Fin 1), j = ix3 a b d := ⟨j 0, j 1, j 2, eq_ix3 j⟩
    obtain rfl : a = 0 := Subsingleton.elim _ _
    obtain rfl : d = 0 := Subsingleton.elim _ _
    have hl : (cfg0.win 5).xinj (grid0.coords t) (ix3 (0 : Fin 1) b (0 : Fin 1)) = ix3 (0 : Fin 1) b (0 : Fin 1) :=
      funext fun a => by match a with | ⟨0, _⟩ => rfl | ⟨1, _⟩ => rfl | ⟨2, _⟩ => rfl
    have hr : ((cfg0.win 5).blk t).view.emb (ix3 (0 : Fin 1) b (0 : Fin 1))
        = ix3 (⟨t.val / 25, by omega⟩ : Fin 2) b (0 : Fin 1) := by
      funext a; apply Fin.ext
      match a with
      | ⟨0, _⟩ => show win0_5.index t (0 : Fin 3) * 1 + 1 * 0 = t.val / 25; omega
      | ⟨1, _⟩ => show win0_5.index t (1 : Fin 3) * 1024 + 1 * b.val = b.val; omega
      | ⟨2, _⟩ => show win0_5.index t (2 : Fin 3) * 1 + 1 * 0 = 0; omega
    show X ((cfg0.win 5).xinj (grid0.coords t) (ix3 (0 : Fin 1) b (0 : Fin 1))) = _
    rw [hl, View.read_apply, hr, cast_eq]
    exact hX b
  exact funext key

/-- Every index of the array of label logits lies in the block written back at the last tile of its half, point `25 p + 24`. -/
private theorem cover5 (i : S2x1024x1.Idx) :
    ∃ t : Fin cfg0.N, (cfg0.win 5).flush t = true ∧ i ∈ ((cfg0.win 5).blk t).view.set := by
  have hi0 : (i 0).val < 2 := (i 0).isLt
  have hi1 : (i 1).val < 1024 := (i 1).isLt
  have hi2 : (i 2).val < 1 := (i 2).isLt
  obtain ⟨t, ht⟩ : ∃ t : Fin cfg0.N, t.val = 25 * (i 0).val + 24 :=
    ⟨⟨25 * (i 0).val + 24, lt_of_lt_of_eq (by omega : 25 * (i 0).val + 24 < 50) (show cfg0.N = 50 from N_0).symm⟩, rfl⟩
  obtain ⟨e0, e1, e2⟩ := idx5 t
  refine ⟨t, (flush0_5 t).mpr (by omega), ?_⟩
  show i ∈ ((View.whole main_v1_2).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 1 ≤ (i 2).val ∧ (i 2).val < win0_5.index t (2 : Fin 3) * 1 + 1
    omega

/-- The output arrays after the run. -/
theorem out_m (c : Dev nD) (h : Args m e w lab c) (p : Fin 2) (b : Fin 1024) :
    (dats m 0 c).arrAt 3 cfg0.N (ix3 p b (0 : Fin 1)) = ((runM e w lab p.val b 25 : ℝ) : EReal) := by
  have hin := inputs_of_args m e w lab c h
  have key := (dats m 0 c).arrAt_eq_of_cover 3
    (fun i : S2x1024x1.Idx => ((runM e w lab (i 0).val (i 1) 25 : ℝ) : EReal)) ?hG cover3
  · exact congrFun key (ix3 p b (0 : Fin 1))
  case hG =>
    intro t hf
    have h24 : t.val % 25 = 24 := (flush0_3 t).mp hf
    show (cfg0.win 3).cut (grid0.coords t) ((dats m 0 c).after 3 t) = _
    rw [after0_3]
    exact blk3 t _ (fun q b => runM e w lab q b 25)
      (fun b => (KInv.outputs_last m e w lab c hin t.val t.isLt h24 b).1)
theorem out_l (c : Dev nD) (h : Args m e w lab c) (p : Fin 2) (b : Fin 1024) :
    (dats m 0 c).arrAt 4 cfg0.N (ix3 p b (0 : Fin 1)) = ((runS e w lab p.val b 25 : ℝ) : EReal) := by
  have hin := inputs_of_args m e w lab c h
  have key := (dats m 0 c).arrAt_eq_of_cover 4
    (fun i : S2x1024x1.Idx => ((runS e w lab (i 0).val (i 1) 25 : ℝ) : EReal)) ?hG cover4
  · exact congrFun key (ix3 p b (0 : Fin 1))
  case hG =>
    intro t hf
    have h24 : t.val % 25 = 24 := (flush0_4 t).mp hf
    show (cfg0.win 4).cut (grid0.coords t) ((dats m 0 c).after 4 t) = _
    rw [after0_4]
    exact blk4 t _ (fun q b => runS e w lab q b 25)
      (fun b => (KInv.outputs_last m e w lab c hin t.val t.isLt h24 b).2.1)
theorem out_t (c : Dev nD) (h : Args m e w lab c) (p : Fin 2) (b : Fin 1024) :
    (dats m 0 c).arrAt 5 cfg0.N (ix3 p b (0 : Fin 1)) = ((runT e w lab p.val b 25 : ℝ) : EReal) := by
  have hin := inputs_of_args m e w lab c h
  have key := (dats m 0 c).arrAt_eq_of_cover 5
    (fun i : S2x1024x1.Idx => ((runT e w lab (i 0).val (i 1) 25 : ℝ) : EReal)) ?hG cover5
  · exact congrFun key (ix3 p b (0 : Fin 1))
  case hG =>
    intro t hf
    have h24 : t.val % 25 = 24 := (flush0_5 t).mp hf
    show (cfg0.win 5).cut (grid0.coords t) ((dats m 0 c).after 5 t) = _
    rw [after0_5]
    exact blk5 t _ (fun q b => runT e w lab q b 25)
      (fun b => (KInv.outputs_last m e w lab c hin t.val t.isLt h24 b).2.2)

/-- The column a host slice and reshape cut out of half `0` of an output array. -/
private theorem col0 (A : S2x1024x1.Idx → EReal) (b : Fin 1024) :
    shapeCast S1024x1 (extractStridedSlice S1x1024x1 ![0, 0, 0] A Gen.slices_S2x1024x1_S1x1024x1_0_0_0)
        Gen.shapeCasts_S1x1024x1_S1024x1 (ix2 b (0 : Fin 1))
      = A (ix3 (0 : Fin 2) b (0 : Fin 1)) := by
  refine (shapeCast_apply _ _ (ix2 b (0 : Fin 1)) (ix3 (0 : Fin 1) b (0 : Fin 1)) ?_).trans ?_
  · rw [Shape.rowMajor_val_three, Shape.rowMajor_val_two]
    show (0 * 1024 + b.val) * 1 + 0 = b.val * 1 + 0
    omega
  · refine extractStridedSlice_apply _ _ _ _ (ix3 (0 : Fin 2) b (0 : Fin 1)) fun a => ?_
    match a with
    | ⟨0, _⟩ => rfl
    | ⟨1, _⟩ => show b.val = 0 + b.val; omega
    | ⟨2, _⟩ => rfl

/-- The column a host slice and reshape cut out of half `1` of an output array. -/
private theorem col1 (A : S2x1024x1.Idx → EReal) (b : Fin 1024) :
    shapeCast S1024x1 (extractStridedSlice S1x1024x1 ![1, 0, 0] A Gen.slices_S2x1024x1_S1x1024x1_1_0_0)
        Gen.shapeCasts_S1x1024x1_S1024x1 (ix2 b (0 : Fin 1))
      = A (ix3 (1 : Fin 2) b (0 : Fin 1)) := by
  refine (shapeCast_apply _ _ (ix2 b (0 : Fin 1)) (ix3 (0 : Fin 1) b (0 : Fin 1)) ?_).trans ?_
  · rw [Shape.rowMajor_val_three, Shape.rowMajor_val_two]
    show (0 * 1024 + b.val) * 1 + 0 = b.val * 1 + 0
    omega
  · refine extractStridedSlice_apply _ _ _ _ (ix3 (1 : Fin 2) b (0 : Fin 1)) fun a => ?_
    match a with
    | ⟨0, _⟩ => rfl
    | ⟨1, _⟩ => show b.val = 0 + b.val; omega
    | ⟨2, _⟩ => rfl

/-- One row of the host lines: from the two halves' maxima, sums and label logits — real numbers, the sums positive —
    they compute the label logit minus the larger maximum plus the logarithm of the rescaled sums, negated. -/
private theorem row_val (m0 m1 l0 l1 t0 t1 : FVec Ideal S1024x1 .f32) (i : S1024x1.Idx) (M0 M1 L0 L1 T0 T1 : ℝ)
    (hm0 : m0 i = ((M0 : ℝ) : EReal)) (hm1 : m1 i = ((M1 : ℝ) : EReal))
    (hl0 : l0 i = ((L0 : ℝ) : EReal)) (hl1 : l1 i = ((L1 : ℝ) : EReal))
    (ht0 : t0 i = ((T0 : ℝ) : EReal)) (ht1 : t1 i = ((T1 : ℝ) : EReal)) (hL0 : 0 < L0) (hL1 : 0 < L1) :
    Host.negf (F := Ideal) (subf (addf t0 t1) (addf (maximumf m0 m1)
        (Host.log (F := Ideal) (addf (mulf (Host.exp (F := Ideal) (subf m0 (maximumf m0 m1))) l0)
          (mulf (Host.exp (F := Ideal) (subf m1 (maximumf m0 m1))) l1))))) i
      = ((-((T0 + T1) - (max M0 M1 + Real.log (Real.exp (M0 - max M0 M1) * L0 + Real.exp (M1 - max M0 M1) * L1))) : ℝ) : EReal) := by
  show -((t0 i + t1 i) - (max (m0 i) (m1 i)
      + Ideal.log (Ideal.exp (m0 i - max (m0 i) (m1 i)) * l0 i + Ideal.exp (m1 i - max (m0 i) (m1 i)) * l1 i))) = _
  have hpos : 0 < Real.exp (M0 - max M0 M1) * L0 + Real.exp (M1 - max M0 M1) * L1 :=
    add_pos (mul_pos (Real.exp_pos _) hL0) (mul_pos (Real.exp_pos _) hL1)
  have hmax : max (M0 : EReal) (M1 : EReal) = ((max M0 M1 : ℝ) : EReal) :=
    (EReal.coe_strictMono.monotone.map_max).symm
  rw [hm0, hm1, hl0, hl1, ht0, ht1, hmax, ← EReal.coe_sub, ← EReal.coe_sub, Ideal.exp_coe, Ideal.exp_coe,
    ← EReal.coe_mul, ← EReal.coe_mul, ← EReal.coe_add, ← EReal.coe_add, Cert.LibOnline.ideal_log_coe_pos hpos,
    ← EReal.coe_add, ← EReal.coe_sub, ← EReal.coe_neg]

set_option maxHeartbeats 1000000 in
/-- THE KERNEL'S RESULT: the host lines after the region leave the mean loss. -/
theorem result (c : Dev nD) (h : Args m e w lab c) :
    Pipeline.afterTail₀ cfgs (dats m) 0 (V0 m) [hostOps1] c main_v28
      = fun _ => ((lossR kK e w lab : ℝ) : EReal) := by
  unfold Pipeline.afterTail₀
  show StableHlo.after hostOps1 _ (Proc.devRef .tc main_v28) = _
  after_results_simp
  have hM := out_m m e w lab c h
  have hL := out_l m e w lab c h
  have hT := out_t m e w lab c h
  rw [show Pipeline.withArrays (cfgs 0).spec c (V0 m c) (fun w => (dats m 0 c).arrAt w (cfgs 0).N) (Proc.devRef .tc main_v1_0)
        = (dats m 0 c).arrAt 3 cfg0.N from Pipeline.withArrays_arr spec0 launch0.win.arr_inj c _ _ 3,
      show Pipeline.withArrays (cfgs 0).spec c (V0 m c) (fun w => (dats m 0 c).arrAt w (cfgs 0).N) (Proc.devRef .tc main_v1_1)
        = (dats m 0 c).arrAt 4 cfg0.N from Pipeline.withArrays_arr spec0 launch0.win.arr_inj c _ _ 4,
      show Pipeline.withArrays (cfgs 0).spec c (V0 m c) (fun w => (dats m 0 c).arrAt w (cfgs 0).N) (Proc.devRef .tc main_v1_2)
        = (dats m 0 c).arrAt 5 cfg0.N from Pipeline.withArrays_arr spec0 launch0.win.arr_inj c _ _ 5]
  generalize (dats m 0 c).arrAt 3 cfg0.N = M at hM ⊢
  generalize (dats m 0 c).arrAt 4 cfg0.N = L at hL ⊢
  generalize (dats m 0 c).arrAt 5 cfg0.N = T at hT ⊢
  funext x
  simp only [Host.divf, Host.reduceAdd, Ideal.hostDivf_def, Ideal.hostReduceAdd_def]
  rw [Ideal.hostReduceAdd_total _ (fun b => b.elim0)]
  have hsum : ∀ (F G : S1024x1.Idx → EReal), (∀ i, F i = G i) → ∀ a b : EReal,
      Ideal.div (a + ∑ i, F i) b = Ideal.div (a + ∑ i, G i) b :=
    fun F G hFG a b => by rw [Finset.sum_congr rfl fun i _ => hFG i]
  refine (hsum _ (fun i => ((nllR kK e w lab (i 0) : ℝ) : EReal)) (fun i => ?_) _ _).trans ?_
  · obtain ⟨b, d, rfl⟩ : ∃ (b : Fin 1024) (d : Fin 1), i = ix2 b d := ⟨i 0, i 1, eq_ix2 i⟩
    obtain rfl : d = 0 := Subsingleton.elim _ _
    refine (row_val _ _ _ _ _ _ (ix2 b (0 : Fin 1)) (runM e w lab 0 b 25) (runM e w lab 1 b 25)
      (runS e w lab 0 b 25) (runS e w lab 1 b 25) (runT e w lab 0 b 25) (runT e w lab 1 b 25)
      ((col0 M b).trans (hM 0 b)) ((col1 M b).trans (hM 1 b)) ((col0 L b).trans (hL 0 b)) ((col1 L b).trans (hL 1 b))
      ((col0 T b).trans (hT 0 b)) ((col1 T b).trans (hT 1 b))
      (runS_pos e w lab 0 b (by norm_num)) (runS_pos e w lab 1 b (by norm_num))).trans ?_
    rw [halves_tgt, halves_lse]
    rfl
  · have hs : ∑ i : S1024x1.Idx, ((nllR kK e w lab (i 0) : ℝ) : EReal)
        = ((∑ b : Fin 1024, nllR kK e w lab b : ℝ) : EReal) := by
      rw [sum_idx2, Cert.LibOnline.coe_sum]
      exact Finset.sum_congr rfl fun b _ => Fin.sum_univ_one _
    rw [hs, constant_apply, constant_apply, ofBits_zero, ofBits_1024, Ideal.div_coe (by norm_num : (1024 : ℝ) ≠ 0),
      ← EReal.coe_add, ← EReal.coe_mul]
    refine congrArg _ ?_
    unfold lossR
    push_cast
    ring

end Cert.ArcLoss.KTail

end
-- ==== Proof.RefLogits.lean ====
/-
  The reference's logits at an index, on the extended reals.

  With real embeddings and class rows the reference's scaled rows, cosines, margins and one-hot arithmetic give, at
  (b, c), the scale times the margin of the cosine where the label of `b` is `c` and times the cosine elsewhere: the
  one-hot factor is one or zero, so the sum of the two products is the selected entry; and keeping `x^2` inside [0, 1]
  before subtracting it from one is keeping `1 - x^2` inside [0, 1].
-/
import proofs.«414580_j28183575396662_1_alg».proof.Proof.RefRead
import proofs.«414580_j28183575396662_1_alg».proof.Proof.Iface
import Idealize.ShloMosaic.Lib.ValueIdx
import Idealize.ShloMosaic.Lib.Pipeline.Value
import Idealize.ShloMosaic.PureOps.Ideal.Laws

noncomputable section

namespace Cert.ArcLoss.RefLogits

open Idealize.ShloMosaic Idealize.ShloMosaic.ValueIdx
open Cert.ReferenceIdeal Cert.ReferenceIdeal.Read Cert.ArcLoss

variable (e : Fin 1024 → Fin 512 → ℝ) (w : Fin 50000 → Fin 512 → ℝ) (lab : Fin 1024 → BitVec 32)
variable (x0 : (⟨S1024x512, .f32⟩ : BufTy).Contents (Elt Ideal)) (x1 : (⟨S1024, .i32⟩ : BufTy).Contents (Elt Ideal)) (x2 : (⟨S50000x512, .f32⟩ : BufTy).Contents (Elt Ideal))

/-- The reference's argument arrays hold the real embeddings, the real class rows and the labels. -/
structure Args : Prop where
  emb : ∀ (b : Fin 1024) (d : Fin 512), x0 (ix2 b d) = ((e b d : ℝ) : EReal)
  cls : ∀ (r : Fin 50000) (d : Fin 512), x2 (ix2 r d) = ((w r d : ℝ) : EReal)
  lbl : ∀ b : Fin 1024, x1 (ix1 b) = lab b

/-! ### The extended reals' operations on real operands -/

/-- The larger of two reals, on the extended reals. -/
private theorem coe_max (x y : ℝ) : max (x : EReal) (y : EReal) = ((max x y : ℝ) : EReal) :=
  (EReal.coe_strictMono.monotone.map_max).symm

/-- The smaller of two reals, on the extended reals. -/
private theorem coe_min (x y : ℝ) : min (x : EReal) (y : EReal) = ((min x y : ℝ) : EReal) :=
  (EReal.coe_strictMono.monotone.map_min).symm

/-- The square root of a nonnegative real, on the extended reals. -/
private theorem sqrt_coe_nonneg {r : ℝ} (h : 0 ≤ r) : Ideal.sqrt (r : EReal) = ((Real.sqrt r : ℝ) : EReal) := by
  rw [Ideal.sqrt_coe, if_neg (not_lt.mpr h)]

/-- A real divided by a nonzero real, on the extended reals. -/
private theorem div_coe_coe (x : ℝ) {y : ℝ} (h : y ≠ 0) : Ideal.div (x : EReal) (y : EReal) = ((x / y : ℝ) : EReal) := by
  rw [Ideal.div_coe h, ← EReal.coe_mul, mul_one_div]

/-- A row's sum of squares started from zero, on the extended reals. -/
private theorem sumsq_coe {D : ℕ} (x : Fin D → ℝ) :
    ((0 : ℝ) : EReal) + ∑ k : Fin D, (x k : EReal) * (x k : EReal) = ((∑ k : Fin D, x k * x k : ℝ) : EReal) := by
  rw [EReal.coe_zero, zero_add, LibOnline.coe_sum]
  exact Finset.sum_congr rfl fun k _ => (EReal.coe_mul _ _).symm

/-- An entry of a row divided by the row's floored length, on the extended reals. -/
private theorem scaled_coe {D : ℕ} (x : Fin D → ℝ) (t : ℝ) :
    Ideal.div (t : EReal)
        (max (Ideal.sqrt (((0 : ℝ) : EReal) + ∑ k : Fin D, (x k : EReal) * (x k : EReal))) ((kK.eps : ℝ) : EReal))
      = ((t / max (Real.sqrt (∑ k : Fin D, x k * x k)) kK.eps : ℝ) : EReal) := by
  have h0 : (0 : ℝ) ≤ ∑ k : Fin D, x k * x k := Finset.sum_nonneg fun k _ => mul_self_nonneg (x k)
  have hp : (0 : ℝ) < max (Real.sqrt (∑ k : Fin D, x k * x k)) kK.eps := lt_of_lt_of_le kK.eps_pos (le_max_right _ _)
  rw [sumsq_coe, sqrt_coe_nonneg h0, coe_max, div_coe_coe _ (ne_of_gt hp)]

/-! ### The scaled rows and the cosine -/

/-- The reference's scaled embedding rows: each entry over its row's length floored at the small constant. -/
private theorem emb_scaled (h : Args e w lab x0 x1 x2) (b : Fin 1024) (d : Fin 512) :
    val_main_v7 (F := Ideal) x0 (ix2 b d) = ((nrm kK e b d : ℝ) : EReal) := by
  have i1 : ∀ k : Fin 512, idx_main_v1 (idx_main_v2 (idx_main_v6 (ix2 b d))) k = ix2 b k := fun k =>
    funext fun a => Fin.ext (by match a with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, i1, h.emb, Ideal.hostDivf_def, Ideal.maximumf_def, Ideal.hostUnary_sqrt_def,
    Ideal.mulf_def, Ideal.ofBits_def, ofBits_eps, ofBits_zero]
  exact scaled_coe (e b) (e b d)

/-- The reference's scaled class rows. -/
private theorem cls_scaled (h : Args e w lab x0 x1 x2) (c : Fin 50000) (d : Fin 512) :
    val_main_v15 (F := Ideal) x2 (ix2 c d) = ((nrm kK w c d : ℝ) : EReal) := by
  have i1 : ∀ k : Fin 512, idx_main_v9 (idx_main_v10 (idx_main_v14 (ix2 c d))) k = ix2 c k := fun k =>
    funext fun a => Fin.ext (by match a with | ⟨0, _⟩ => rfl | ⟨1, _⟩ => rfl)
  rw [val_main_v15_apply, val_main_v14_apply, val_main_v13_apply, val_main_v11_apply, val_main_v10_apply,
    val_main_v9_apply, val_main_v12_apply, val_main_cst_2_apply, val_main_cst_1_apply]
  simp only [val_main_v8_apply, i1, h.cls, Ideal.hostDivf_def, Ideal.maximumf_def, Ideal.hostUnary_sqrt_def,
    Ideal.mulf_def, Ideal.ofBits_def, ofBits_eps, ofBits_zero]
  exact scaled_coe (w c) (w c d)

/-- The reference's cosines. -/
theorem cos_apply (h : Args e w lab x0 x1 x2) (b : Fin 1024) (c : Fin 50000) :
    val_main_v16 (F := Ideal) x0 x2 (ix2 b c) = ((cosR kK e w b c : ℝ) : EReal) := by
  have il : ∀ k : Fin 512, lidx_main_v16 (ix2 b c) k = ix2 b k := fun k =>
    funext fun a => Fin.ext (by match a with | ⟨0, _⟩ => rfl | ⟨1, _⟩ => rfl)
  have ir : ∀ k : Fin 512, ridx_main_v16 (ix2 b c) k = ix2 c k := fun k =>
    funext fun a => Fin.ext (by match a with | ⟨0, _⟩ => rfl | ⟨1, _⟩ => rfl)
  rw [val_main_v16_apply]
  simp only [il, ir, emb_scaled e w lab x0 x1 x2 h, cls_scaled e w lab x0 x1 x2 h]
  unfold cosR
  rw [LibOnline.coe_sum]
  exact Finset.sum_congr rfl fun k _ => (EReal.coe_mul _ _).symm

/-! ### The margin map -/

/-- The margin map on the extended reals at a real cosine: the comparison with the threshold selects between the
    widened angle's cosine, with `x^2` kept inside [0, 1] before it is taken from one, and the lowered cosine. -/
private theorem marg_coe (x : ℝ) :
    Scalar.select (Ideal.cmp .ogt (x : EReal) ((kK.th : ℝ) : EReal))
        ((x : EReal) * ((kK.cosM : ℝ) : EReal)
          - Ideal.sqrt (((1 : ℝ) : EReal) - min ((1 : ℝ) : EReal) (max ((0 : ℝ) : EReal) ((x : EReal) * (x : EReal))))
            * ((kK.sinM : ℝ) : EReal))
        ((x : EReal) - ((kK.mm : ℝ) : EReal))
      = ((margR kK x : ℝ) : EReal) := by
  have hs : (0 : ℝ) ≤ 1 - min 1 (max 0 (x * x)) := sub_nonneg.mpr (min_le_left _ _)
  have e1 : ((1 : ℝ) : EReal) - min ((1 : ℝ) : EReal) (max ((0 : ℝ) : EReal) ((x : EReal) * (x : EReal)))
      = ((1 - min 1 (max 0 (x * x)) : ℝ) : EReal) := by
    rw [← EReal.coe_mul, coe_max, coe_min, ← EReal.coe_sub]
  rw [e1, sqrt_coe_nonneg hs]
  simp only [← EReal.coe_mul, ← EReal.coe_sub]
  unfold margR
  rw [clip_one_sub_sq]
  by_cases hx : kK.th < x
  · have hc : Ideal.cmp .ogt (x : EReal) ((kK.th : ℝ) : EReal) = 1#1 := by
      show BitVec.ofBool (decide (((kK.th : ℝ) : EReal) < (x : EReal))) = 1#1
      rw [decide_eq_true (EReal.coe_lt_coe_iff.mpr hx)]; rfl
    rw [hc, select_one, if_pos hx]
  · have hc : Ideal.cmp .ogt (x : EReal) ((kK.th : ℝ) : EReal) = 0#1 := by
      show BitVec.ofBool (decide (((kK.th : ℝ) : EReal) < (x : EReal))) = 0#1
      rw [decide_eq_false (fun hlt => hx (EReal.coe_lt_coe_iff.mp hlt))]; rfl
    rw [hc, select_zero, if_neg hx]

/-- The reference's margins. -/
theorem marg_apply (h : Args e w lab x0 x1 x2) (b : Fin 1024) (c : Fin 50000) :
    val_main_v31 (F := Ideal) x0 x2 (ix2 b c) = ((margR kK (cosR kK e w b c) : ℝ) : EReal) := by
  rw [val_main_v31_apply, val_main_v28_apply, val_main_v26_apply, val_main_v30_apply, val_main_v23_apply,
    val_main_v25_apply, val_main_v21_apply, val_main_v20_apply, val_main_v18_apply, val_main_call0_v2_apply,
    val_main_v17_apply, val_main_v19_apply, val_main_v22_apply, val_main_v24_apply, val_main_v27_apply,
    val_main_v29_apply, val_main_call0_v1_apply, val_main_call0_v4_apply, val_main_call0_v0_apply,
    val_main_call0_v3_apply, val_main_cst_3_apply, val_main_cst_4_apply, val_main_cst_5_apply,
    val_main_cst_6_apply, val_main_cst_7_apply, val_main_cst_8_apply, val_main_cst_9_apply]
  simp only [cos_apply e w lab x0 x1 x2 h, Ideal.cmpf_def, Ideal.subf_def, Ideal.mulf_def, Ideal.maximumf_def,
    Ideal.minimumf_def, Ideal.hostUnary_sqrt_def, Ideal.ofBits_def, ofBits_one, ofBits_zero, ofBits_cosM, ofBits_sinM,
    ofBits_th, ofBits_mm]
  exact marg_coe (cosR kK e w b c)

/-! ### The one-hot factor and the logits -/

/-- The one-hot factor on the extended reals: the one-bit equality of the label with the class's word, read as a
    natural number, is one where they agree and zero elsewhere. -/
private theorem onehot_coe (l : BitVec 32) (n : ℕ) :
    FloatOps.uitofp (F := Ideal) .f32 (IntOp.cmpi .eq l (BitVec.ofNat 32 n))
      = (((if l = BitVec.ofNat 32 n then 1 else 0 : ℝ)) : EReal) := by
  show ((((IntOp.cmpi .eq l (BitVec.ofNat 32 n)).toNat : ℕ) : ℝ) : EReal) = _
  by_cases hl : l = BitVec.ofNat 32 n
  · have hc : IntOp.cmpi .eq l (BitVec.ofNat 32 n) = 1#1 := by
      show BitVec.ofBool (l == BitVec.ofNat 32 n) = 1#1
      rw [beq_iff_eq.mpr hl]; rfl
    rw [hc, if_pos hl]; norm_num
  · have hc : IntOp.cmpi .eq l (BitVec.ofNat 32 n) = 0#1 := by
      show BitVec.ofBool (l == BitVec.ofNat 32 n) = 0#1
      rw [beq_eq_false_iff_ne.mpr hl]; rfl
    rw [hc, if_neg hl]; norm_num

/-- The one-hot blend on the extended reals: with a factor that is one or zero, the factor times the margin plus one
    minus the factor times the cosine is the margin where the factor is one and the cosine elsewhere. -/
private theorem blend_coe (p : Prop) [Decidable p] (s m c : ℝ) :
    (s : EReal) * ((((if p then 1 else 0 : ℝ)) : EReal) * (m : EReal)
        + (((1 : ℝ) : EReal) - (((if p then 1 else 0 : ℝ)) : EReal)) * (c : EReal))
      = ((s * (if p then m else c) : ℝ) : EReal) := by
  simp only [← EReal.coe_mul, ← EReal.coe_sub, ← EReal.coe_add]
  congr 1
  split_ifs <;> ring

/-- THE REFERENCE'S LOGITS. -/
theorem logits_apply (h : Args e w lab x0 x1 x2) (b : Fin 1024) (c : Fin 50000) :
    val_main_v39 (F := Ideal) x0 x1 x2 (ix2 b c) = ((lgR kK e w lab b c : ℝ) : EReal) := by
  have il : idx_main_call2_v0 (idx_main_call2_v2 (ix2 b c)) = ix1 b :=
    funext fun a => Fin.ext (by match a with | ⟨0, _⟩ => rfl)
  have ic : ((idx_main_call2_v3 (ix2 b c)) 1).val = c.val := rfl
  have oh : val_main_v32 (F := Ideal) x1 (ix2 b c)
      = (((if lab b = BitVec.ofNat 32 c.val then 1 else 0 : ℝ)) : EReal) := by
    rw [val_main_v32_apply, val_main_call2_v4_apply, val_main_call2_v2_apply, val_main_call2_v0_apply,
      val_main_call2_v3_apply, val_main_call2_v1_apply, il, ic, h.lbl]
    exact onehot_coe (lab b) c.val
  rw [val_main_v39_apply, val_main_v37_apply, val_main_v33_apply, val_main_v36_apply, val_main_v35_apply,
    val_main_v38_apply, val_main_v34_apply, val_main_cst_10_apply, val_main_cst_11_apply, oh,
    marg_apply e w lab x0 x1 x2 h, cos_apply e w lab x0 x1 x2 h]
  simp only [Ideal.mulf_def, Ideal.addf_def, Ideal.subf_def, Ideal.ofBits_def, ofBits_one, ofBits_scale]
  exact blend_coe _ kK.scale (margR kK (cosR kK e w b c)) (cosR kK e w b c)

end Cert.ArcLoss.RefLogits

end
-- ==== Proof.LibTakeAlongAxis.lean ====
/-
  jnp.take_along_axis(x, idx[:, None], axis=1) of a [B, C] table by one start index per row, read at a row, for any sizes.

  It prints as a `stablehlo.gather` whose start indices are the rows' positions as a [B, 1, 1] array, with row axis 0 a
  BATCHING axis of operand and indices alike, column axis 1 collapsed and start-indexed, no offset axes, the index vector
  on axis 2 and slice sizes [1, 1]; the result is the [B, 1] column. Row `b` of the result is the table's row `b` at that
  row's start index read SIGNED and CLAMPED into [0, C − 1] (StableHLO clamps every start index so that the slice fits).
-/
import Idealize.ShloMosaic.Lib.ValueIdx

noncomputable section

namespace Cert.LibTakeAlongAxis

open Idealize.ShloMosaic Idealize.ShloMosaic.ValueIdx

/-- The printed dimension numbers, for a table [B, C], start indices [B, 1, 1] and result [B, 1]; their conditions `wf`
    are decided on a program's literal shapes. -/
abbrev alongDims (B C : Nat) (wf : GatherDims.WF ⟨2, ![B, C]⟩ ⟨3, ![B, 1, 1]⟩ ⟨2, ![B, 1]⟩ [] [1] [0] [1] [0] 2 ![1, 1]) :
    GatherDims ⟨2, ![B, C]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW `b`: the table at row `b` and at the column the row's start index names, read signed and
    clamped into [0, C − 1]. On the batching axis the operand coordinate is the result's row; on the collapsed axis it is
    the clamped start. -/
theorem gather_along_apply {α : Type} {B C w : Nat} (hC : 0 < C)
    (wf : GatherDims.WF ⟨2, ![B, C]⟩ ⟨3, ![B, 1, 1]⟩ ⟨2, ![B, 1]⟩ [] [1] [0] [1] [0] 2 ![1, 1])
    (x : (⟨2, ![B, C]⟩ : Shape).Idx → α) (idx : IVec ⟨3, ![B, 1, 1]⟩ w) (b : Fin B) :
    Host.gather (alongDims B C wf) x idx (ix2 b (0 : Fin 1))
      = x (ix2 b ⟨min (idx (ix3 b (0 : Fin 1) (0 : Fin 1))).toInt.toNat (C - 1), by omega⟩) := by
  unfold Host.gather
  congr 1
  funext a
  refine Fin.ext ?_
  match a with
  | ⟨0, _⟩ =>
    show (alongDims B C wf).start (ix2 b (0 : Fin 1)) idx 0 + (alongDims B C wf).batchCoord (ix2 b (0 : Fin 1)) 0
        + (alongDims B C wf).offCoord (ix2 b (0 : Fin 1)) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show (alongDims B C wf).start (ix2 b (0 : Fin 1)) idx 1 + (alongDims B C wf).batchCoord (ix2 b (0 : Fin 1)) 1
        + (alongDims B C wf).offCoord (ix2 b (0 : Fin 1)) 1 = min (idx (ix3 b (0 : Fin 1) (0 : Fin 1))).toInt.toNat (C - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims B C wf).startIndexMap from List.mem_singleton.mpr rfl)]
    have hsi : (alongDims B C wf).siIdx (ix2 b (0 : Fin 1)) ⟨List.idxOf (1 : Fin 2) (alongDims B C wf).startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

end Cert.LibTakeAlongAxis

end
-- ==== Proof.RefLoss.lean ====
/-
  The reference's result: the mean over the rows of the logarithm of the sum of the exponentials of the logits minus
  the logit at the label.

  The log-softmax subtracts the row's maximum and then the logarithm of the sum of the exponentials taken against it,
  which is the logarithm of the sum of the exponentials; for a label in range the gather along the row reads the
  log-softmax at the label's column, and the mask that guards it is all ones.
-/
import proofs.«414580_j28183575396662_1_alg».proof.Proof.RefLogits
import proofs.«414580_j28183575396662_1_alg».proof.Proof.LibTakeAlongAxis
import Idealize.ShloMosaic.Lib.ReduceAll
import Idealize.ShloMosaic.Lib.ValueIdxRank1

noncomputable section

namespace Cert.ArcLoss.RefLoss

open Idealize.ShloMosaic Idealize.ShloMosaic.ValueIdx
open Cert.ReferenceIdeal Cert.ReferenceIdeal.Read Cert.ArcLoss

variable (e : Fin 1024 → Fin 512 → ℝ) (w : Fin 50000 → Fin 512 → ℝ) (lab : Fin 1024 → BitVec 32)
variable (x0 : (⟨S1024x512, .f32⟩ : BufTy).Contents (Elt Ideal)) (x1 : (⟨S1024, .i32⟩ : BufTy).Contents (Elt Ideal)) (x2 : (⟨S50000x512, .f32⟩ : BufTy).Contents (Elt Ideal))

open Cert.ReferenceIdeal.Gen Cert.LibOnline

local instance neZero50000 : NeZero 50000 := ⟨by norm_num⟩

/-- The maximum of row `b` of the logits. -/
private def rowMax (b : Fin 1024) : ℝ := tileMax fun c : Fin 50000 => lgR kK e w lab b c

/-- The sum over row `b` of the exponentials of the logits taken against the row's maximum. -/
private def rowSum (b : Fin 1024) : ℝ := ∑ c : Fin 50000, Real.exp (lgR kK e w lab b c - rowMax e w lab b)

private theorem rowSum_pos (b : Fin 1024) : 0 < rowSum e w lab b :=
  Finset.sum_pos (fun c _ => Real.exp_pos _) Finset.univ_nonempty

/-- The reduced index `b` with column `k` put back is (b, k). -/
private theorem lift_row (hr : S1024x50000.Reduces [1] S1024) (b : Fin 1024) (k : Fin (S1024x50000.size 1)) :
    hr.lift (ix1 b) k = ix2 b (⟨k.val, k.isLt⟩ : Fin 50000) := by
  funext c; apply Fin.ext
  match c with
  | ⟨0, _⟩ => rfl
  | ⟨1, _⟩ => rfl

/-- The row's maximum: the fold of the maximum from the negative infinity over the row. -/
private theorem rowmax_apply (h : RefLogits.Args e w lab x0 x1 x2) (b : Fin 1024) :
    val_main_call3_v0 (F := Ideal) x0 x1 x2 (ix1 b) = ((rowMax e w lab b : ℝ) : EReal) := by
  unfold val_main_call3_v0
  have hr : S1024x50000.Reduces [1] S1024 := by decide
  rw [Host.reduce_eq_fold_single FloatOps.maximumf _ _ reducesTo_S1024x50000_S1024_d1 hr h_S_]
  have hf : (val_main_v39 (F := Ideal) x0 x1 x2 ∘ hr.lift (ix1 b))
      = fun k : Fin 50000 => ((lgR kK e w lab b k : ℝ) : EReal) := funext fun k => by
    show val_main_v39 (F := Ideal) x0 x1 x2 (hr.lift (ix1 b) k) = _
    rw [lift_row hr b k]
    exact RefLogits.logits_apply e w lab x0 x1 x2 h b _
  rw [hf, val_main_call3_cst_apply, Ideal.ofBits_def, ofBits_neg_inf]
  exact fold_max_coe _

/-- The row's maximum against the broadcast negative infinity is the row's maximum. -/
private theorem v2_apply (h : RefLogits.Args e w lab x0 x1 x2) (b : Fin 1024) :
    val_main_call3_v2 (F := Ideal) x0 x1 x2 (ix1 b) = ((rowMax e w lab b : ℝ) : EReal) := by
  rw [val_main_call3_v2_apply, val_main_call3_v1_apply, val_main_call3_cst_0_apply, rowmax_apply e w lab x0 x1 x2 h b,
    Ideal.ofBits_def, ofBits_neg_inf, Ideal.maximumf_def]
  exact max_eq_right bot_le

/-- A logit minus its row's maximum. -/
private theorem v5_apply (h : RefLogits.Args e w lab x0 x1 x2) (b : Fin 1024) (c : Fin 50000) :
    val_main_call3_v5 (F := Ideal) x0 x1 x2 (ix2 b c) = ((lgR kK e w lab b c - rowMax e w lab b : ℝ) : EReal) := by
  rw [val_main_call3_v5_apply, val_main_call3_v4_apply, val_main_call3_v3_apply, RefLogits.logits_apply e w lab x0 x1 x2 h b c]
  have hi : idx_main_call3_v3 (idx_main_call3_v4 (ix2 b c)) = ix1 b := by
    funext a; match a with | ⟨0, _⟩ => rfl
  rw [hi, v2_apply e w lab x0 x1 x2 h b, Ideal.subf_def, EReal.coe_sub]

/-- The row's sum of the exponentials against the maximum. -/
private theorem v7_apply (h : RefLogits.Args e w lab x0 x1 x2) (b : Fin 1024) :
    val_main_call3_v7 (F := Ideal) x0 x1 x2 (ix1 b) = ((rowSum e w lab b : ℝ) : EReal) := by
  rw [val_main_call3_v7_apply, val_main_call3_cst_1_apply, Ideal.ofBits_def, ofBits_zero, EReal.coe_zero, zero_add]
  unfold rowSum
  rw [coe_sum]
  refine Finset.sum_congr rfl fun k _ => ?_
  have hi : idx_main_call3_v7 (ix1 b) k = ix2 b k := by
    funext a; match a with | ⟨0, _⟩ => rfl | ⟨1, _⟩ => rfl
  rw [hi, val_main_call3_v6_apply, v5_apply e w lab x0 x1 x2 h b k, Ideal.hostUnary_exp_def, Ideal.exp_coe]

/-- The logarithm of the row's sum, broadcast along the row. -/
private theorem v10_apply (h : RefLogits.Args e w lab x0 x1 x2) (b : Fin 1024) (c : Fin 50000) :
    val_main_call3_v10 (F := Ideal) x0 x1 x2 (ix2 b c) = ((Real.log (rowSum e w lab b) : ℝ) : EReal) := by
  rw [val_main_call3_v10_apply, val_main_call3_v9_apply, val_main_call3_v8_apply]
  have hi : idx_main_call3_v8 (idx_main_call3_v10 (ix2 b c)) = ix1 b := by
    funext a; match a with | ⟨0, _⟩ => rfl
  rw [hi, v7_apply e w lab x0 x1 x2 h b, Ideal.hostUnary_log_def]
  exact ideal_log_coe_pos (rowSum_pos e w lab b)

/-- The row's log-softmax at a column. -/
theorem logsoftmax_apply (h : RefLogits.Args e w lab x0 x1 x2) (b : Fin 1024) (c : Fin 50000) :
    val_main_v40 (F := Ideal) x0 x1 x2 (ix2 b c)
      = ((lgR kK e w lab b c - Real.log (∑ c' : Fin 50000, Real.exp (lgR kK e w lab b c')) : ℝ) : EReal) := by
  rw [val_main_v40_apply, v5_apply e w lab x0 x1 x2 h b c, v10_apply e w lab x0 x1 x2 h b c, Ideal.subf_def, ← EReal.coe_sub]
  have hl := shifted_lse (fun c' : Fin 50000 => lgR kK e w lab b c')
  refine congrArg (fun r : ℝ => (r : EReal)) ?_
  show lgR kK e w lab b c - rowMax e w lab b - Real.log (rowSum e w lab b) = _
  rw [← hl]
  unfold rowSum rowMax
  ring

/-! ### The label column and the gather along the row -/

/-- A word whose signed value is not negative is the word of that value. -/
private theorem word_of_nonneg (L : BitVec 32) (h0 : 0 ≤ L.toInt) : L = BitVec.ofNat 32 L.toInt.toNat := by
  apply BitVec.eq_of_toNat_eq
  rw [BitVec.toNat_ofNat]
  have hlt := L.isLt
  rw [BitVec.toInt_eq_toNat_cond] at h0 ⊢
  split at h0 <;> omega

private theorem toInt_zero32 : (0#32 : BitVec 32).toInt = 0 := by decide
private theorem toInt_49999 : (49999#32 : BitVec 32).toInt = 49999 := by decide

/-- The label column at row `b` is the label. -/
private theorem v41_at (h : RefLogits.Args e w lab x0 x1 x2) (b : Fin 1024) :
    val_main_v41 (F := Ideal) x1 (ix2 b (0 : Fin 1)) = lab b := by
  rw [val_main_v41_apply]
  have hi : idx_main_v41 (ix2 b (0 : Fin 1)) = ix1 b := by
    funext a; match a with | ⟨0, _⟩ => rfl
  rw [hi, h.lbl b]

/-- A label that is not negative is not wrapped. -/
private theorem v4_at (h : RefLogits.Args e w lab x0 x1 x2) (b : Fin 1024) (hb : 0 ≤ (lab b).toInt) :
    val_main_call4_v4 (F := Ideal) x1 (ix2 b (0 : Fin 1)) = lab b := by
  rw [val_main_call4_v4_apply, val_main_call4_v1_apply, v41_at e w lab x0 x1 x2 h b, val_main_call4_v0_apply,
    val_main_call4_c_apply]
  have hc : IntOp.cmpi .slt (lab b) 0#32 = 0#1 :=
    eq_zero_of_ne_one fun hc => by
      have := IntOp.cmpi_slt.1 hc
      rw [toInt_zero32] at this
      omega
  rw [hc, select_zero]

/-- The start index of row `b` is the label. -/
private theorem v5_at (h : RefLogits.Args e w lab x0 x1 x2) (b : Fin 1024) (hb : 0 ≤ (lab b).toInt) :
    val_main_call4_v5 (F := Ideal) x1 (ix3 b (0 : Fin 1) (0 : Fin 1)) = lab b := by
  rw [val_main_call4_v5_apply]
  have hi : idx_main_call4_v5 (ix3 b (0 : Fin 1) (0 : Fin 1)) = ix2 b (0 : Fin 1) := by
    funext a; apply Fin.ext
    match a with
    | ⟨0, _⟩ => show ((b.val * 1 + 0) * 1 + 0) / 1 = b.val; omega
    | ⟨1, _⟩ => rfl
  rw [hi, v4_at e w lab x0 x1 x2 h b hb]

/-- For a label in range the in-range bit is one. -/
private theorem v11_at (h : RefLogits.Args e w lab x0 x1 x2) (b : Fin 1024)
    (hb : 0 ≤ (lab b).toInt ∧ (lab b).toInt < 50000) :
    val_main_call4_v11 (F := Ideal) x1 (ix3 b (0 : Fin 1) (0 : Fin 1)) = 1#1 := by
  rw [val_main_call4_v11_apply, val_main_call4_v7_apply, val_main_call4_v10_apply, v5_at e w lab x0 x1 x2 h b hb.1,
    val_main_call4_v6_apply, val_main_call4_c_2_apply, val_main_call4_v9_apply, val_main_call4_v8_apply,
    val_main_call4_c_1_apply]
  have h1 : IntOp.cmpi .sge (lab b) 0#32 = 1#1 := IntOp.cmpi_sge.2 (by rw [toInt_zero32]; exact hb.1)
  have h2 : IntOp.cmpi .sle (lab b) 49999#32 = 1#1 := IntOp.cmpi_sle.2 (by rw [toInt_49999]; omega)
  rw [h1, h2]
  rfl

/-- The mask of row `b`: the conjunction over the unit axis of the in-range bit. -/
private theorem v12_at (h : RefLogits.Args e w lab x0 x1 x2) (b : Fin 1024)
    (hb : 0 ≤ (lab b).toInt ∧ (lab b).toInt < 50000) :
    val_main_call4_v12 (F := Ideal) x1 (ix2 b (0 : Fin 1)) = 1#1 := by
  unfold val_main_call4_v12
  have hr : S1024x1x1.Reduces [2] S1024x1 := by decide
  rw [Host.reduce_eq_fold_single IntOp.andi _ _ reducesTo_S1024x1x1_S1024x1_d2 hr h_S_]
  have hf : (val_main_call4_v11 (F := Ideal) x1 ∘ hr.lift (ix2 b (0 : Fin 1))) = fun _ => 1#1 := funext fun k => by
    show val_main_call4_v11 (F := Ideal) x1 (hr.lift (ix2 b (0 : Fin 1)) k) = 1#1
    have hl : hr.lift (ix2 b (0 : Fin 1)) k = ix3 b (0 : Fin 1) (0 : Fin 1) := by
      funext c; apply Fin.ext
      match c with
      | ⟨0, _⟩ => rfl
      | ⟨1, _⟩ => rfl
      | ⟨2, _⟩ => show k.val = 0; have hk : k.val < 1 := k.isLt; omega
    rw [hl, v11_at e w lab x0 x1 x2 h b hb]
  rw [hf, val_main_call4_c_3_apply]
  rfl

/-- The label as a class. -/
private def labC (b : Fin 1024) (hb : 0 ≤ (lab b).toInt ∧ (lab b).toInt < 50000) : Fin 50000 :=
  ⟨(lab b).toInt.toNat, by omega⟩

/-- The gather reads the log-softmax at the label's column. -/
private theorem v13_at (h : RefLogits.Args e w lab x0 x1 x2) (b : Fin 1024)
    (hb : 0 ≤ (lab b).toInt ∧ (lab b).toInt < 50000) :
    val_main_call4_v13 (F := Ideal) x0 x1 x2 (ix2 b (0 : Fin 1))
      = val_main_v40 (F := Ideal) x0 x1 x2 (ix2 b (labC lab b hb)) := by
  unfold val_main_call4_v13
  refine (Cert.LibTakeAlongAxis.gather_along_apply (B := 1024) (C := 50000) (by norm_num)
    gather_S1024x50000_S1024x1x1_S1024x1_n_1_0_0_1_2_11_wf (val_main_v40 (F := Ideal) x0 x1 x2)
    (val_main_call4_v5 (F := Ideal) x1) b).trans ?_
  refine congrArg (val_main_v40 (F := Ideal) x0 x1 x2) (congrArg (ix2 b) (Fin.ext ?_))
  show min (val_main_call4_v5 (F := Ideal) x1 (ix3 b (0 : Fin 1) (0 : Fin 1))).toInt.toNat (50000 - 1) = (lab b).toInt.toNat
  rw [v5_at e w lab x0 x1 x2 h b hb.1]
  omega

/-- The negated gathered log-softmax of row `b` is the row's loss. -/
private theorem v44_at (h : RefLogits.Args e w lab x0 x1 x2)
    (hrange : ∀ b : Fin 1024, 0 ≤ (lab b).toInt ∧ (lab b).toInt < 50000) (b : Fin 1024) :
    val_main_v44 (F := Ideal) x0 x1 x2 (ix1 b) = ((nllR kK e w lab b : ℝ) : EReal) := by
  rw [val_main_v44_apply, val_main_v43_apply]
  have hi : idx_main_v43 (ix1 b) = ix2 b (0 : Fin 1) := by
    funext a; apply Fin.ext
    match a with
    | ⟨0, _⟩ => show b.val / 1 = b.val; omega
    | ⟨1, _⟩ => rfl
  rw [hi, val_main_v42_apply, v12_at e w lab x0 x1 x2 h b (hrange b), select_one, v13_at e w lab x0 x1 x2 h b (hrange b),
    logsoftmax_apply e w lab x0 x1 x2 h b (labC lab b (hrange b)), Ideal.hostNegf_def, Ideal.negf_def, ← EReal.coe_neg]
  unfold nllR
  rw [tgtR_of_range e w lab b (labC lab b (hrange b)) (word_of_nonneg (lab b) (hrange b).1)]

/-- THE REFERENCE'S RESULT, for labels in range. -/
theorem result (h : RefLogits.Args e w lab x0 x1 x2)
    (hrange : ∀ b : Fin 1024, 0 ≤ (lab b).toInt ∧ (lab b).toInt < 50000) :
    val_main_v46 (F := Ideal) x0 x1 x2 = fun _ => ((lossR kK e w lab : ℝ) : EReal) := by
  funext i
  rw [val_main_v46_apply, val_main_v45_apply, val_main_cst_12_apply, val_main_cst_13_apply, Ideal.ofBits_def,
    Ideal.ofBits_def, ofBits_zero, ofBits_1024, EReal.coe_zero, zero_add, Ideal.hostDivf_def]
  have hs : (∑ j : S1024.Idx, val_main_v44 (F := Ideal) x0 x1 x2 j)
      = ((∑ b : Fin 1024, nllR kK e w lab b : ℝ) : EReal) := by
    rw [← Equiv.sum_comp (idxEquiv1 (n := 1024)).symm, coe_sum]
    exact Finset.sum_congr rfl fun b _ => v44_at e w lab x0 x1 x2 h hrange b
  rw [hs, Ideal.div_coe (by norm_num : (1024 : ℝ) ≠ 0), ← EReal.coe_mul]
  refine congrArg (fun r : ℝ => (r : EReal)) ?_
  unfold lossR
  rw [Nat.cast_ofNat, mul_one_div]

end Cert.ArcLoss.RefLoss

end
-- ==== Proof.lean ====
/-
  The additive-angular-margin softmax loss of 1024 embeddings against 50000 class rows: the kernel, which walks each half
  of the classes in 25 tiles keeping a running maximum, a running sum of exponentials and the logit at the label, and
  joins the two halves on the host, against the reference, which forms all logits at once, takes the log-softmax and
  reads it at the label.

  Both end at one real number, the mean over the rows of the logarithm of the sum of the exponentials of the row's
  logits minus the logit at the label (`lossR`). The inputs are finite and every label is a class, so every cosine and
  logit is a real number; the tiled running log-sum-exp equals the whole row's by the law of `Iface`, the label logit
  summed over the tiles is the logit at the label, and the reference's gather reads that column. The kernel's and the
  reference's frames are their runs with the result dropped; the idealized kernel is the kernel's own text read on the
  extended reals.
-/
import proofs.«414580_j28183575396662_1_alg».proof.Defs
import proofs.«414580_j28183575396662_1_alg».proof.Proof.Gen.Kernel
import proofs.«414580_j28183575396662_1_alg».proof.Proof.Gen.Kernel.Skeleton
import proofs.«414580_j28183575396662_1_alg».proof.Proof.Gen.Kernel.Launch
import proofs.«414580_j28183575396662_1_alg».proof.Proof.Gen.Kernel.Points
import proofs.«414580_j28183575396662_1_alg».proof.Proof.Gen.Kernel.Frame
import proofs.«414580_j28183575396662_1_alg».proof.Proof.Gen.KernelIdeal
import proofs.«414580_j28183575396662_1_alg».proof.Proof.Gen.KernelIdeal.Skeleton
import proofs.«414580_j28183575396662_1_alg».proof.Proof.Gen.KernelIdeal.Launch
import proofs.«414580_j28183575396662_1_alg».proof.Proof.Gen.KernelIdeal.Points
import proofs.«414580_j28183575396662_1_alg».proof.Proof.Gen.KernelIdeal.Frame
import proofs.«414580_j28183575396662_1_alg».proof.Proof.Gen.ReferenceIdeal
import proofs.«414580_j28183575396662_1_alg».proof.Proof.Gen.Pre_finite_inputs
import proofs.«414580_j28183575396662_1_alg».proof.Proof.RefRun
import proofs.«414580_j28183575396662_1_alg».proof.Proof.RefRead
import proofs.«414580_j28183575396662_1_alg».proof.Proof.PreFacts
import proofs.«414580_j28183575396662_1_alg».proof.Proof.KTail
import proofs.«414580_j28183575396662_1_alg».proof.Proof.RefLoss
import Idealize.ShloMosaic.Adequacy
import Idealize.ShloMosaic.Init

noncomputable section

namespace Cert.Proof

open Idealize.ShloMosaic Idealize.ShloMosaic.ValueIdx Idealize.SL.Sem Cert.ArcLoss

/-- The real embeddings, class rows and labels a memory's argument arrays hold on device `c`. -/
def embR (m : (ℓ : Loc Cert.KernelIdeal.nD Cert.KernelIdeal.τ Cert.KernelIdeal.sig) → Buf (Elt Ideal) ℓ)
    (c : Dev Cert.KernelIdeal.nD) (b : Fin 1024) (d : Fin 512) : ℝ :=
  (m ((c.tc : Thread Cert.KernelIdeal.nD Cert.KernelIdeal.τ).loc Cert.KernelIdeal.main_arg0) (ix2 b d)).toReal
def clsR (m : (ℓ : Loc Cert.KernelIdeal.nD Cert.KernelIdeal.τ Cert.KernelIdeal.sig) → Buf (Elt Ideal) ℓ)
    (c : Dev Cert.KernelIdeal.nD) (r : Fin 50000) (d : Fin 512) : ℝ :=
  (m ((c.tc : Thread Cert.KernelIdeal.nD Cert.KernelIdeal.τ).loc Cert.KernelIdeal.main_arg2) (ix2 r d)).toReal
def labW (m : (ℓ : Loc Cert.KernelIdeal.nD Cert.KernelIdeal.τ Cert.KernelIdeal.sig) → Buf (Elt Ideal) ℓ)
    (c : Dev Cert.KernelIdeal.nD) (b : Fin 1024) : BitVec 32 :=
  m ((c.tc : Thread Cert.KernelIdeal.nD Cert.KernelIdeal.τ).loc Cert.KernelIdeal.main_arg1) (ix1 b)

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Under the precondition the memory's argument arrays hold real embeddings and class rows, and labels that are classes. -/
theorem args_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    KTail.Args m (embR m c) (clsR m c) (labW m c) c ∧ ∀ b, 0 ≤ (labW m c b).toInt ∧ (labW m c b).toInt < 50000 := by
  obtain ⟨h0, h2, h1⟩ := PreFacts.facts _ _ _ (hpre c)
  refine ⟨⟨fun b d => ?_, fun r d => ?_, fun b => rfl⟩, fun b => h1 (ix1 b)⟩
  · obtain ⟨x, hx⟩ := h0 (ix2 b d)
    show _ = ((EReal.toReal _ : ℝ) : EReal)
    rw [hx, EReal.toReal_coe]
  · obtain ⟨x, hx⟩ := h2 (ix2 r d)
    show _ = ((EReal.toReal _ : ℝ) : EReal)
    rw [hx, EReal.toReal_coe]

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c _ => ((lossR kK (embR m c) (clsR m c) (labW m c) : ℝ) : EReal), ?_, ?_⟩
  · -- the kernel: its run to the frame's post, the result read through the host lines after the region
    refine (θ_run Cert.KernelIdeal.defs _ _).mono (fun r h c => ⟨?_, ?_, ?_, ?_⟩) (Cert.KernelIdeal.Gen.run_main (F := Ideal) m ρ)
    · exact ((h c).2 Cert.KernelIdeal.main_v28 (Pipeline.mem_restRefs_of Cert.KernelIdeal.main_v28 (by decide) (by decide))).trans
        (KTail.result m (embR m c) (clsR m c) (labW m c) c (args_of_pre m hpre c).1)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).1 2).trans (((Cert.KernelIdeal.Gen.dats m 0 c).arrAt_in 2 rfl _).trans
        ((Cert.KernelIdeal.Gen.A_eq m c 2).trans (Cert.KernelIdeal.Gen.V_main_arg2 m c)))
  · -- the reference: its run, the result's stage read as the mean loss of the same arguments
    refine (θ_run Cert.ReferenceIdeal.defs _ _).mono (fun _ h c => ⟨?_, (h c).2⟩)
      (Cert.ReferenceIdeal.Value.run (F := Ideal) m' ρ')
    rw [(h c).1, Cert.ReferenceIdeal.Read.val_main_v46_eq, (hagree c).1, (hagree c).2.1, (hagree c).2.2]
    obtain ⟨ha, hr⟩ := args_of_pre m hpre c
    exact RefLoss.result (embR m c) (clsR m c) (labW m c) _ _ _ ⟨ha.emb, ha.cls, ha.lbl⟩ hr

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
